-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x6 : Shape := ⟨2, ![131072, 6]⟩
abbrev S1048576x42 : Shape := ⟨2, ![1048576, 42]⟩
abbrev S1048576x2 : Shape := ⟨2, ![1048576, 2]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S_ : Shape := ⟨0, ![]⟩
abbrev S1048576x1 : Shape := ⟨2, ![1048576, 1]⟩
abbrev S1048576 : Shape := ⟨1, ![1048576]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x6 : S_.BroadcastsInDim S131072x6 (![] : Fin 0 → Fin S131072x6.rank)
  reducesTo_S131072x6_S_d0_1 : S131072x6.ReducesTo [0, 1] S_
  bcast_S_S1048576x42 : S_.BroadcastsInDim S1048576x42 (![] : Fin 0 → Fin S1048576x42.rank)
  reducesTo_S1048576x42_S_d0_1 : S1048576x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x2x128x128 : S_.BroadcastsInDim S1x2x128x128 (![] : Fin 0 → Fin S1x2x128x128.rank)
  reducesTo_S1x2x128x128_S_d0_1_2_3 : S1x2x128x128.ReducesTo [0, 1, 2, 3] S_
  bcast_S_S1x2x128 : S_.BroadcastsInDim S1x2x128 (![] : Fin 0 → Fin S1x2x128.rank)
  reducesTo_S1x2x128_S_d0_1_2 : S1x2x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  slices_S1048576x2_S1048576x1_0_1 : S1048576x2.Slices ![0, 1] S1048576x1
  shapeCasts_S1048576x1_S1048576 : S1048576x1.ShapeCasts S1048576
  bcast_S_S1048576 : S_.BroadcastsInDim S1048576 (![] : Fin 0 → Fin S1048576.rank)
  reducesTo_S1048576_S_d0 : S1048576.ReducesTo [0] S_

variable [Facts]

def fn_part6 {F : FTy → Type} [FloatOps F] (main_v93 : IVec S_ 1) (main_v102 : IVec S1048576 1) (main_c_38 : IVec S_ 1) : IVec S_ 1 :=
  let main_v103 : IVec S_ 1 := (fun x v => Host.reduce IntOp.andi x v reducesTo_S1048576_S_d0 h_S_) main_v102 main_c_38
  let main_v104 : IVec S_ 1 := andi main_v93 main_v103
  main_v104

def fn_part5 {F : FTy → Type} [FloatOps F] (main_arg3 : IVec S1048576x2 32) (main_arg19 : FVec F S2x2x128 .f32) (main_v83 : IVec S_ 1) (main_v84 : FVec F S2x2x128x128 .f32) (main_cst_32 : FVec F S_ .f32) : IVec S_ 1 :=
  let main_v85 : FVec F S2x2x128x128 .f32 := broadcastInDim S2x2x128x128 ![] bcast_S_S2x2x128x128 main_cst_32
  let main_v86 : IVec S2x2x128x128 1 := cmpf .olt main_v84 main_v85
  let main_c_33 : IVec S_ 1 := constantI S_ 1 1#1
  let main_v87 : IVec S_ 1 := (fun x v => Host.reduce IntOp.andi x v reducesTo_S2x2x128x128_S_d0_1_2_3 h_S_) main_v86 main_c_33
  let main_v88 : IVec S_ 1 := andi main_v83 main_v87
  let main_v89 : FVec F S2x2x128 .f32 := Host.absf main_arg19
  let main_cst_34 : FVec F S_ .f32 := constant S_ .f32 0x7F800000#32
  let main_v90 : FVec F S2x2x128 .f32 := broadcastInDim S2x2x128 ![] bcast_S_S2x2x128 main_cst_34
  let main_v91 : IVec S2x2x128 1 := cmpf .olt main_v89 main_v90
  let main_c_35 : IVec S_ 1 := constantI S_ 1 1#1
  let main_v92 : IVec S_ 1 := (fun x v => Host.reduce IntOp.andi x v reducesTo_S2x2x128_S_d0_1_2 h_S_) main_v91 main_c_35
  let main_v93 : IVec S_ 1 := andi main_v88 main_v92
  let main_v94 : IVec S1048576x1 32 := (extractStridedSlice S1048576x1 ![0, 1] · slices_S1048576x2_S1048576x1_0_1) main_arg3
  let main_v95 : IVec S1048576 32 := shapeCast S1048576 main_v94 shapeCasts_S1048576x1_S1048576
  let main_c_36 : IVec S_ 32 := constantI S_ 32 0#32
  let main_v96 : IVec S1048576 32 := broadcastInDim S1048576 ![] bcast_S_S1048576 main_c_36
  let main_v97 : IVec S1048576 1 := cmpi .sge main_v95 main_v96
  let main_v98 : IVec S1048576x1 32 := (extractStridedSlice S1048576x1 ![0, 1] · slices_S1048576x2_S1048576x1_0_1) main_arg3
  let main_v99 : IVec S1048576 32 := shapeCast S1048576 main_v98 shapeCasts_S1048576x1_S1048576
  let main_c_37 : IVec S_ 32 := constantI S_ 32 131072#32
  let main_v100 : IVec S1048576 32 := broadcastInDim S1048576 ![] bcast_S_S1048576 main_c_37
  let main_v101 : IVec S1048576 1 := cmpi .slt main_v99 main_v100
  let main_v102 : IVec S1048576 1 := andi main_v97 main_v101
  let main_c_38 : IVec S_ 1 := constantI S_ 1 1#1
  fn_part6 (F := F) main_v93 main_v102 main_c_38

def fn_part4 {F : FTy → Type} [FloatOps F] (main_arg3 : IVec S1048576x2 32) (main_arg15 : FVec F S1x2x128 .f32) (main_arg16 : FVec F S128x128 .f32) (main_arg17 : FVec F S128 .f32) (main_arg18 : FVec F S2x2x128x128 .f32) (main_arg19 : FVec F S2x2x128 .f32) (main_v63 : IVec S_ 1) (main_v67 : IVec S_ 1) : IVec S_ 1 :=
  let main_v68 : IVec S_ 1 := andi main_v63 main_v67
  let main_v69 : FVec F S1x2x128 .f32 := Host.absf main_arg15
  let main_cst_26 : FVec F S_ .f32 := constant S_ .f32 0x7F800000#32
  let main_v70 : FVec F S1x2x128 .f32 := broadcastInDim S1x2x128 ![] bcast_S_S1x2x128 main_cst_26
  let main_v71 : IVec S1x2x128 1 := cmpf .olt main_v69 main_v70
  let main_c_27 : IVec S_ 1 := constantI S_ 1 1#1
  let main_v72 : IVec S_ 1 := (fun x v => Host.reduce IntOp.andi x v reducesTo_S1x2x128_S_d0_1_2 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x2x128x128 .f32 := Host.absf main_arg18
  let main_cst_32 : FVec F S_ .f32 := constant S_ .f32 0x7F800000#32
  fn_part5 (F := F) main_arg3 main_arg19 main_v83 main_v84 main_cst_32

def fn_part3 {F : FTy → Type} [FloatOps F] (main_arg3 : IVec S1048576x2 32) (main_arg12 : FVec F S128x64 .f32) (main_arg13 : FVec F S64x128 .f32) (main_arg14 : FVec F S1x2x128x128 .f32) (main_arg15 : FVec F S1x2x128 .f32) (main_arg16 : FVec F S128x128 .f32) (main_arg17 : FVec F S128 .f32) (main_arg18 : FVec F S2x2x128x128 .f32) (main_arg19 : FVec F S2x2x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S1x2x128x128 .f32 := Host.absf main_arg14
  let main_cst_24 : FVec F S_ .f32 := constant S_ .f32 0x7F800000#32
  let main_v65 : FVec F S1x2x128x128 .f32 := broadcastInDim S1x2x128x128 ![] bcast_S_S1x2x128x128 main_cst_24
  let main_v66 : IVec S1x2x128x128 1 := cmpf .olt main_v64 main_v65
  let main_c_25 : IVec S_ 1 := constantI S_ 1 1#1
  let main_v67 : IVec S_ 1 := (fun x v => Host.reduce IntOp.andi x v reducesTo_S1x2x128x128_S_d0_1_2_3 h_S_) main_v66 main_c_25
  fn_part4 (F := F) main_arg3 main_arg15 main_arg16 main_arg17 main_arg18 main_arg19 main_v63 main_v67

def fn_part2 {F : FTy → Type} [FloatOps F] (main_arg3 : IVec S1048576x2 32) (main_arg8 : FVec F S128x128 .f32) (main_arg9 : FVec F S128 .f32) (main_arg10 : FVec F S128x128 .f32) (main_arg11 : FVec F S128 .f32) (main_arg12 : FVec F S128x64 .f32) (main_arg13 : FVec F S64x128 .f32) (main_arg14 : FVec F S1x2x128x128 .f32) (main_arg15 : FVec F S1x2x128 .f32) (main_arg16 : FVec F S128x128 .f32) (main_arg17 : FVec F S128 .f32) (main_arg18 : FVec F S2x2x128x128 .f32) (main_arg19 : FVec F S2x2x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_arg12 main_arg13 main_arg14 main_arg15 main_arg16 main_arg17 main_arg18 main_arg19 main_v48 main_v49 main_v50

def fn_part1 {F : FTy → Type} [FloatOps F] (main_arg3 : IVec S1048576x2 32) (main_arg5 : FVec F S8x128 .f32) (main_arg6 : FVec F S42x8 .f32) (main_arg7 : FVec F S8x64 .f32) (main_arg8 : FVec F S128x128 .f32) (main_arg9 : FVec F S128 .f32) (main_arg10 : FVec F S128x128 .f32) (main_arg11 : FVec F S128 .f32) (main_arg12 : FVec F S128x64 .f32) (main_arg13 : FVec F S64x128 .f32) (main_arg14 : FVec F S1x2x128x128 .f32) (main_arg15 : FVec F S1x2x128 .f32) (main_arg16 : FVec F S128x128 .f32) (main_arg17 : FVec F S128 .f32) (main_arg18 : FVec F S2x2x128x128 .f32) (main_arg19 : FVec F S2x2x128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg6
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg7
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg3 main_arg8 main_arg9 main_arg10 main_arg11 main_arg12 main_arg13 main_arg14 main_arg15 main_arg16 main_arg17 main_arg18 main_arg19 main_v33

def fn {F : FTy → Type} [FloatOps F] (main_arg0 : FVec F S131072x128 .f32) (main_arg1 : FVec F S131072x6 .f32) (main_arg2 : FVec F S1048576x42 .f32) (main_arg3 : IVec S1048576x2 32) (main_arg4 : FVec F S6x8 .f32) (main_arg5 : FVec F S8x128 .f32) (main_arg6 : FVec F S42x8 .f32) (main_arg7 : FVec F S8x64 .f32) (main_arg8 : FVec F S128x128 .f32) (main_arg9 : FVec F S128 .f32) (main_arg10 : FVec F S128x128 .f32) (main_arg11 : FVec F S128 .f32) (main_arg12 : FVec F S128x64 .f32) (main_arg13 : FVec F S64x128 .f32) (main_arg14 : FVec F S1x2x128x128 .f32) (main_arg15 : FVec F S1x2x128 .f32) (main_arg16 : FVec F S128x128 .f32) (main_arg17 : FVec F S128 .f32) (main_arg18 : FVec F S2x2x128x128 .f32) (main_arg19 : FVec F S2x2x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x6 .f32 := Host.absf main_arg1
  let main_cst_0 : FVec F S_ .f32 := constant S_ .f32 0x7F800000#32
  let main_v5 : FVec F S131072x6 .f32 := broadcastInDim S131072x6 ![] bcast_S_S131072x6 main_cst_0
  let main_v6 : IVec S131072x6 1 := cmpf .olt main_v4 main_v5
  let main_c_1 : IVec S_ 1 := constantI S_ 1 1#1
  let main_v7 : IVec S_ 1 := (fun x v => Host.reduce IntOp.andi x v reducesTo_S131072x6_S_d0_1 h_S_) main_v6 main_c_1
  let main_v8 : IVec S_ 1 := andi main_v3 main_v7
  let main_v9 : FVec F S1048576x42 .f32 := Host.absf main_arg2
  let main_cst_2 : FVec F S_ .f32 := constant S_ .f32 0x7F800000#32
  let main_v10 : FVec F S1048576x42 .f32 := broadcastInDim S1048576x42 ![] bcast_S_S1048576x42 main_cst_2
  let main_v11 : IVec S1048576x42 1 := cmpf .olt main_v9 main_v10
  let main_c_3 : IVec S_ 1 := constantI S_ 1 1#1
  let main_v12 : IVec S_ 1 := (fun x v => Host.reduce IntOp.andi x v reducesTo_S1048576x42_S_d0_1 h_S_) main_v11 main_c_3
  let main_v13 : IVec S_ 1 := andi main_v8 main_v12
  let main_v14 : FVec F S6x8 .f32 := Host.absf main_arg4
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg3 main_arg5 main_arg6 main_arg7 main_arg8 main_arg9 main_arg10 main_arg11 main_arg12 main_arg13 main_arg14 main_arg15 main_arg16 main_arg17 main_arg18 main_arg19 main_v13 main_v16
-- ==== Kernel.lean ====
abbrev S131072x128 : Shape := ⟨2, ![131072, 128]⟩
abbrev S131072x6 : Shape := ⟨2, ![131072, 6]⟩
abbrev S1048576x42 : Shape := ⟨2, ![1048576, 42]⟩
abbrev S1048576x2 : Shape := ⟨2, ![1048576, 2]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S1048576x1 : Shape := ⟨2, ![1048576, 1]⟩
abbrev S1048576 : Shape := ⟨1, ![1048576]⟩
abbrev S1x128 : Shape := ⟨2, ![1, 128]⟩
abbrev S131072x64 : Shape := ⟨2, ![131072, 64]⟩
abbrev S8192x128 : Shape := ⟨2, ![8192, 128]⟩
abbrev S8192x6 : Shape := ⟨2, ![8192, 6]⟩
abbrev S8192x64 : Shape := ⟨2, ![8192, 64]⟩
abbrev S8192x8 : Shape := ⟨2, ![8192, 8]⟩
abbrev S_ : Shape := ⟨0, ![]⟩
abbrev S1 : Shape := ⟨1, ![1]⟩
abbrev S1x1 : Shape := ⟨2, ![1, 1]⟩
abbrev S1048576x64 : Shape := ⟨2, ![1048576, 64]⟩
abbrev S8192x42 : Shape := ⟨2, ![8192, 42]⟩
abbrev S1x2x1x128 : Shape := ⟨4, ![1, 2, 1, 128]⟩
abbrev S2x2x1x128 : Shape := ⟨4, ![2, 2, 1, 128]⟩
abbrev S1x1x128x128 : Shape := ⟨4, ![1, 1, 128, 128]⟩
abbrev S1x1x1x128 : Shape := ⟨4, ![1, 1, 1, 128]⟩

abbrev nBuf : Space → Nat
  | .hbm => 59
  | .vmem => 34
  | .smem => 0
  | _ => 0

abbrev bufTy : (tb : Table) → Fin (tcTables nBuf tb) → BufTy
  | .hbm, ⟨0, _⟩ => ⟨S131072x128, .f32⟩
  | .hbm, ⟨1, _⟩ => ⟨S131072x6, .f32⟩
  | .hbm, ⟨2, _⟩ => ⟨S1048576x42, .f32⟩
  | .hbm, ⟨3, _⟩ => ⟨S1048576x2, .i32⟩
  | .hbm, ⟨4, _⟩ => ⟨S6x8, .f32⟩
  | .hbm, ⟨5, _⟩ => ⟨S8x128, .f32⟩
  | .hbm, ⟨6, _⟩ => ⟨S42x8, .f32⟩
  | .hbm, ⟨7, _⟩ => ⟨S8x64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64x128, .f32⟩
  | .hbm, ⟨14, _⟩ => ⟨S1x2x128x128, .f32⟩
  | .hbm, ⟨15, _⟩ => ⟨S1x2x128, .f32⟩
  | .hbm, ⟨16, _⟩ => ⟨S128x128, .f32⟩
  | .hbm, ⟨17, _⟩ => ⟨S128, .f32⟩
  | .hbm, ⟨18, _⟩ => ⟨S2x2x128x128, .f32⟩
  | .hbm, ⟨19, _⟩ => ⟨S2x2x128, .f32⟩
  | .hbm, ⟨20, _⟩ => ⟨S1048576x1, .i32⟩
  | .hbm, ⟨21, _⟩ => ⟨S1048576, .i32⟩
  | .hbm, ⟨22, _⟩ => ⟨S1048576x1, .i32⟩
  | .hbm, ⟨23, _⟩ => ⟨S1048576, .i32⟩
  | .hbm, ⟨24, _⟩ => ⟨S1x128, .f32⟩
  | .hbm, ⟨25, _⟩ => ⟨S131072x64, .f32⟩
  | .hbm, ⟨26, _⟩ => ⟨S_, .i32⟩
  | .hbm, ⟨27, _⟩ => ⟨S1048576, .i32⟩
  | .hbm, ⟨28, _⟩ => ⟨S1048576, .i1⟩
  | .hbm, ⟨29, _⟩ => ⟨S_, .i32⟩
  | .hbm, ⟨30, _⟩ => ⟨S1048576, .i32⟩
  | .hbm, ⟨31, _⟩ => ⟨S1048576, .i32⟩
  | .hbm, ⟨32, _⟩ => ⟨S1048576, .i32⟩
  | .hbm, ⟨33, _⟩ => ⟨S1048576x1, .i32⟩
  | .hbm, ⟨34, _⟩ => ⟨S1, .i32⟩
  | .hbm, ⟨35, _⟩ => ⟨S_, .i32⟩
  | .hbm, ⟨36, _⟩ => ⟨S1048576x1, .i32⟩
  | .hbm, ⟨37, _⟩ => ⟨S1048576x1, .i1⟩
  | .hbm, ⟨38, _⟩ => ⟨S1x1, .i32⟩
  | .hbm, ⟨39, _⟩ => ⟨S1048576x1, .i32⟩
  | .hbm, ⟨40, _⟩ => ⟨S1048576x1, .i1⟩
  | .hbm, ⟨41, _⟩ => ⟨S1048576x1, .i1⟩
  | .hbm, ⟨42, _⟩ => ⟨S_, .i1⟩
  | .hbm, ⟨43, _⟩ => ⟨S1048576, .i1⟩
  | .hbm, ⟨44, _⟩ => ⟨S1048576x64, .f32⟩
  | .hbm, ⟨45, _⟩ => ⟨S1048576x64, .i1⟩
  | .hbm, ⟨46, _⟩ => ⟨S_, .f32⟩
  | .hbm, ⟨47, _⟩ => ⟨S1048576x64, .f32⟩
  | .hbm, ⟨48, _⟩ => ⟨S1048576x64, .f32⟩
  | .hbm, ⟨49, _⟩ => ⟨S1048576x64, .f32⟩
  | .hbm, ⟨50, _⟩ => ⟨S_, .f32⟩
  | .hbm, ⟨51, _⟩ => ⟨S131072x64, .f32⟩
  | .hbm, ⟨52, _⟩ => ⟨S1048576x1, .i32⟩
  | .hbm, ⟨53, _⟩ => ⟨S131072x64, .f32⟩
  | .hbm, ⟨54, _⟩ => ⟨S1x128, .f32⟩
  | .hbm, ⟨55, _⟩ => ⟨S1x128, .f32⟩
  | .hbm, ⟨56, _⟩ => ⟨S1x2x1x128, .f32⟩
  | .hbm, ⟨57, _⟩ => ⟨S2x2x1x128, .f32⟩
  | .hbm, ⟨58, _⟩ => ⟨S131072x128, .f32⟩
  | .local _ .vmem, ⟨0, _⟩ => ⟨S8192x128, .f32⟩
  | .local _ .vmem, ⟨1, _⟩ => ⟨S8192x128, .f32⟩
  | .local _ .vmem, ⟨2, _⟩ => ⟨S8192x6, .f32⟩
  | .local _ .vmem, ⟨3, _⟩ => ⟨S8192x6, .f32⟩
  | .local _ .vmem, ⟨4, _⟩ => ⟨S128x128, .f32⟩
  | .local _ .vmem, ⟨5, _⟩ => ⟨S1x128, .f32⟩
  | .local _ .vmem, ⟨6, _⟩ => ⟨S6x8, .f32⟩
  | .local _ .vmem, ⟨7, _⟩ => ⟨S8x128, .f32⟩
  | .local _ .vmem, ⟨8, _⟩ => ⟨S128x64, .f32⟩
  | .local _ .vmem, ⟨9, _⟩ => ⟨S8192x64, .f32⟩
  | .local _ .vmem, ⟨10, _⟩ => ⟨S8192x64, .f32⟩
  | .local _ .vmem, ⟨11, _⟩ => ⟨S8192x42, .f32⟩
  | .local _ .vmem, ⟨12, _⟩ => ⟨S8192x42, .f32⟩
  | .local _ .vmem, ⟨13, _⟩ => ⟨S8192x64, .f32⟩
  | .local _ .vmem, ⟨14, _⟩ => ⟨S8192x64, .f32⟩
  | .local _ .vmem, ⟨15, _⟩ => ⟨S42x8, .f32⟩
  | .local _ .vmem, ⟨16, _⟩ => ⟨S8x64, .f32⟩
  | .local _ .vmem, ⟨17, _⟩ => ⟨S8192x64, .f32⟩
  | .local _ .vmem, ⟨18, _⟩ => ⟨S8192x64, .f32⟩
  | .local _ .vmem, ⟨19, _⟩ => ⟨S8192x128, .f32⟩
  | .local _ .vmem, ⟨20, _⟩ => ⟨S8192x128, .f32⟩
  | .local _ .vmem, ⟨21, _⟩ => ⟨S128x128, .f32⟩
  | .local _ .vmem, ⟨22, _⟩ => ⟨S1x128, .f32⟩
  | .local _ .vmem, ⟨23, _⟩ => ⟨S8192x64, .f32⟩
  | .local _ .vmem, ⟨24, _⟩ => ⟨S8192x64, .f32⟩
  | .local _ .vmem, ⟨25, _⟩ => ⟨S64x128, .f32⟩
  | .local _ .vmem, ⟨26, _⟩ => ⟨S1x2x128x128, .f32⟩
  | .local _ .vmem, ⟨27, _⟩ => ⟨S1x2x1x128, .f32⟩
  | .local _ .vmem, ⟨28, _⟩ => ⟨S128x128, .f32⟩
  | .local _ .vmem, ⟨29, _⟩ => ⟨S1x128, .f32⟩
  | .local _ .vmem, ⟨30, _⟩ => ⟨S2x2x128x128, .f32⟩
  | .local _ .vmem, ⟨31, _⟩ => ⟨S2x2x1x128, .f32⟩
  | .local _ .vmem, ⟨32, _⟩ => ⟨S8192x128, .f32⟩
  | .local _ .vmem, ⟨33, _⟩ => ⟨S8192x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg11_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem11_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_10 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2x1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2x2x128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2x2x1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S8192x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x6_S8192x6_0_0 : ∀ a, (![0, 0] : Fin 2 → Nat) a + S8192x6.size a ≤ S8192x6.size a
  h_S8192x6 : 0 < S8192x6.numel
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x64_0 : S1048576.BroadcastsInDim S1048576x64 (![0] : Fin 1 → Fin S1048576x64.rank)
  bcast_S_S1048576x64 : S_.BroadcastsInDim S1048576x64 (![] : Fin 0 → Fin S1048576x64.rank)
  inb_S8192x42_S8192x42_0_0 : ∀ a, (![0, 0] : Fin 2 → Nat) a + S8192x42.size a ≤ S8192x42.size a
  h_S8192x42 : 0 < S8192x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  shapeCasts_S8192x64_S8192x64 : S8192x64.ShapeCasts S8192x64
  bcast_S_S131072x64 : S_.BroadcastsInDim S131072x64 (![] : Fin 0 → Fin S131072x64.rank)
  shapeCasts_S1x2x128_S1x2x1x128 : S1x2x128.ShapeCasts S1x2x1x128
  shapeCasts_S2x2x128_S2x2x1x128 : S2x2x128.ShapeCasts S2x2x1x128
  inb_S64x128_S64x128_0_0 : ∀ a, (![0, 0] : Fin 2 → Nat) a + S64x128.size a ≤ S64x128.size a
  h_S64x128 : 0 < S64x128.numel
  inb_S1x2x128x128_S1x1x128x128_0_0_0_0 : ∀ a, (![0, 0, 0, 0] : Fin 4 → Nat) a + S1x1x128x128.size a ≤ S1x2x128x128.size a
  h_S1x1x128x128 : 0 < S1x1x128x128.numel
  shapeCasts_S1x1x128x128_S128x128 : S1x1x128x128.ShapeCasts S128x128
  inb_S1x2x1x128_S1x1x1x128_0_0_0_0 : ∀ a, (![0, 0, 0, 0] : Fin 4 → Nat) a + S1x1x1x128.size a ≤ S1x2x1x128.size a
  h_S1x1x1x128 : 0 < S1x1x1x128.numel
  shapeCasts_S1x1x1x128_S1x128 : S1x1x1x128.ShapeCasts S1x128
  inb_S1x2x128x128_S1x1x128x128_0_1_0_0 : ∀ a, (![0, 1, 0, 0] : Fin 4 → Nat) a + S1x1x128x128.size a ≤ S1x2x128x128.size a
  inb_S1x2x1x128_S1x1x1x128_0_1_0_0 : ∀ a, (![0, 1, 0, 0] : Fin 4 → Nat) a + S1x1x1x128.size a ≤ S1x2x1x128.size a
  inb_S2x2x128x128_S1x1x128x128_0_0_0_0 : ∀ a, (![0, 0, 0, 0] : Fin 4 → Nat) a + S1x1x128x128.size a ≤ S2x2x128x128.size a
  inb_S2x2x1x128_S1x1x1x128_0_0_0_0 : ∀ a, (![0, 0, 0, 0] : Fin 4 → Nat) a + S1x1x1x128.size a ≤ S2x2x1x128.size a
  inb_S2x2x128x128_S1x1x128x128_0_1_0_0 : ∀ a, (![0, 1, 0, 0] : Fin 4 → Nat) a + S1x1x128x128.size a ≤ S2x2x128x128.size a
  inb_S2x2x1x128_S1x1x1x128_0_1_0_0 : ∀ a, (![0, 1, 0, 0] : Fin 4 → Nat) a + S1x1x1x128.size a ≤ S2x2x1x128.size a
  inb_S2x2x128x128_S1x1x128x128_1_0_0_0 : ∀ a, (![1, 0, 0, 0] : Fin 4 → Nat) a + S1x1x128x128.size a ≤ S2x2x128x128.size a
  inb_S2x2x1x128_S1x1x1x128_1_0_0_0 : ∀ a, (![1, 0, 0, 0] : Fin 4 → Nat) a + S1x1x1x128.size a ≤ S2x2x1x128.size a
  inb_S2x2x128x128_S1x1x128x128_1_1_0_0 : ∀ a, (![1, 1, 0, 0] : Fin 4 → Nat) a + S1x1x128x128.size a ≤ S2x2x128x128.size a
  inb_S2x2x1x128_S1x1x1x128_1_1_0_0 : ∀ a, (![1, 1, 0, 0] : Fin 4 → Nat) a + S1x1x1x128.size a ≤ S2x2x1x128.size a
  dot_S8192x128_S128x128_S8192x128_1_0_0_1_n_n_wf : DotDims.WF S8192x128 S128x128 S8192x128 [1] [0] [0] [1] [] []
  dot_S8192x6_S6x8_S8192x8_1_0_0_1_n_n_wf : DotDims.WF S8192x6 S6x8 S8192x8 [1] [0] [0] [1] [] []
  dot_S8192x8_S8x128_S8192x128_1_0_0_1_n_n_wf : DotDims.WF S8192x8 S8x128 S8192x128 [1] [0] [0] [1] [] []
  dot_S8192x128_S128x64_S8192x64_1_0_0_1_n_n_wf : DotDims.WF S8192x128 S128x64 S8192x64 [1] [0] [0] [1] [] []
  gather_S131072x64_S1048576x1_S1048576x64_1_0_n_n_0_1_164_wf : GatherDims.WF S131072x64 S1048576x1 S1048576x64 [1] [0] [] [0] [] 1 ![1, 64]
  dot_S8192x42_S42x8_S8192x8_1_0_0_1_n_n_wf : DotDims.WF S8192x42 S42x8 S8192x8 [1] [0] [0] [1] [] []
  dot_S8192x8_S8x64_S8192x64_1_0_0_1_n_n_wf : DotDims.WF S8192x8 S8x64 S8192x64 [1] [0] [0] [1] [] []
  scatter_S131072x64_S1048576x1_S1048576x64_1_0_0_1_wf : ScatterDims.WF S131072x64 S1048576x1 S1048576x64 [1] [0] [0] 1
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x6.size a ≤ S131072x6.size a
  hwx0_1 : ∀ i : grid0.Coords, EltTy.bits .f32 = 32 ∨ (Rect.block (s := S131072x6) S8192x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x8.size a ≤ S6x8.size a
  hwx0_4 : ∀ i : grid0.Coords, EltTy.bits .f32 = 32 ∨ (Rect.block (s := S6x8) S6x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S131072x64.size a
  hwx0_7 : ∀ i : grid0.Coords, EltTy.bits .f32 = 32 ∨ (Rect.block (s := S131072x64) S8192x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x42.size a ≤ S1048576x42.size a
  hwx1_0 : ∀ i : grid1.Coords, EltTy.bits .f32 = 32 ∨ (Rect.block (s := S1048576x42) S8192x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1048576x64.size a
  hwx1_1 : ∀ i : grid1.Coords, EltTy.bits .f32 = 32 ∨ (Rect.block (s := S1048576x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x64.size a ≤ S1048576x64.size a
  hwx1_4 : ∀ i : grid1.Coords, EltTy.bits .f32 = 32 ∨ (Rect.block (s := S1048576x64) S8192x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S131072x128.size a
  hwx2_0 : ∀ i : grid2.Coords, EltTy.bits .f32 = 32 ∨ (Rect.block (s := S131072x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S131072x64.size a
  hwx2_3 : ∀ i : grid2.Coords, EltTy.bits .f32 = 32 ∨ (Rect.block (s := S131072x64) S8192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2x128x128.size a ≤ S1x2x128x128.size a
  hwx2_5 : ∀ i : grid2.Coords, EltTy.bits .f32 = 32 ∨ (Rect.block (s := S1x2x128x128) S1x2x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2x1x128.size a ≤ S1x2x1x128.size a
  hwx2_6 : ∀ i : grid2.Coords, EltTy.bits .f32 = 32 ∨ (Rect.block (s := S1x2x1x128) S1x2x1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S2x2x128x128.size a ≤ S2x2x128x128.size a
  hwx2_9 : ∀ i : grid2.Coords, EltTy.bits .f32 = 32 ∨ (Rect.block (s := S2x2x128x128) S2x2x128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S2x2x1x128.size a ≤ S2x2x1x128.size a
  hwx2_10 : ∀ i : grid2.Coords, EltTy.bits .f32 = 32 ∨ (Rect.block (s := S2x2x1x128) S2x2x1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S8192x128.size a ≤ S131072x128.size a
  hwx2_11 : ∀ i : grid2.Coords, EltTy.bits .f32 = 32 ∨ (Rect.block (s := S131072x128) S8192x128.size (cc2_transform_11 i) (hinb2_11 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x6_S6x8_S8192x8_1_0_0_1_n_n : DotDims S8192x6 S6x8 S8192x8 where
  lhsContracting := [1]
  rhsContracting := [0]
  lhsNonContracting := [0]
  rhsNonContracting := [1]
  lhsBatch := []
  rhsBatch := []
  wf := dot_S8192x6_S6x8_S8192x8_1_0_0_1_n_n_wf
def dot_S8192x8_S8x128_S8192x128_1_0_0_1_n_n : DotDims S8192x8 S8x128 S8192x128 where
  lhsContracting := [1]
  rhsContracting := [0]
  lhsNonContracting := [0]
  rhsNonContracting := [1]
  lhsBatch := []
  rhsBatch := []
  wf := dot_S8192x8_S8x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def dot_S8192x42_S42x8_S8192x8_1_0_0_1_n_n : DotDims S8192x42 S42x8 S8192x8 where
  lhsContracting := [1]
  rhsContracting := [0]
  lhsNonContracting := [0]
  rhsNonContracting := [1]
  lhsBatch := []
  rhsBatch := []
  wf := dot_S8192x42_S42x8_S8192x8_1_0_0_1_n_n_wf
def dot_S8192x8_S8x64_S8192x64_1_0_0_1_n_n : DotDims S8192x8 S8x64 S8192x64 where
  lhsContracting := [1]
  rhsContracting := [0]
  lhsNonContracting := [0]
  rhsNonContracting := [1]
  lhsBatch := []
  rhsBatch := []
  wf := dot_S8192x8_S8x64_S8192x64_1_0_0_1_n_n_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S8192x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S8192x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S8192x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S1x2x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x2x1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v12) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg18) S2x2x128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v14) S2x2x1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v15) S8192x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S131072x128 : Shape := ⟨2, ![131072, 128]⟩
abbrev S131072x6 : Shape := ⟨2, ![131072, 6]⟩
abbrev S1048576x42 : Shape := ⟨2, ![1048576, 42]⟩
abbrev S1048576x2 : Shape := ⟨2, ![1048576, 2]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S1x128 : Shape := ⟨2, ![1, 128]⟩
abbrev S_ : Shape := ⟨0, ![]⟩
abbrev S131072x8 : Shape := ⟨2, ![131072, 8]⟩
abbrev S131072x64 : Shape := ⟨2, ![131072, 64]⟩
abbrev S1048576x1 : Shape := ⟨2, ![1048576, 1]⟩
abbrev S1048576 : Shape := ⟨1, ![1048576]⟩
abbrev S1048576x64 : Shape := ⟨2, ![1048576, 64]⟩
abbrev S1048576x8 : Shape := ⟨2, ![1048576, 8]⟩
abbrev S1x1x128x128 : Shape := ⟨4, ![1, 1, 128, 128]⟩
abbrev S1x1x128 : Shape := ⟨3, ![1, 1, 128]⟩

abbrev nBuf : Space → Nat
  | .hbm => 209
  | .vmem => 0
  | .smem => 0
  | _ => 0

abbrev hbmTy0_0 (i : Nat) : BufTy := match i % 128 with
  | 0 => ⟨S131072x128, .f32⟩
  | 1 => ⟨S131072x6, .f32⟩
  | 2 => ⟨S1048576x42, .f32⟩
  | 3 => ⟨S1048576x2, .i32⟩
  | 4 => ⟨S6x8, .f32⟩
  | 5 => ⟨S8x128, .f32⟩
  | 6 => ⟨S42x8, .f32⟩
  | 7 => ⟨S8x64, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64x128, .f32⟩
  | 14 => ⟨S1x2x128x128, .f32⟩
  | 15 => ⟨S1x2x128, .f32⟩
  | 16 => ⟨S128x128, .f32⟩
  | 17 => ⟨S128, .f32⟩
  | 18 => ⟨S2x2x128x128, .f32⟩
  | 19 => ⟨S2x2x128, .f32⟩
  | 20 => ⟨S131072x128, .f32⟩
  | 21 => ⟨S1x128, .f32⟩
  | 22 => ⟨S131072x128, .f32⟩
  | 23 => ⟨S131072x128, .f32⟩
  | 24 => ⟨S131072x128, .f32⟩
  | 25 => ⟨S131072x128, .f32⟩
  | 26 => ⟨S_, .f32⟩
  | 27 => ⟨S131072x128, .f32⟩
  | 28 => ⟨S131072x128, .f32⟩
  | 29 => ⟨S_, .f32⟩
  | 30 => ⟨S131072x128, .f32⟩
  | 31 => ⟨S131072x128, .f32⟩
  | 32 => ⟨S131072x128, .f32⟩
  | 33 => ⟨S131072x128, .f32⟩
  | 34 => ⟨S1x128, .f32⟩
  | 35 => ⟨S131072x128, .f32⟩
  | 36 => ⟨S131072x128, .f32⟩
  | 37 => ⟨S131072x128, .f32⟩
  | 38 => ⟨S131072x128, .f32⟩
  | 39 => ⟨S_, .f32⟩
  | 40 => ⟨S131072x128, .f32⟩
  | 41 => ⟨S131072x128, .f32⟩
  | 42 => ⟨S_, .f32⟩
  | 43 => ⟨S131072x128, .f32⟩
  | 44 => ⟨S131072x128, .f32⟩
  | 45 => ⟨S131072x128, .f32⟩
  | 46 => ⟨S131072x8, .f32⟩
  | 47 => ⟨S131072x128, .f32⟩
  | 48 => ⟨S131072x128, .f32⟩
  | 49 => ⟨S131072x64, .f32⟩
  | 50 => ⟨S131072x64, .f32⟩
  | 51 => ⟨S131072x64, .f32⟩
  | 52 => ⟨S_, .f32⟩
  | 53 => ⟨S131072x64, .f32⟩
  | 54 => ⟨S131072x64, .f32⟩
  | 55 => ⟨S_, .f32⟩
  | 56 => ⟨S131072x64, .f32⟩
  | 57 => ⟨S131072x64, .f32⟩
  | 58 => ⟨S131072x64, .f32⟩
  | 59 => ⟨S1048576x1, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S1048576x1, .i32⟩
  | 69 => ⟨S1048576x64, .f32⟩
  | 70 => ⟨S1048576x8, .f32⟩
  | 71 => ⟨S1048576x64, .f32⟩
  | 72 => ⟨S1048576x64, .f32⟩
  | 73 => ⟨S1048576x1, .i32⟩
  | 74 => ⟨S1048576, .i32⟩
  | 75 => ⟨S_, .f32⟩
  | 76 => ⟨S131072x64, .f32⟩
  | 77 => ⟨S1048576x1, .i32⟩
  | 78 => ⟨S131072x64, .f32⟩
  | 79 => ⟨S131072x128, .f32⟩
  | 80 => ⟨S131072x128, .f32⟩
  | 81 => ⟨S131072x128, .f32⟩
  | 82 => ⟨S_, .f32⟩
  | 83 => ⟨S131072x128, .f32⟩
  | 84 => ⟨S131072x128, .f32⟩
  | 85 => ⟨S_, .f32⟩
  | 86 => ⟨S131072x128, .f32⟩
  | 87 => ⟨S131072x128, .f32⟩
  | 88 => ⟨S131072x128, .f32⟩
  | 89 => ⟨S131072x128, .f32⟩
  | 90 => ⟨S1x1x128x128, .f32⟩
  | 91 => ⟨S128x128, .f32⟩
  | 92 => ⟨S131072x128, .f32⟩
  | 93 => ⟨S1x1x128, .f32⟩
  | 94 => ⟨S128, .f32⟩
  | 95 => ⟨S1x128, .f32⟩
  | 96 => ⟨S131072x128, .f32⟩
  | 97 => ⟨S131072x128, .f32⟩
  | 98 => ⟨S131072x128, .f32⟩
  | 99 => ⟨S131072x128, .f32⟩
  | 100 => ⟨S_, .f32⟩
  | 101 => ⟨S131072x128, .f32⟩
  | 102 => ⟨S131072x128, .f32⟩
  | 103 => ⟨S_, .f32⟩
  | 104 => ⟨S131072x128, .f32⟩
  | 105 => ⟨S131072x128, .f32⟩
  | 106 => ⟨S131072x128, .f32⟩
  | 107 => ⟨S1x1x128x128, .f32⟩
  | 108 => ⟨S128x128, .f32⟩
  | 109 => ⟨S131072x128, .f32⟩
  | 110 => ⟨S1x1x128, .f32⟩
  | 111 => ⟨S128, .f32⟩
  | 112 => ⟨S1x128, .f32⟩
  | 113 => ⟨S131072x128, .f32⟩
  | 114 => ⟨S131072x128, .f32⟩
  | 115 => ⟨S131072x128, .f32⟩
  | 116 => ⟨S131072x128, .f32⟩
  | 117 => ⟨S_, .f32⟩
  | 118 => ⟨S131072x128, .f32⟩
  | 119 => ⟨S131072x128, .f32⟩
  | 120 => ⟨S_, .f32⟩
  | 121 => ⟨S131072x128, .f32⟩
  | 122 => ⟨S131072x128, .f32⟩
  | 123 => ⟨S131072x128, .f32⟩
  | 124 => ⟨S131072x128, .f32⟩
  | 125 => ⟨S131072x128, .f32⟩
  | 126 => ⟨S1x128, .f32⟩
  | 127 => ⟨S131072x128, .f32⟩
  | _ => ⟨S131072x128, .f32⟩

abbrev hbmTy0_1 (i : Nat) : BufTy := match i % 128 with
  | 0 => ⟨S131072x128, .f32⟩
  | 1 => ⟨S131072x128, .f32⟩
  | 2 => ⟨S131072x128, .f32⟩
  | 3 => ⟨S_, .f32⟩
  | 4 => ⟨S131072x128, .f32⟩
  | 5 => ⟨S131072x128, .f32⟩
  | 6 => ⟨S_, .f32⟩
  | 7 => ⟨S131072x128, .f32⟩
  | 8 => ⟨S131072x128, .f32⟩
  | 9 => ⟨S131072x128, .f32⟩
  | 10 => ⟨S131072x128, .f32⟩
  | 11 => ⟨S1x1x128x128, .f32⟩
  | 12 => ⟨S128x128, .f32⟩
  | 13 => ⟨S131072x128, .f32⟩
  | 14 => ⟨S1x1x128, .f32⟩
  | 15 => ⟨S128, .f32⟩
  | 16 => ⟨S1x128, .f32⟩
  | 17 => ⟨S131072x128, .f32⟩
  | 18 => ⟨S131072x128, .f32⟩
  | 19 => ⟨S131072x128, .f32⟩
  | 20 => ⟨S131072x128, .f32⟩
  | 21 => ⟨S_, .f32⟩
  | 22 => ⟨S131072x128, .f32⟩
  | 23 => ⟨S131072x128, .f32⟩
  | 24 => ⟨S_, .f32⟩
  | 25 => ⟨S131072x128, .f32⟩
  | 26 => ⟨S131072x128, .f32⟩
  | 27 => ⟨S131072x128, .f32⟩
  | 28 => ⟨S1x1x128x128, .f32⟩
  | 29 => ⟨S128x128, .f32⟩
  | 30 => ⟨S131072x128, .f32⟩
  | 31 => ⟨S1x1x128, .f32⟩
  | 32 => ⟨S128, .f32⟩
  | 33 => ⟨S1x128, .f32⟩
  | 34 => ⟨S131072x128, .f32⟩
  | 35 => ⟨S131072x128, .f32⟩
  | 36 => ⟨S131072x128, .f32⟩
  | 37 => ⟨S131072x128, .f32⟩
  | 38 => ⟨S_, .f32⟩
  | 39 => ⟨S131072x128, .f32⟩
  | 40 => ⟨S131072x128, .f32⟩
  | 41 => ⟨S_, .f32⟩
  | 42 => ⟨S131072x128, .f32⟩
  | 43 => ⟨S131072x128, .f32⟩
  | 44 => ⟨S131072x128, .f32⟩
  | 45 => ⟨S131072x128, .f32⟩
  | 46 => ⟨S1x1x128x128, .f32⟩
  | 47 => ⟨S128x128, .f32⟩
  | 48 => ⟨S131072x128, .f32⟩
  | 49 => ⟨S1x1x128, .f32⟩
  | 50 => ⟨S128, .f32⟩
  | 51 => ⟨S1x128, .f32⟩
  | 52 => ⟨S131072x128, .f32⟩
  | 53 => ⟨S131072x128, .f32⟩
  | 54 => ⟨S131072x128, .f32⟩
  | 55 => ⟨S131072x128, .f32⟩
  | 56 => ⟨S_, .f32⟩
  | 57 => ⟨S131072x128, .f32⟩
  | 58 => ⟨S131072x128, .f32⟩
  | 59 => ⟨S_, .f32⟩
  | 60 => ⟨S131072x128, .f32⟩
  | 61 => ⟨S131072x128, .f32⟩
  | 62 => ⟨S131072x128, .f32⟩
  | 63 => ⟨S1x1x128x128, .f32⟩
  | 64 => ⟨S128x128, .f32⟩
  | 65 => ⟨S131072x128, .f32⟩
  | 66 => ⟨S1x1x128, .f32⟩
  | 67 => ⟨S128, .f32⟩
  | 68 => ⟨S1x128, .f32⟩
  | 69 => ⟨S131072x128, .f32⟩
  | 70 => ⟨S131072x128, .f32⟩
  | 71 => ⟨S131072x128, .f32⟩
  | 72 => ⟨S131072x128, .f32⟩
  | 73 => ⟨S_, .f32⟩
  | 74 => ⟨S131072x128, .f32⟩
  | 75 => ⟨S131072x128, .f32⟩
  | 76 => ⟨S_, .f32⟩
  | 77 => ⟨S131072x128, .f32⟩
  | 78 => ⟨S131072x128, .f32⟩
  | 79 => ⟨S131072x128, .f32⟩
  | 80 => ⟨S131072x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c : Ref sig .tc := ⟨.hbm, 61, rfl⟩
abbrev main_v17 : Ref sig .tc := ⟨.hbm, 62, rfl⟩
abbrev main_v18 : Ref sig .tc := ⟨.hbm, 63, rfl⟩
abbrev main_c_0 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_call6_v0 : Ref sig .tc := ⟨.hbm, 129, rfl⟩
abbrev main_call6_v1 : Ref sig .tc := ⟨.hbm, 130, rfl⟩
abbrev main_call6_cst : Ref sig .tc := ⟨.hbm, 131, rfl⟩
abbrev main_call6_v2 : Ref sig .tc := ⟨.hbm, 132, rfl⟩
abbrev main_call6_v3 : Ref sig .tc := ⟨.hbm, 133, rfl⟩
abbrev main_call6_cst_0 : Ref sig .tc := ⟨.hbm, 134, rfl⟩
abbrev main_call6_v4 : Ref sig .tc := ⟨.hbm, 135, rfl⟩
abbrev main_call6_v5 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_call8_v0 : Ref sig .tc := ⟨.hbm, 164, rfl⟩
abbrev main_call8_v1 : Ref sig .tc := ⟨.hbm, 165, rfl⟩
abbrev main_call8_cst : Ref sig .tc := ⟨.hbm, 166, rfl⟩
abbrev main_call8_v2 : Ref sig .tc := ⟨.hbm, 167, rfl⟩
abbrev main_call8_v3 : Ref sig .tc := ⟨.hbm, 168, rfl⟩
abbrev main_call8_cst_0 : Ref sig .tc := ⟨.hbm, 169, rfl⟩
abbrev main_call8_v4 : Ref sig .tc := ⟨.hbm, 170, rfl⟩
abbrev main_call8_v5 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_call9_v0 : Ref sig .tc := ⟨.hbm, 182, rfl⟩
abbrev main_call9_v1 : Ref sig .tc := ⟨.hbm, 183, rfl⟩
abbrev main_call9_cst : Ref sig .tc := ⟨.hbm, 184, rfl⟩
abbrev main_call9_v2 : Ref sig .tc := ⟨.hbm, 185, rfl⟩
abbrev main_call9_v3 : Ref sig .tc := ⟨.hbm, 186, rfl⟩
abbrev main_call9_cst_0 : Ref sig .tc := ⟨.hbm, 187, rfl⟩
abbrev main_call9_v4 : Ref sig .tc := ⟨.hbm, 188, rfl⟩
abbrev main_call9_v5 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_call10_v0 : Ref sig .tc := ⟨.hbm, 199, rfl⟩
abbrev main_call10_v1 : Ref sig .tc := ⟨.hbm, 200, rfl⟩
abbrev main_call10_cst : Ref sig .tc := ⟨.hbm, 201, rfl⟩
abbrev main_call10_v2 : Ref sig .tc := ⟨.hbm, 202, rfl⟩
abbrev main_call10_v3 : Ref sig .tc := ⟨.hbm, 203, rfl⟩
abbrev main_call10_cst_0 : Ref sig .tc := ⟨.hbm, 204, rfl⟩
abbrev main_call10_v4 : Ref sig .tc := ⟨.hbm, 205, rfl⟩
abbrev main_call10_v5 : Ref sig .tc := ⟨.hbm, 206, rfl⟩
abbrev main_v96 : Ref sig .tc := ⟨.hbm, 207, rfl⟩
abbrev main_v97 : Ref sig .tc := ⟨.hbm, 208, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S_S131072x64 : S_.BroadcastsInDim S131072x64 (![] : Fin 0 → Fin S131072x64.rank)
  slices_S1048576x2_S1048576x1_0_1 : S1048576x2.Slices ![0, 1] S1048576x1
  shapeCasts_S1048576x1_S1048576 : S1048576x1.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S1048576x2_S1048576x1_0_0 : S1048576x2.Slices ![0, 0] S1048576x1
  slices_S1x2x128x128_S1x1x128x128_0_0_0_0 : S1x2x128x128.Slices ![0, 0, 0, 0] S1x1x128x128
  shapeCasts_S1x1x128x128_S128x128 : S1x1x128x128.ShapeCasts S128x128
  slices_S1x2x128_S1x1x128_0_0_0 : S1x2x128.Slices ![0, 0, 0] S1x1x128
  shapeCasts_S1x1x128_S128 : S1x1x128.ShapeCasts S128
  slices_S1x2x128x128_S1x1x128x128_0_1_0_0 : S1x2x128x128.Slices ![0, 1, 0, 0] S1x1x128x128
  slices_S1x2x128_S1x1x128_0_1_0 : S1x2x128.Slices ![0, 1, 0] S1x1x128
  slices_S2x2x128x128_S1x1x128x128_0_0_0_0 : S2x2x128x128.Slices ![0, 0, 0, 0] S1x1x128x128
  slices_S2x2x128_S1x1x128_0_0_0 : S2x2x128.Slices ![0, 0, 0] S1x1x128
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  dot_S131072x128_S128x128_S131072x128_1_0_0_1_n_n_wf : DotDims.WF S131072x128 S128x128 S131072x128 [1] [0] [0] [1] [] []
  dot_S131072x6_S6x8_S131072x8_1_0_0_1_n_n_wf : DotDims.WF S131072x6 S6x8 S131072x8 [1] [0] [0] [1] [] []
  dot_S131072x8_S8x128_S131072x128_1_0_0_1_n_n_wf : DotDims.WF S131072x8 S8x128 S131072x128 [1] [0] [0] [1] [] []
  dot_S131072x128_S128x64_S131072x64_1_0_0_1_n_n_wf : DotDims.WF S131072x128 S128x64 S131072x64 [1] [0] [0] [1] [] []
  gather_S131072x64_S1048576x1_S1048576x64_1_0_n_n_0_1_164_wf : GatherDims.WF S131072x64 S1048576x1 S1048576x64 [1] [0] [] [0] [] 1 ![1, 64]
  dot_S1048576x42_S42x8_S1048576x8_1_0_0_1_n_n_wf : DotDims.WF S1048576x42 S42x8 S1048576x8 [1] [0] [0] [1] [] []
  dot_S1048576x8_S8x64_S1048576x64_1_0_0_1_n_n_wf : DotDims.WF S1048576x8 S8x64 S1048576x64 [1] [0] [0] [1] [] []
  scatter_S131072x64_S1048576x1_S1048576x64_1_0_0_1_wf : ScatterDims.WF S131072x64 S1048576x1 S1048576x64 [1] [0] [0] 1
  dot_S131072x64_S64x128_S131072x128_1_0_0_1_n_n_wf : DotDims.WF S131072x64 S64x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x6_S6x8_S131072x8_1_0_0_1_n_n : DotDims S131072x6 S6x8 S131072x8 where
  lhsContracting := [1]
  rhsContracting := [0]
  lhsNonContracting := [0]
  rhsNonContracting := [1]
  lhsBatch := []
  rhsBatch := []
  wf := dot_S131072x6_S6x8_S131072x8_1_0_0_1_n_n_wf
def dot_S131072x8_S8x128_S131072x128_1_0_0_1_n_n : DotDims S131072x8 S8x128 S131072x128 where
  lhsContracting := [1]
  rhsContracting := [0]
  lhsNonContracting := [0]
  rhsNonContracting := [1]
  lhsBatch := []
  rhsBatch := []
  wf := dot_S131072x8_S8x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def dot_S1048576x42_S42x8_S1048576x8_1_0_0_1_n_n : DotDims S1048576x42 S42x8 S1048576x8 where
  lhsContracting := [1]
  rhsContracting := [0]
  lhsNonContracting := [0]
  rhsNonContracting := [1]
  lhsBatch := []
  rhsBatch := []
  wf := dot_S1048576x42_S42x8_S1048576x8_1_0_0_1_n_n_wf
def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf

class Facts : Prop extends Facts₀ where

variable [Facts]
-- ==== Proof.LibRowwise.lean ====
/-
  Row-wise operations on matrices of extended reals.

  A matrix with `n` rows and `m` columns is a function of its two coordinates. The operations of a dense layer — a product
  with a weight matrix, the addition of a bias row, the pointwise swish `x · σ(x)`, pointwise products and sums — compute
  row `r` of their result from row `r` of their matrix operands alone. So they commute with any selection of rows
  (`rows ρ`): applying the layer to the rows `ρ 0, ρ 1, …` of a tall matrix gives those rows of the layer applied to the
  whole matrix. Both spellings of a product that programs use (a matmul into a zero accumulator, a general dot product with
  the plain dimension numbers) are the sum `∑ k, A (r, k) · W (k, q)` over the extended reals.
-/
import Idealize.ShloMosaic.PureOps.Ideal.Laws
import Idealize.ShloMosaic.Lib.ValueIdx
import Idealize.ShloMosaic.Lib.Pipeline.Value
import Idealize.ShloMosaic.PureOps.IdealRules

noncomputable section

namespace Idealize.ShloMosaic.Rowwise

open Idealize.ShloMosaic Idealize.ShloMosaic.ValueIdx

/-- An `n × m` matrix of extended reals. -/
abbrev Mat (n m : Nat) := FVec Ideal ⟨2, ![n, m]⟩ .f32

/-- The product: entry `(r, q)` is `∑ k, A (r, k) · W (k, q)`. -/
def mm {n K m : Nat} (A : Mat n K) (W : Mat K m) : Mat n m :=
  fun i => ∑ k : Fin K, A (ix2 (i 0) k) * W (ix2 k (i 1))

/-- A bias row added to every row. -/
def addRow {n m : Nat} (A : Mat n m) (B : Mat 1 m) : Mat n m := fun i => A i + B (ix2 0 (i 1))

/-- Swish, `x · σ(x)` with `σ` the logistic function, entry by entry. -/
def swish {n m : Nat} (A : Mat n m) : Mat n m := fun i => A i * Ideal.logistic (A i)

/-- The rows `ρ 0, ρ 1, …` of a matrix. -/
def rows {n N m : Nat} (ρ : Fin n → Fin N) (A : Mat N m) : Mat n m := fun y => A (ix2 (ρ (y 0)) (y 1))

/-! ## Row selection commutes with the row-wise operations -/

theorem mm_rows {n N K m : Nat} (ρ : Fin n → Fin N) (A : Mat N K) (W : Mat K m) : mm (rows ρ A) W = rows ρ (mm A W) := rfl
theorem addRow_rows {n N m : Nat} (ρ : Fin n → Fin N) (A : Mat N m) (B : Mat 1 m) : addRow (rows ρ A) B = rows ρ (addRow A B) := rfl
theorem swish_rows {n N m : Nat} (ρ : Fin n → Fin N) (A : Mat N m) : swish (rows ρ A) = rows ρ (swish A) := rfl
theorem mulf_rows {n N m : Nat} (ρ : Fin n → Fin N) (A B : Mat N m) : mulf (rows ρ A) (rows ρ B) = rows ρ (mulf A B) := rfl
theorem addf_rows {n N m : Nat} (ρ : Fin n → Fin N) (A B : Mat N m) : addf (rows ρ A) (rows ρ B) = rows ρ (addf A B) := rfl

/-! ## The two spellings of a product -/

theorem plain_rank (M K N : Nat) : (DotDims.plain M K N).contr.rank = 1 := rfl
theorem plain_size (M K N : Nat) : (DotDims.plain M K N).contr.size ⟨0, by rw [plain_rank]; exact Nat.one_pos⟩ = K := rfl

/-- At output entry `(p, q)` and contraction position `i` the plain dimension numbers read `(p, i)` on the left. -/
theorem plain_lhsIdx {M K N : Nat} (p : Fin M) (q : Fin N) (i : Fin K) :
    (DotDims.plain M K N).lhsIdx (ix2 p q) ((contrEquiv1 (DotDims.plain M K N) K (plain_rank M K N) (plain_size M K N)).symm i) = ix2 p i := by
  have hi := contrEquiv1_symm_val (DotDims.plain M K N) K (plain_rank M K N) (plain_size M K N) i
  funext a
  refine Fin.ext ?_
  match a with
  | ⟨0, _⟩ => rfl
  | ⟨1, _⟩ => exact hi

/-- … and `(i, q)` on the right. -/
theorem plain_rhsIdx {M K N : Nat} (p : Fin M) (q : Fin N) (i : Fin K) :
    (DotDims.plain M K N).rhsIdx (ix2 p q) ((contrEquiv1 (DotDims.plain M K N) K (plain_rank M K N) (plain_size M K N)).symm i) = ix2 i q := by
  have hi := contrEquiv1_symm_val (DotDims.plain M K N) K (plain_rank M K N) (plain_size M K N) i
  funext a
  refine Fin.ext ?_
  match a with
  | ⟨0, _⟩ => exact hi
  | ⟨1, _⟩ => rfl

/-- A matmul into a zero accumulator is the product. -/
theorem matmul_plain {M K N : Nat} (prec : Option ContractPrecision) (a : Mat M K) (W : Mat K N) :
    matmul (DotDims.plain M K N) prec a W (constant ⟨2, ![M, N]⟩ .f32 0x00000000#32) = mm a W := by
  funext j
  obtain ⟨p, q, rfl⟩ : ∃ (p : Fin M) (q : Fin N), j = ix2 p q := ⟨j 0, j 1, eq_ix2 j⟩
  refine (Ideal.matmul_constant_zero_apply (DotDims.plain M K N) prec a W (ix2 p q)).trans ?_
  rw [← Equiv.sum_comp (contrEquiv1 (DotDims.plain M K N) K (plain_rank M K N) (plain_size M K N)).symm]
  refine Finset.sum_congr rfl fun i _ => ?_
  rw [plain_lhsIdx p q i, plain_rhsIdx p q i]
  rfl

/-- A general dot product with the plain dimension numbers is the product. -/
theorem dotGeneral_plain {M K N : Nat} (prec : Option ContractPrecision) (a : Mat M K) (W : Mat K N) :
    Host.dotGeneral (DotDims.plain M K N) prec a W = mm a W := by
  funext j
  obtain ⟨p, q, rfl⟩ : ∃ (p : Fin M) (q : Fin N), j = ix2 p q := ⟨j 0, j 1, eq_ix2 j⟩
  refine (Ideal.dotGeneral_apply (DotDims.plain M K N) prec .single a W (ix2 p q)).trans ?_
  rw [← Equiv.sum_comp (contrEquiv1 (DotDims.plain M K N) K (plain_rank M K N) (plain_size M K N)).symm]
  refine Finset.sum_congr rfl fun i _ => ?_
  rw [plain_lhsIdx p q i, plain_rhsIdx p q i]
  rfl

/-! ## The two spellings of swish -/

/-- `x · logistic x`, the kernel's spelling. -/
theorem mulf_logistic {n m : Nat} (A : Mat n m) : mulf A (logistic A) = swish A := rfl

/-- `x · (1 / (1 + exp (−x)))`, the host's spelling, with both ones broadcast from a scalar constant. -/
theorem mulf_div_exp {n m : Nat} (A : Mat n m) (h : (⟨0, ![]⟩ : Shape).BroadcastsInDim ⟨2, ![n, m]⟩ ![]) :
    mulf A (Host.divf (broadcastInDim ⟨2, ![n, m]⟩ ![] h (constant ⟨0, ![]⟩ .f32 0x3F800000#32))
      (addf (broadcastInDim ⟨2, ![n, m]⟩ ![] h (constant ⟨0, ![]⟩ .f32 0x3F800000#32)) (Host.exp (Host.negf A)))) = swish A := by
  funext i
  have h1 : Ideal.ofBits .f32 0x3F800000#32 = (1 : EReal) := IdealRules.sign_bit.ideal_onePat .f32
  show A i * Ideal.div (Ideal.ofBits .f32 0x3F800000#32) (Ideal.ofBits .f32 0x3F800000#32 + Ideal.exp (-(A i))) = A i * Ideal.logistic (A i)
  rw [h1]
  rfl

/-! ## Bias rows and weight slices -/

/-- A vector of `m` entries as a one-row matrix. -/
def asRow {m : Nat} (b : FVec Ideal ⟨1, ![m]⟩ .f32) : Mat 1 m := fun i => b (ix1 (i 1))

/-- Matrix `(i, j)` of an `a × b` array of `K × m` matrices. -/
def slab {a b K m : Nat} (W : FVec Ideal ⟨4, ![a, b, K, m]⟩ .f32) (i : Fin a) (j : Fin b) : Mat K m :=
  fun y => W (ix4 i j (y 0) (y 1))

/-- Row `(i, j)` of an `a × b` array of vectors of `m` entries, as a one-row matrix. -/
def slabRow {a b m : Nat} (B : FVec Ideal ⟨3, ![a, b, m]⟩ .f32) (i : Fin a) (j : Fin b) : Mat 1 m :=
  fun y => B (ix3 i j (y 1))

/-- The same of an `a × b` array of one-row matrices. -/
def slabRow4 {a b m : Nat} (B : FVec Ideal ⟨4, ![a, b, 1, m]⟩ .f32) (i : Fin a) (j : Fin b) : Mat 1 m :=
  fun y => B (ix4 i j 0 (y 1))

/-- A one-row matrix broadcast down `n` rows (the vector broadcast of a kernel body) and added is `addRow`. -/
theorem addf_broadcastTo {n m : Nat} (A : Mat n m) (B : Mat 1 m) (h : (⟨2, ![1, m]⟩ : Shape).Broadcasts ⟨2, ![n, m]⟩) :
    addf A (broadcastTo ⟨2, ![n, m]⟩ B h) = addRow A B := by
  funext j
  obtain ⟨p, q, rfl⟩ : ∃ (p : Fin n) (q : Fin m), j = ix2 p q := ⟨j 0, j 1, eq_ix2 j⟩
  refine congrArg (A (ix2 p q) + ·) ?_
  refine broadcastTo_apply B h (ix2 p q) (ix2 0 q) fun a => ?_
  match a with
  | ⟨0, _⟩ => simp [ix2]
  | ⟨1, _⟩ =>
    show q.val = if m = 1 then 0 else q.val
    split_ifs with hm
    · have := q.isLt; omega
    · rfl

/-- The same through the host's broadcast along both axes. -/
theorem addf_broadcastInDim {n m : Nat} (A : Mat n m) (B : Mat 1 m)
    (h : (⟨2, ![1, m]⟩ : Shape).BroadcastsInDim ⟨2, ![n, m]⟩ ![0, 1]) :
    addf A (broadcastInDim ⟨2, ![n, m]⟩ ![0, 1] h B) = addRow A B := by
  funext j
  obtain ⟨p, q, rfl⟩ : ∃ (p : Fin n) (q : Fin m), j = ix2 p q := ⟨j 0, j 1, eq_ix2 j⟩
  refine congrArg (A (ix2 p q) + ·) ?_
  refine broadcastInDim_apply ![0, 1] h B (ix2 p q) (ix2 0 q) fun a => ?_
  match a with
  | ⟨0, _⟩ => simp [ix2]
  | ⟨1, _⟩ =>
    show q.val = if m = 1 then 0 else q.val
    split_ifs with hm
    · have := q.isLt; omega
    · rfl

/-- A vector laid along the columns of a one-row matrix by the host's broadcast. -/
theorem broadcastInDim_asRow {m : Nat} (b : FVec Ideal ⟨1, ![m]⟩ .f32) (h : (⟨1, ![m]⟩ : Shape).BroadcastsInDim ⟨2, ![1, m]⟩ ![1]) :
    broadcastInDim ⟨2, ![1, m]⟩ ![1] h b = asRow b := by
  funext j
  obtain ⟨p, q, rfl⟩ : ∃ (p : Fin 1) (q : Fin m), j = ix2 p q := ⟨j 0, j 1, eq_ix2 j⟩
  refine broadcastInDim_apply ![1] h b (ix2 p q) (ix1 q) fun a => ?_
  match a with
  | ⟨0, _⟩ =>
    show q.val = if m = 1 then 0 else q.val
    split_ifs with hm
    · have := q.isLt; omega
    · rfl

/-- … and by a reshape. -/
theorem shapeCast_asRow {m : Nat} (b : FVec Ideal ⟨1, ![m]⟩ .f32) (h : (⟨1, ![m]⟩ : Shape).ShapeCasts ⟨2, ![1, m]⟩) :
    shapeCast ⟨2, ![1, m]⟩ b h = asRow b := by
  funext j
  obtain ⟨p, q, rfl⟩ : ∃ (p : Fin 1) (q : Fin m), j = ix2 p q := ⟨j 0, j 1, eq_ix2 j⟩
  refine shapeCast_apply b h (ix2 p q) (ix1 q) ?_
  have hp : p.val = 0 := by have := p.isLt; omega
  rw [Shape.rowMajor_val_one, Shape.rowMajor_val_two]
  show q.val = p.val * m + q.val
  rw [hp, Nat.zero_mul, Nat.zero_add]

end Idealize.ShloMosaic.Rowwise

end
-- ==== Proof.DenseStages.lean ====
/-
  The three dense stages of the interaction block, on matrices of extended reals with any number of rows.

  Stage 1 (per edge): the edge embedding through a biased dense layer with swish, gated by the radial basis embedded
  through two bias-free products, then projected down with swish. Stage 2 (per angle): the gathered stage-1 rows gated by
  the spherical basis embedded through two products. Stage 3 (per edge): the edge embedding through a second biased layer,
  plus the up-projected aggregated angles, then one residual block of two layers, a dense layer, a skip connection from
  the input, and two more residual blocks. Every stage computes row `r` of its result from rows `r` of its matrix
  operands, so it commutes with a selection of rows.
-/
import proofs.«412852_j76192719831249_3_alg».proof.Proof.LibRowwise

noncomputable section

namespace Cert.Dense

open Idealize.ShloMosaic Idealize.ShloMosaic.Rowwise

/-- A dense layer with bias and swish. -/
def dense {n K m : Nat} (A : Mat n K) (W : Mat K m) (b : Mat 1 m) : Mat n m := swish (addRow (mm A W) b)

/-- A residual block: the input plus two dense layers of it. -/
def residual {n m : Nat} (A : Mat n m) (W₀ : Mat m m) (b₀ : Mat 1 m) (W₁ : Mat m m) (b₁ : Mat 1 m) : Mat n m :=
  addf A (dense (dense A W₀ b₀) W₁ b₁)

/-- Stage 1: `swish ((swish (X·W_kj + b_kj) ⊙ ((R·W_rbf1)·W_rbf2))·W_down)`. -/
def stage1 {n : Nat} (X : Mat n 128) (R : Mat n 6) (Wkj : Mat 128 128) (bkj : Mat 1 128) (Wr1 : Mat 6 8) (Wr2 : Mat 8 128)
    (Wd : Mat 128 64) : Mat n 64 :=
  swish (mm (mulf (dense X Wkj bkj) (mm (mm R Wr1) Wr2)) Wd)

/-- Stage 2: `G ⊙ ((S·W_sbf1)·W_sbf2)`. -/
def stage2 {n : Nat} (S : Mat n 42) (G : Mat n 64) (Ws1 : Mat 42 8) (Ws2 : Mat 8 64) : Mat n 64 :=
  mulf G (mm (mm S Ws1) Ws2)

/-- Stage 3: the second edge layer plus the up-projected aggregate, one residual block, a dense layer, the skip from the
    input, two residual blocks. -/
def stage3 {n : Nat} (X : Mat n 128) (Wji : Mat 128 128) (bji : Mat 1 128) (T : Mat n 64) (Wup : Mat 64 128)
    (Wb0 : Mat 128 128) (bb0 : Mat 1 128) (Wb1 : Mat 128 128) (bb1 : Mat 1 128) (Wf : Mat 128 128) (bf : Mat 1 128)
    (Wa00 : Mat 128 128) (ba00 : Mat 1 128) (Wa01 : Mat 128 128) (ba01 : Mat 1 128)
    (Wa10 : Mat 128 128) (ba10 : Mat 1 128) (Wa11 : Mat 128 128) (ba11 : Mat 1 128) : Mat n 128 :=
  residual (residual (addf X (dense (residual (addf (dense X Wji bji) (swish (mm T Wup))) Wb0 bb0 Wb1 bb1) Wf bf))
    Wa00 ba00 Wa01 ba01) Wa10 ba10 Wa11 ba11

/-- The whole block: stage 1 per edge, a gather of its rows per angle (`gth`), stage 2 per angle, an aggregation of the
    angles' rows per edge (`agg`), stage 3 per edge; biases arrive as vectors, the residual blocks' weights and biases as
    arrays of matrices and of vectors. -/
def block (gth : Mat 131072 64 → Mat 1048576 64) (agg : Mat 1048576 64 → Mat 131072 64)
    (X : Mat 131072 128) (R : Mat 131072 6) (S : Mat 1048576 42) (Wr1 : Mat 6 8) (Wr2 : Mat 8 128) (Ws1 : Mat 42 8) (Ws2 : Mat 8 64)
    (Wji : Mat 128 128) (bji : FVec Ideal ⟨1, ![128]⟩ .f32) (Wkj : Mat 128 128) (bkj : FVec Ideal ⟨1, ![128]⟩ .f32)
    (Wd : Mat 128 64) (Wup : Mat 64 128) (Wbb : FVec Ideal ⟨4, ![1, 2, 128, 128]⟩ .f32) (bbb : FVec Ideal ⟨3, ![1, 2, 128]⟩ .f32)
    (Wf : Mat 128 128) (bf : FVec Ideal ⟨1, ![128]⟩ .f32) (Wba : FVec Ideal ⟨4, ![2, 2, 128, 128]⟩ .f32)
    (bba : FVec Ideal ⟨3, ![2, 2, 128]⟩ .f32) : Mat 131072 128 :=
  stage3 X Wji (asRow bji) (agg (stage2 S (gth (stage1 X R Wkj (asRow bkj) Wr1 Wr2 Wd)) Ws1 Ws2)) Wup
    (slab Wbb 0 0) (slabRow bbb 0 0) (slab Wbb 0 1) (slabRow bbb 0 1) Wf (asRow bf)
    (slab Wba 0 0) (slabRow bba 0 0) (slab Wba 0 1) (slabRow bba 0 1)
    (slab Wba 1 0) (slabRow bba 1 0) (slab Wba 1 1) (slabRow bba 1 1)

/-! ## Each stage commutes with a selection of rows -/

theorem stage1_rows {n N : Nat} (ρ : Fin n → Fin N) (X : Mat N 128) (R : Mat N 6) (Wkj : Mat 128 128) (bkj : Mat 1 128)
    (Wr1 : Mat 6 8) (Wr2 : Mat 8 128) (Wd : Mat 128 64) :
    stage1 (rows ρ X) (rows ρ R) Wkj bkj Wr1 Wr2 Wd = rows ρ (stage1 X R Wkj bkj Wr1 Wr2 Wd) := rfl

theorem stage2_rows {n N : Nat} (ρ : Fin n → Fin N) (S : Mat N 42) (G : Mat N 64) (Ws1 : Mat 42 8) (Ws2 : Mat 8 64) :
    stage2 (rows ρ S) (rows ρ G) Ws1 Ws2 = rows ρ (stage2 S G Ws1 Ws2) := rfl

theorem stage3_rows {n N : Nat} (ρ : Fin n → Fin N) (X : Mat N 128) (Wji : Mat 128 128) (bji : Mat 1 128) (T : Mat N 64) (Wup : Mat 64 128)
    (Wb0 : Mat 128 128) (bb0 : Mat 1 128) (Wb1 : Mat 128 128) (bb1 : Mat 1 128) (Wf : Mat 128 128) (bf : Mat 1 128)
    (Wa00 : Mat 128 128) (ba00 : Mat 1 128) (Wa01 : Mat 128 128) (ba01 : Mat 1 128)
    (Wa10 : Mat 128 128) (ba10 : Mat 1 128) (Wa11 : Mat 128 128) (ba11 : Mat 1 128) :
    stage3 (rows ρ X) Wji bji (rows ρ T) Wup Wb0 bb0 Wb1 bb1 Wf bf Wa00 ba00 Wa01 ba01 Wa10 ba10 Wa11 ba11
      = rows ρ (stage3 X Wji bji T Wup Wb0 bb0 Wb1 bb1 Wf bf Wa00 ba00 Wa01 ba01 Wa10 ba10 Wa11 ba11) := rfl

end Cert.Dense

end
-- ==== Proof.Region0.lean ====
/-
  The first pallas_call (the edge layer gated by the radial basis), read as a value: after its 16 grid points the output
  array holds stage 1 of its operand arrays. Grid point `t` works on rows `8192·t … 8192·t + 8191` of the edge embedding and
  of the radial basis, and on the bias row and the four weight matrices whole. Its body is stage 1 of those rows: the
  biased product with swish, multiplied entry by entry with the radial basis taken through two products, then the
  product that projects down, with swish. Stage 1 commutes with the selection of rows, and the 16 row blocks tile the
  output.
-/
import proofs.«412852_j76192719831249_3_alg».proof.Proof.Gen.KernelIdeal.Frame
import proofs.«412852_j76192719831249_3_alg».proof.Proof.DenseStages

noncomputable section

namespace Cert.KernelIdeal.Region0

open Cert.KernelIdeal Cert.KernelIdeal.Gen Idealize.ShloMosaic Idealize.ShloMosaic.TcCoe Idealize.SL.Sem
open Idealize.ShloMosaic.ValueIdx Idealize.ShloMosaic.Rowwise Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's four products are matrix products (their dimension numbers are the plain ones). -/
theorem mm_kj (a : FVec Ideal S8192x128 .f32) (W : FVec Ideal S128x128 .f32) :
    matmul dot_S8192x128_S128x128_S8192x128_1_0_0_1_n_n none a W (constant S8192x128 .f32 0x00000000#32)
      = mm (n := 8192) (K := 128) (m := 128) a W :=
  matmul_plain (M := 8192) (K := 128) (N := 128) none a W

theorem mm_rbf1 (a : FVec Ideal S8192x6 .f32) (W : FVec Ideal S6x8 .f32) :
    matmul dot_S8192x6_S6x8_S8192x8_1_0_0_1_n_n none a W (constant S8192x8 .f32 0x00000000#32)
      = mm (n := 8192) (K := 6) (m := 8) a W :=
  matmul_plain (M := 8192) (K := 6) (N := 8) none a W

theorem mm_rbf2 (a : FVec Ideal S8192x8 .f32) (W : FVec Ideal S8x128 .f32) :
    matmul dot_S8192x8_S8x128_S8192x128_1_0_0_1_n_n none a W (constant S8192x128 .f32 0x00000000#32)
      = mm (n := 8192) (K := 8) (m := 128) a W :=
  matmul_plain (M := 8192) (K := 8) (N := 128) none a W

theorem mm_down (a : FVec Ideal S8192x128 .f32) (W : FVec Ideal S128x64 .f32) :
    matmul dot_S8192x128_S128x64_S8192x64_1_0_0_1_n_n none a W (constant S8192x64 .f32 0x00000000#32)
      = mm (n := 8192) (K := 128) (m := 64) a W :=
  matmul_plain (M := 8192) (K := 128) (N := 64) none a W

/-- The body's arithmetic on its loaded blocks is stage 1 of them. -/
theorem pay_eq (x0 : Vec Ideal S8192x128 .f32) (x1 : Vec Ideal S8192x6 .f32) (x2 : Vec Ideal S128x128 .f32)
    (x3 : Vec Ideal S1x128 .f32) (x4 : Vec Ideal S6x8 .f32) (x5 : Vec Ideal S8x128 .f32) (x6 : Vec Ideal S128x64 .f32) :
    k0_pay1 x0 x2 x3 x1 x4 x5 x6 = stage1 (n := 8192) x0 x1 x2 x3 x4 x5 x6 := by
  unfold k0_pay1 stage1 dense
  dsimp only
  rw [shapeCast_self, mm_kj, mm_rbf1, mm_rbf2]
  rw [addf_broadcastTo (n := 8192) (m := 128), mulf_logistic, mm_down, mulf_logistic]

/-- Grid point `t`'s rows. -/
def ρ (t : Fin cfg0.N) : Fin 8192 → Fin 131072 := fun p => ⟨t.val * 8192 + p.val, by
  have ht : t.val < 16 := t.isLt.trans_eq N_0
  have := p.isLt; omega⟩

/-- The printed index maps, decided over the grid: the three row-blocked windows sit at block row `t`, block column 0;
    the bias window and the four weight windows at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem read0 (c : Dev nD) (t : Fin cfg0.N) (X : Mat 131072 128) :
    ((cfg0.win 0).blk t).view.read (Elt Ideal) X = rows (ρ t) X := by
  obtain ⟨e0, e1, -⟩ := idx_facts t
  funext j
  show X (((cfg0.win 0).blk t).view.emb j) = X (ix2 (ρ t (j 0)) (j 1))
  refine congrArg X (funext fun a => Fin.ext ?_)
  match a with
  | ⟨0, _⟩ => show win0_0.index t (0 : Fin 2) * 8192 + 1 * (j 0).val = t.val * 8192 + (j 0).val; omega
  | ⟨1, _⟩ => show win0_0.index t (1 : Fin 2) * 128 + 1 * (j 1).val = (j 1).val; omega

theorem read1 (c : Dev nD) (t : Fin cfg0.N) (X : Mat 131072 6) :
    ((cfg0.win 1).blk t).view.read (Elt Ideal) X = rows (ρ t) X := by
  obtain ⟨-, -, e0, e1, -⟩ := idx_facts t
  funext j
  show X (((cfg0.win 1).blk t).view.emb j) = X (ix2 (ρ t (j 0)) (j 1))
  refine congrArg X (funext fun a => Fin.ext ?_)
  match a with
  | ⟨0, _⟩ => show win0_1.index t (0 : Fin 2) * 8192 + 1 * (j 0).val = t.val * 8192 + (j 0).val; omega
  | ⟨1, _⟩ => show win0_1.index t (1 : Fin 2) * 6 + 1 * (j 1).val = (j 1).val; omega

theorem read2 (c : Dev nD) (t : Fin cfg0.N) (W : Mat 128 128) : ((cfg0.win 2).blk t).view.read (Elt Ideal) W = W := by
  obtain ⟨-, -, -, -, e0, e1, -⟩ := idx_facts t
  funext j
  show W (((cfg0.win 2).blk t).view.emb j) = W j
  refine congrArg W (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem read3 (c : Dev nD) (t : Fin cfg0.N) (W : Mat 1 128) : ((cfg0.win 3).blk t).view.read (Elt Ideal) W = W := by
  obtain ⟨-, -, -, -, -, -, e0, e1, -⟩ := idx_facts t
  funext j
  show W (((cfg0.win 3).blk t).view.emb j) = W j
  refine congrArg W (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem read4 (c : Dev nD) (t : Fin cfg0.N) (W : Mat 6 8) : ((cfg0.win 4).blk t).view.read (Elt Ideal) W = W := by
  obtain ⟨-, -, -, -, -, -, -, -, e0, e1, -⟩ := idx_facts t
  funext j
  show W (((cfg0.win 4).blk t).view.emb j) = W j
  refine congrArg W (funext fun a => Fin.ext ?_)
  match a with
  | ⟨0, _⟩ => show win0_4.index t (0 : Fin 2) * 6 + 1 * (j 0).val = (j 0).val; omega
  | ⟨1, _⟩ => show win0_4.index t (1 : Fin 2) * 8 + 1 * (j 1).val = (j 1).val; omega

theorem read5 (c : Dev nD) (t : Fin cfg0.N) (W : Mat 8 128) : ((cfg0.win 5).blk t).view.read (Elt Ideal) W = W := by
  obtain ⟨-, -, -, -, -, -, -, -, -, -, e0, e1, -⟩ := idx_facts t
  funext j
  show W (((cfg0.win 5).blk t).view.emb j) = W j
  refine congrArg W (funext fun a => Fin.ext ?_)
  match a with
  | ⟨0, _⟩ => show win0_5.index t (0 : Fin 2) * 8 + 1 * (j 0).val = (j 0).val; omega
  | ⟨1, _⟩ => show win0_5.index t (1 : Fin 2) * 128 + 1 * (j 1).val = (j 1).val; omega

theorem read6 (c : Dev nD) (t : Fin cfg0.N) (W : Mat 128 64) : ((cfg0.win 6).blk t).view.read (Elt Ideal) W = W := by
  obtain ⟨-, -, -, -, -, -, -, -, -, -, -, -, e0, e1, -⟩ := idx_facts t
  funext j
  show W (((cfg0.win 6).blk t).view.emb j) = W j
  refine congrArg W (funext fun a => Fin.ext ?_)
  match a with
  | ⟨0, _⟩ => show win0_6.index t (0 : Fin 2) * 128 + 1 * (j 0).val = (j 0).val; omega
  | ⟨1, _⟩ => show win0_6.index t (1 : Fin 2) * 64 + 1 * (j 1).val = (j 1).val; omega

theorem read7 (c : Dev nD) (t : Fin cfg0.N) (X : Mat 131072 64) :
    ((cfg0.win 7).blk t).view.read (Elt Ideal) X = rows (ρ t) X := by
  obtain ⟨-, -, -, -, -, -, -, -, -, -, -, -, -, -, e0, e1⟩ := idx_facts t
  funext j
  show X (((cfg0.win 7).blk t).view.emb j) = X (ix2 (ρ t (j 0)) (j 1))
  refine congrArg X (funext fun a => Fin.ext ?_)
  match a with
  | ⟨0, _⟩ => show win0_7.index t (0 : Fin 2) * 8192 + 1 * (j 0).val = t.val * 8192 + (j 0).val; omega
  | ⟨1, _⟩ => show win0_7.index t (1 : Fin 2) * 64 + 1 * (j 1).val = (j 1).val; omega

/-- What grid point `t` writes back is its rows of stage 1 of the operand arrays. -/
theorem flushed_eq (c : Dev nD) (t : Fin cfg0.N) :
    (dat0 V c).flushed 7 t = ((cfg0.win 7).blk t).view.read (Elt Ideal)
      (stage1 (n := 131072) (V c main_arg0) (V c main_arg1) (V c main_arg10) (V c main_v4) (V c main_arg4) (V c main_arg5)
        (V c main_arg12)) := by
  rw [read7 c t, ← stage1_rows]
  show (cfg0.win 7).cut (grid0.coords t) ((dat0 V c).after 7 t) = _
  rw [after0_7]
  unfold out0_7
  rw [View.canon_unit_zero hz]
  simp only [View.ld_unit_zero (S := S8192x128) hz, View.ld_unit_zero (S := S8192x6) hz, View.ld_unit_zero (S := S128x128) hz,
    View.ld_unit_zero (S := S1x128) hz, View.ld_unit_zero (S := S6x8) hz, View.ld_unit_zero (S := S8x128) hz,
    View.ld_unit_zero (S := S128x64) hz]
  rw [pay_eq]
  unfold iblk0
  rw [read0 c t, read1 c t, read2 c t, read3 c t, read4 c t, read5 c t, read6 c t]
  rfl

/-- An index of the output array is in grid point `t`'s block iff each coordinate is in the block's range. -/
theorem mem_blk (t : Fin cfg0.N) (i : S131072x64.Idx) :
    i ∈ ((cfg0.win 7).blk t).view.set ↔ ∀ a : Fin 2, win0_7.index t a * S8192x64.size a ≤ (i a).val
      ∧ (i a).val < win0_7.index t a * S8192x64.size a + S8192x64.size a := by
  show i ∈ ((View.whole main_v5).slice (win0_7.rect t)).set ↔ _
  rw [View.set_slice_whole, Rect.mem_set_unit]
  exact Iff.rfl

/-- The row blocks tile the output: row `r` is in block `r / 8192`. -/
theorem cover (i : S131072x64.Idx) : ∃ t : Fin cfg0.N, (cfg0.win 7).flush t = true ∧ i ∈ ((cfg0.win 7).blk t).view.set := by
  have hi0 : (i 0).val < 131072 := (i 0).isLt
  have hi1 : (i 1).val < 64 := (i 1).isLt
  have hN : cfg0.N = 16 := N_0
  obtain ⟨t, ht⟩ : ∃ t : Fin cfg0.N, t.val = (i 0).val / 8192 := ⟨⟨(i 0).val / 8192, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 8192 ≤ (i 0).val ∧ (i 0).val < win0_7.index t (0 : Fin 2) * 8192 + 8192; omega
  | ⟨1, _⟩ => show win0_7.index t (1 : Fin 2) * 64 ≤ (i 1).val ∧ (i 1).val < win0_7.index t (1 : Fin 2) * 64 + 64; omega

/-- After the region the output array is stage 1 of the operand arrays as the region found them. -/
theorem value (c : Dev nD) :
    (dat0 V c).arrAt 7 cfg0.N = stage1 (n := 131072) (V c main_arg0) (V c main_arg1) (V c main_arg10) (V c main_v4)
      (V c main_arg4) (V c main_arg5) (V c main_arg12) :=
  (dat0 V c).arrAt_eq_of_cover 7 _ (fun t _ => flushed_eq V c t) cover

end Cert.KernelIdeal.Region0

end
-- ==== Proof.Region1.lean ====
/-
  The second pallas_call (the spherical-basis gate), read as a value: after its 128 grid points the output array holds
  stage 2 of its operand arrays. Grid point `t` works on rows `8192·t … 8192·t + 8191` of the two tall operands and
  on the two weight matrices whole; its body is stage 2 of those rows; stage 2 commutes with the selection of rows; and
  the 128 row blocks tile the output.
-/
import proofs.«412852_j76192719831249_3_alg».proof.Proof.Gen.KernelIdeal.Frame
import proofs.«412852_j76192719831249_3_alg».proof.Proof.DenseStages

noncomputable section

namespace Cert.KernelIdeal.Region1

open Cert.KernelIdeal Cert.KernelIdeal.Gen Idealize.ShloMosaic Idealize.ShloMosaic.TcCoe Idealize.SL.Sem
open Idealize.ShloMosaic.ValueIdx Idealize.ShloMosaic.Rowwise Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's two products are matrix products (their dimension numbers are the plain ones). -/
theorem mm_sbf1 (a : FVec Ideal S8192x42 .f32) (W : FVec Ideal S42x8 .f32) :
    matmul dot_S8192x42_S42x8_S8192x8_1_0_0_1_n_n none a W (constant S8192x8 .f32 0x00000000#32)
      = mm (n := 8192) (K := 42) (m := 8) a W :=
  matmul_plain (M := 8192) (K := 42) (N := 8) none a W

theorem mm_sbf2 (a : FVec Ideal S8192x8 .f32) (W : FVec Ideal S8x64 .f32) :
    matmul dot_S8192x8_S8x64_S8192x64_1_0_0_1_n_n none a W (constant S8192x64 .f32 0x00000000#32)
      = mm (n := 8192) (K := 8) (m := 64) a W :=
  matmul_plain (M := 8192) (K := 8) (N := 64) none a W

/-- The body's arithmetic on its loaded blocks is stage 2 of them. -/
theorem pay_eq (x0 : Vec Ideal S8192x42 .f32) (x2 : Vec Ideal S42x8 .f32) (x3 : Vec Ideal S8x64 .f32) (x1 : Vec Ideal S8192x64 .f32) :
    k1_pay1 x0 x2 x3 x1 = stage2 (n := 8192) x0 x1 x2 x3 := by
  unfold k1_pay1 stage2
  dsimp only
  rw [shapeCast_self, mm_sbf1, mm_sbf2]

/-- Grid point `t`'s rows. -/
def ρ (t : Fin cfg1.N) : Fin 8192 → Fin 1048576 := fun p => ⟨t.val * 8192 + p.val, by
  have ht : t.val < 128 := t.isLt.trans_eq N_1
  have := p.isLt; omega⟩

/-- The printed index maps, decided over the grid: the three row-blocked windows sit at block row `t`, block column 0;
    the two weight windows at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem read0 (c : Dev nD) (t : Fin cfg1.N) (X : Mat 1048576 42) :
    ((cfg1.win 0).blk t).view.read (Elt Ideal) X = rows (ρ t) X := by
  obtain ⟨e0, e1, -⟩ := idx_facts t
  funext j
  show X (((cfg1.win 0).blk t).view.emb j) = X (ix2 (ρ t (j 0)) (j 1))
  refine congrArg X (funext fun a => Fin.ext ?_)
  match a with
  | ⟨0, _⟩ => show win1_0.index t (0 : Fin 2) * 8192 + 1 * (j 0).val = t.val * 8192 + (j 0).val; omega
  | ⟨1, _⟩ => show win1_0.index t (1 : Fin 2) * 42 + 1 * (j 1).val = (j 1).val; omega

theorem read1 (c : Dev nD) (t : Fin cfg1.N) (X : Mat 1048576 64) :
    ((cfg1.win 1).blk t).view.read (Elt Ideal) X = rows (ρ t) X := by
  obtain ⟨-, -, e0, e1, -⟩ := idx_facts t
  funext j
  show X (((cfg1.win 1).blk t).view.emb j) = X (ix2 (ρ t (j 0)) (j 1))
  refine congrArg X (funext fun a => Fin.ext ?_)
  match a with
  | ⟨0, _⟩ => show win1_1.index t (0 : Fin 2) * 8192 + 1 * (j 0).val = t.val * 8192 + (j 0).val; omega
  | ⟨1, _⟩ => show win1_1.index t (1 : Fin 2) * 64 + 1 * (j 1).val = (j 1).val; omega

theorem read2 (c : Dev nD) (t : Fin cfg1.N) (W : Mat 42 8) : ((cfg1.win 2).blk t).view.read (Elt Ideal) W = W := by
  obtain ⟨-, -, -, -, e0, e1, -⟩ := idx_facts t
  funext j
  show W (((cfg1.win 2).blk t).view.emb j) = W j
  refine congrArg W (funext fun a => Fin.ext ?_)
  match a with
  | ⟨0, _⟩ => show win1_2.index t (0 : Fin 2) * 42 + 1 * (j 0).val = (j 0).val; omega
  | ⟨1, _⟩ => show win1_2.index t (1 : Fin 2) * 8 + 1 * (j 1).val = (j 1).val; omega

theorem read3 (c : Dev nD) (t : Fin cfg1.N) (W : Mat 8 64) : ((cfg1.win 3).blk t).view.read (Elt Ideal) W = W := by
  obtain ⟨-, -, -, -, -, -, e0, e1, -⟩ := idx_facts t
  funext j
  show W (((cfg1.win 3).blk t).view.emb j) = W j
  refine congrArg W (funext fun a => Fin.ext ?_)
  match a with
  | ⟨0, _⟩ => show win1_3.index t (0 : Fin 2) * 8 + 1 * (j 0).val = (j 0).val; omega
  | ⟨1, _⟩ => show win1_3.index t (1 : Fin 2) * 64 + 1 * (j 1).val = (j 1).val; omega

theorem read4 (c : Dev nD) (t : Fin cfg1.N) (X : Mat 1048576 64) :
    ((cfg1.win 4).blk t).view.read (Elt Ideal) X = rows (ρ t) X := by
  obtain ⟨-, -, -, -, -, -, -, -, e0, e1⟩ := idx_facts t
  funext j
  show X (((cfg1.win 4).blk t).view.emb j) = X (ix2 (ρ t (j 0)) (j 1))
  refine congrArg X (funext fun a => Fin.ext ?_)
  match a with
  | ⟨0, _⟩ => show win1_4.index t (0 : Fin 2) * 8192 + 1 * (j 0).val = t.val * 8192 + (j 0).val; omega
  | ⟨1, _⟩ => show win1_4.index t (1 : Fin 2) * 64 + 1 * (j 1).val = (j 1).val; omega

/-- What grid point `t` writes back is its rows of stage 2 of the operand arrays. -/
theorem flushed_eq (c : Dev nD) (t : Fin cfg1.N) :
    (dat1 V c).flushed 4 t = ((cfg1.win 4).blk t).view.read (Elt Ideal)
      (stage2 (n := 1048576) (V c main_arg2) (V c main_v6) (V c main_arg6) (V c main_arg7)) := by
  rw [read4 c t, ← stage2_rows]
  show (cfg1.win 4).cut (grid1.coords t) ((dat1 V c).after 4 t) = _
  rw [after1_4]
  unfold out1_4
  rw [View.canon_unit_zero hz]
  simp only [View.ld_unit_zero (S := S8192x42) hz, View.ld_unit_zero (S := S42x8) hz, View.ld_unit_zero (S := S8x64) hz,
    View.ld_unit_zero (S := S8192x64) hz]
  rw [pay_eq]
  unfold iblk1
  rw [read0 c t, read1 c t, read2 c t, read3 c t]
  rfl

/-- An index of the output array is in grid point `t`'s block iff each coordinate is in the block's range. -/
theorem mem_blk (t : Fin cfg1.N) (i : S1048576x64.Idx) :
    i ∈ ((cfg1.win 4).blk t).view.set ↔ ∀ a : Fin 2, win1_4.index t a * S8192x64.size a ≤ (i a).val
      ∧ (i a).val < win1_4.index t a * S8192x64.size a + S8192x64.size a := by
  show i ∈ ((View.whole main_v7).slice (win1_4.rect t)).set ↔ _
  rw [View.set_slice_whole, Rect.mem_set_unit]
  exact Iff.rfl

/-- The row blocks tile the output: row `r` is in block `r / 8192`. -/
theorem cover (i : S1048576x64.Idx) : ∃ t : Fin cfg1.N, (cfg1.win 4).flush t = true ∧ i ∈ ((cfg1.win 4).blk t).view.set := by
  have hi0 : (i 0).val < 1048576 := (i 0).isLt
  have hi1 : (i 1).val < 64 := (i 1).isLt
  have hN : cfg1.N = 128 := N_1
  obtain ⟨t, ht⟩ : ∃ t : Fin cfg1.N, t.val = (i 0).val / 8192 := ⟨⟨(i 0).val / 8192, by rw [hN]; omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 8192 ≤ (i 0).val ∧ (i 0).val < win1_4.index t (0 : Fin 2) * 8192 + 8192; omega
  | ⟨1, _⟩ => show win1_4.index t (1 : Fin 2) * 64 ≤ (i 1).val ∧ (i 1).val < win1_4.index t (1 : Fin 2) * 64 + 64; omega

/-- After the region the output array is stage 2 of the operand arrays as the region found them. -/
theorem value (c : Dev nD) :
    (dat1 V c).arrAt 4 cfg1.N = stage2 (n := 1048576) (V c main_arg2) (V c main_v6) (V c main_arg6) (V c main_arg7) :=
  (dat1 V c).arrAt_eq_of_cover 4 _ (fun t _ => flushed_eq V c t) cover

end Cert.KernelIdeal.Region1

end
-- ==== Proof.Region2Pay.lean ====
/-
  The arithmetic of the third pallas_call's body on the blocks it loads. With dense(A, W, b) = swish (A·W + b) and
  swish x = x · σ(x): the body forms P = dense(X, W_ji, b_ji) + swish (T·W_up), one residual block
  P + dense(dense(P, ·, ·), ·, ·), a dense layer, the skip X + ·, and two more residual blocks: stage 3 of its blocks.
  The residual blocks' weights arrive as 1×1×128×128 arrays reshaped to 128×128 matrices and their biases as 1×1×1×128
  arrays reshaped to one-row matrices; a reshape keeps the row-major position, and the two leading unit axes add nothing
  to it, so the reshaped array is the one matrix (one row) the array holds.
-/
import proofs.«412852_j76192719831249_3_alg».proof.Proof.Gen.KernelIdeal.Skeleton
import proofs.«412852_j76192719831249_3_alg».proof.Proof.DenseStages

noncomputable section

namespace Cert.KernelIdeal.Region2

open Cert.KernelIdeal Cert.KernelIdeal.Gen Idealize.ShloMosaic
open Idealize.ShloMosaic.ValueIdx Idealize.ShloMosaic.Rowwise Cert.Dense

/-! ## Reshapes that drop two leading unit axes -/

/-- A 1×1×128×128 array reshaped to 128×128 is its one matrix: entry (p, q) sits at row-major position 128·p + q in both. -/
theorem cast_slab (w : FVec Ideal S1x1x128x128 .f32) (h : S1x1x128x128.ShapeCasts S128x128) :
    shapeCast S128x128 w h = slab (a := 1) (b := 1) (K := 128) (m := 128) w 0 0 := by
  funext j
  obtain ⟨p, q, rfl⟩ : ∃ (p : Fin 128) (q : Fin 128), j = ix2 p q := ⟨j 0, j 1, eq_ix2 j⟩
  refine shapeCast_apply w h (ix2 p q) (ix4 0 0 p q) ?_
  rw [Shape.rowMajor_val_four, Shape.rowMajor_val_two]
  show ((0 * 1 + 0) * 128 + p.val) * 128 + q.val = p.val * 128 + q.val
  omega

/-- A 1×1×1×128 array reshaped to 1×128 is its one row. -/
theorem cast_slabRow (b : FVec Ideal S1x1x1x128 .f32) (h : S1x1x1x128.ShapeCasts S1x128) :
    shapeCast S1x128 b h = slabRow4 (a := 1) (b := 1) (m := 128) b 0 0 := by
  funext j
  obtain ⟨p, q, rfl⟩ : ∃ (p : Fin 1) (q : Fin 128), j = ix2 p q := ⟨j 0, j 1, eq_ix2 j⟩
  refine shapeCast_apply b h (ix2 p q) (ix4 0 0 0 q) ?_
  have hp : p.val = 0 := by have := p.isLt; omega
  rw [Shape.rowMajor_val_four, Shape.rowMajor_val_two]
  show ((0 * 1 + 0) * 1 + 0) * 128 + q.val = p.val * 128 + q.val
  omega

/-! ## The body's products and its dense layer -/

/-- The body's two kinds of product are matrix products (their dimension numbers are the plain ones). -/
theorem mm_128 (a : FVec Ideal S8192x128 .f32) (W : FVec Ideal S128x128 .f32) :
    matmul dot_S8192x128_S128x128_S8192x128_1_0_0_1_n_n none a W (constant S8192x128 .f32 0x00000000#32)
      = mm (n := 8192) (K := 128) (m := 128) a W :=
  matmul_plain (M := 8192) (K := 128) (N := 128) none a W

theorem mm_64 (a : FVec Ideal S8192x64 .f32) (W : FVec Ideal S64x128 .f32) :
    matmul dot_S8192x64_S64x128_S8192x128_1_0_0_1_n_n none a W (constant S8192x128 .f32 0x00000000#32)
      = mm (n := 8192) (K := 64) (m := 128) a W :=
  matmul_plain (M := 8192) (K := 64) (N := 128) none a W

/-- A bias row broadcast down the 8192 rows and added. -/
theorem add_bias (A : FVec Ideal S8192x128 .f32) (b : FVec Ideal S1x128 .f32) :
    addf A (broadcastTo S8192x128 b broadcasts_S1x128_S8192x128) = addRow (n := 8192) (m := 128) A b :=
  addf_broadcastTo (n := 8192) (m := 128) A b broadcasts_S1x128_S8192x128

/-- The body's spelling of a dense layer: a product into a zero accumulator, the broadcast bias, times its logistic. -/
theorem dense_eq (A : FVec Ideal S8192x128 .f32) (W : FVec Ideal S128x128 .f32) (b : FVec Ideal S1x128 .f32) :
    mulf (addf (matmul dot_S8192x128_S128x128_S8192x128_1_0_0_1_n_n none A W (constant S8192x128 .f32 0x00000000#32))
        (broadcastTo S8192x128 b broadcasts_S1x128_S8192x128))
      (logistic (addf (matmul dot_S8192x128_S128x128_S8192x128_1_0_0_1_n_n none A W (constant S8192x128 .f32 0x00000000#32))
        (broadcastTo S8192x128 b broadcasts_S1x128_S8192x128)))
      = dense (n := 8192) (K := 128) (m := 128) A W b := by
  rw [mm_128, add_bias]
  rfl

/-! ## The four payloads -/

/-- The first: the second edge layer plus the up-projected aggregate under swish. -/
theorem pay2_eq (x0 : Vec Ideal S8192x128 .f32) (x1 : Vec Ideal S128x128 .f32) (x2 : Vec Ideal S1x128 .f32)
    (x3 : Vec Ideal S8192x64 .f32) (x4 : Vec Ideal S64x128 .f32) :
    k2_pay2 x0 x1 x2 x3 x4 = addf (dense (n := 8192) x0 x1 x2) (swish (mm (n := 8192) (K := 64) (m := 128) x3 x4)) := by
  unfold k2_pay2
  dsimp only
  rw [shapeCast_self, shapeCast_self, dense_eq, mm_64]
  rfl

/-- The second: the first layer of the first residual block, and the product of its second layer. -/
theorem pay3_eq (x0 : Vec Ideal S8192x128 .f32) (x1 : Vec Ideal S128x128 .f32) (x2 : Vec Ideal S1x128 .f32)
    (x3 : Vec Ideal S8192x64 .f32) (x4 : Vec Ideal S64x128 .f32)
    (w00 : Vec Ideal S1x1x128x128 .f32) (b00 : Vec Ideal S1x1x1x128 .f32) (w01 : Vec Ideal S1x1x128x128 .f32) :
    k2_pay3 x0 x1 x2 x3 x4 w00 b00 w01
      = mm (n := 8192) (K := 128) (m := 128)
          (dense (n := 8192) (k2_pay2 x0 x1 x2 x3 x4) (slab (a := 1) (b := 1) w00 0 0) (slabRow4 (a := 1) (b := 1) b00 0 0))
          (slab (a := 1) (b := 1) w01 0 0) := by
  unfold k2_pay3
  dsimp only
  rw [dense_eq, mm_128, cast_slab, cast_slab, cast_slabRow]

/-- The third: the rest of the first residual block, the dense layer, the skip from the input, the second residual block. -/
theorem pay4_eq (x0 : Vec Ideal S8192x128 .f32) (P : FVec Ideal S8192x128 .f32) (Q : FVec Ideal S8192x128 .f32)
    (b01 : Vec Ideal S1x1x1x128 .f32) (x7 : Vec Ideal S128x128 .f32) (x8 : Vec Ideal S1x128 .f32)
    (a00 : Vec Ideal S1x1x128x128 .f32) (c00 : Vec Ideal S1x1x1x128 .f32) (a01 : Vec Ideal S1x1x128x128 .f32) (c01 : Vec Ideal S1x1x1x128 .f32) :
    k2_pay4 x0 P Q b01 x7 x8 a00 c00 a01 c01
      = residual (n := 8192)
          (addf x0 (dense (n := 8192) (addf P (swish (addRow (n := 8192) (m := 128) Q (slabRow4 (a := 1) (b := 1) b01 0 0)))) x7 x8))
          (slab (a := 1) (b := 1) a00 0 0) (slabRow4 (a := 1) (b := 1) c00 0 0)
          (slab (a := 1) (b := 1) a01 0 0) (slabRow4 (a := 1) (b := 1) c01 0 0) := by
  unfold k2_pay4
  dsimp only
  simp only [shapeCast_self, mm_128, add_bias, mulf_logistic, cast_slab, cast_slabRow]
  rfl

/-- The fourth: the third residual block. -/
theorem pay1_eq (R : FVec Ideal S8192x128 .f32)
    (a10 : Vec Ideal S1x1x128x128 .f32) (c10 : Vec Ideal S1x1x1x128 .f32) (a11 : Vec Ideal S1x1x128x128 .f32) (c11 : Vec Ideal S1x1x1x128 .f32) :
    k2_pay1 R a10 c10 a11 c11
      = residual (n := 8192) R (slab (a := 1) (b := 1) a10 0 0) (slabRow4 (a := 1) (b := 1) c10 0 0)
          (slab (a := 1) (b := 1) a11 0 0) (slabRow4 (a := 1) (b := 1) c11 0 0) := by
  unfold k2_pay1
  dsimp only
  simp only [mm_128, add_bias, mulf_logistic, cast_slab, cast_slabRow]
  rfl

/-! ## The store's value -/

/-- The body's arithmetic on its loaded blocks is stage 3 of them. -/
theorem pay_eq (x0 : Vec Ideal S8192x128 .f32) (x1 : Vec Ideal S128x128 .f32) (x2 : Vec Ideal S1x128 .f32) (x3 : Vec Ideal S8192x64 .f32) (x4 : Vec Ideal S64x128 .f32)
    (w00 : Vec Ideal S1x1x128x128 .f32) (b00 : Vec Ideal S1x1x1x128 .f32) (w01 : Vec Ideal S1x1x128x128 .f32) (b01 : Vec Ideal S1x1x1x128 .f32)
    (x7 : Vec Ideal S128x128 .f32) (x8 : Vec Ideal S1x128 .f32)
    (a00 : Vec Ideal S1x1x128x128 .f32) (c00 : Vec Ideal S1x1x1x128 .f32) (a01 : Vec Ideal S1x1x128x128 .f32) (c01 : Vec Ideal S1x1x1x128 .f32)
    (a10 : Vec Ideal S1x1x128x128 .f32) (c10 : Vec Ideal S1x1x1x128 .f32) (a11 : Vec Ideal S1x1x128x128 .f32) (c11 : Vec Ideal S1x1x1x128 .f32) :
    k2_pay1 (k2_pay4 x0 (k2_pay2 x0 x1 x2 x3 x4) (k2_pay3 x0 x1 x2 x3 x4 w00 b00 w01) b01 x7 x8 a00 c00 a01 c01) a10 c10 a11 c11
      = stage3 (n := 8192) x0 x1 x2 x3 x4 (slab (a := 1) (b := 1) w00 0 0) (slabRow4 (a := 1) (b := 1) b00 0 0) (slab (a := 1) (b := 1) w01 0 0) (slabRow4 (a := 1) (b := 1) b01 0 0) x7 x8
          (slab (a := 1) (b := 1) a00 0 0) (slabRow4 (a := 1) (b := 1) c00 0 0) (slab (a := 1) (b := 1) a01 0 0) (slabRow4 (a := 1) (b := 1) c01 0 0)
          (slab (a := 1) (b := 1) a10 0 0) (slabRow4 (a := 1) (b := 1) c10 0 0) (slab (a := 1) (b := 1) a11 0 0) (slabRow4 (a := 1) (b := 1) c11 0 0) := by
  rw [pay1_eq, pay4_eq, pay3_eq, pay2_eq]
  rfl

end Cert.KernelIdeal.Region2

end
-- ==== Proof.Region2.lean ====
/-
  The third pallas_call (the per-edge output stack), read as a value: after its 16 grid points the output array holds
  stage 3 of its operand arrays. Grid point `t` works on rows `8192·t … 8192·t + 8191` of the two tall operands and of
  the output, and on the weight matrices, bias rows and arrays of them whole; its body loads matrix `(i, j)` of an array
  of matrices as a one-by-one sub-array, which is that matrix; its arithmetic is stage 3 of those rows; stage 3 commutes
  with the selection of rows; and the 16 row blocks tile the output.
-/
import proofs.«412852_j76192719831249_3_alg».proof.Proof.Gen.KernelIdeal.Frame
import proofs.«412852_j76192719831249_3_alg».proof.Proof.DenseStages
import proofs.«412852_j76192719831249_3_alg».proof.Proof.Region2Pay

noncomputable section

namespace Cert.KernelIdeal.Region2

open Cert.KernelIdeal Cert.KernelIdeal.Gen Idealize.ShloMosaic Idealize.ShloMosaic.TcCoe Idealize.SL.Sem
open Idealize.ShloMosaic.ValueIdx Idealize.ShloMosaic.Rowwise Cert.Dense

variable (V : (c : Dev nD) → (b : Ref sig .tc) → Buf (Elt Ideal) ((c : Thread nD τ).loc b))

theorem hz : (![0, 0] : Fin 2 → Nat) = fun _ => 0 := funext fun a => by fin_cases a <;> rfl
theorem hz4 : (![0, 0, 0, 0] : Fin 4 → Nat) = fun _ => 0 := funext fun a => by fin_cases a <;> rfl

/-! ## A one-by-one sub-array of an array of matrices is one of its matrices -/

/-- Matrix `(0, 0)` of the one-by-one sub-array of matrices at offset `(i, j)` is matrix `(i, j)` of the array. -/
theorem slab_ld {a b : Nat} (X : FVec Ideal ⟨4, ![a, b, 128, 128]⟩ .f32) (off : Fin 4 → Nat)
    (inb : ∀ d, off d + S1x1x128x128.size d ≤ (⟨4, ![a, b, 128, 128]⟩ : Shape).size d) (i : Fin a) (j : Fin b)
    (h0 : off 0 = i.val) (h1 : off 1 = j.val) (h2 : off 2 = 0) (h3 : off 3 = 0) :
    slab (a := 1) (b := 1) (View.ld (Val := Elt Ideal) (e' := .f32) X (Rect.unit (s := ⟨4, ![a, b, 128, 128]⟩) off S1x1x128x128.size inb)) 0 0 = slab X i j := by
  funext y
  show X ((Rect.unit (s := ⟨4, ![a, b, 128, 128]⟩) off S1x1x128x128.size inb).idx (ix4 0 0 (y 0) (y 1))) = X (ix4 i j (y 0) (y 1))
  refine congrArg X (funext fun d => Fin.ext ?_)
  match d with
  | ⟨0, _⟩ => show off 0 + 1 * 0 = i.val; omega
  | ⟨1, _⟩ => show off 1 + 1 * 0 = j.val; omega
  | ⟨2, _⟩ => show off 2 + 1 * (y 0).val = (y 0).val; omega
  | ⟨3, _⟩ => show off 3 + 1 * (y 1).val = (y 1).val; omega

/-- The same of an array of one-row matrices. -/
theorem slabRow4_ld {a b : Nat} (B : FVec Ideal ⟨4, ![a, b, 1, 128]⟩ .f32) (off : Fin 4 → Nat)
    (inb : ∀ d, off d + S1x1x1x128.size d ≤ (⟨4, ![a, b, 1, 128]⟩ : Shape).size d) (i : Fin a) (j : Fin b)
    (h0 : off 0 = i.val) (h1 : off 1 = j.val) (h2 : off 2 = 0) (h3 : off 3 = 0) :
    slabRow4 (a := 1) (b := 1) (View.ld (Val := Elt Ideal) (e' := .f32) B (Rect.unit (s := ⟨4, ![a, b, 1, 128]⟩) off S1x1x1x128.size inb)) 0 0 = slabRow4 B i j := by
  funext y
  show B ((Rect.unit (s := ⟨4, ![a, b, 1, 128]⟩) off S1x1x1x128.size inb).idx (ix4 0 0 0 (y 1))) = B (ix4 i j 0 (y 1))
  refine congrArg B (funext fun d => Fin.ext ?_)
  match d with
  | ⟨0, _⟩ => show off 0 + 1 * 0 = i.val; omega
  | ⟨1, _⟩ => show off 1 + 1 * 0 = j.val; omega
  | ⟨2, _⟩ => show off 2 + 1 * 0 = 0; omega
  | ⟨3, _⟩ => show off 3 + 1 * (y 1).val = (y 1).val; omega

theorem slab_r2_5 (X : FVec Ideal S1x2x128x128 .f32) : slab (a := 1) (b := 1) (View.ld (Val := Elt Ideal) (e' := .f32) X r2_5) 0 0 = slab X 0 0 :=
  slab_ld (a := 1) (b := 2) X _ _ 0 0 rfl rfl rfl rfl
theorem slab_r2_7 (X : FVec Ideal S1x2x128x128 .f32) : slab (a := 1) (b := 1) (View.ld (Val := Elt Ideal) (e' := .f32) X r2_7) 0 0 = slab X 0 1 :=
  slab_ld (a := 1) (b := 2) X _ _ 0 1 rfl rfl rfl rfl
theorem slabRow4_r2_6 (B : FVec Ideal S1x2x1x128 .f32) : slabRow4 (a := 1) (b := 1) (View.ld (Val := Elt Ideal) (e' := .f32) B r2_6) 0 0 = slabRow4 B 0 0 :=
  slabRow4_ld (a := 1) (b := 2) B _ _ 0 0 rfl rfl rfl rfl
theorem slabRow4_r2_8 (B : FVec Ideal S1x2x1x128 .f32) : slabRow4 (a := 1) (b := 1) (View.ld (Val := Elt Ideal) (e' := .f32) B r2_8) 0 0 = slabRow4 B 0 1 :=
  slabRow4_ld (a := 1) (b := 2) B _ _ 0 1 rfl rfl rfl rfl
theorem slab_r2_9 (X : FVec Ideal S2x2x128x128 .f32) : slab (a := 1) (b := 1) (View.ld (Val := Elt Ideal) (e' := .f32) X r2_9) 0 0 = slab X 0 0 :=
  slab_ld (a := 2) (b := 2) X _ _ 0 0 rfl rfl rfl rfl
theorem slab_r2_11 (X : FVec Ideal S2x2x128x128 .f32) : slab (a := 1) (b := 1) (View.ld (Val := Elt Ideal) (e' := .f32) X r2_11) 0 0 = slab X 0 1 :=
  slab_ld (a := 2) (b := 2) X _ _ 0 1 rfl rfl rfl rfl
theorem slab_r2_13 (X : FVec Ideal S2x2x128x128 .f32) : slab (a := 1) (b := 1) (View.ld (Val := Elt Ideal) (e' := .f32) X r2_13) 0 0 = slab X 1 0 :=
  slab_ld (a := 2) (b := 2) X _ _ 1 0 rfl rfl rfl rfl
theorem slab_r2_15 (X : FVec Ideal S2x2x128x128 .f32) : slab (a := 1) (b := 1) (View.ld (Val := Elt Ideal) (e' := .f32) X r2_15) 0 0 = slab X 1 1 :=
  slab_ld (a := 2) (b := 2) X _ _ 1 1 rfl rfl rfl rfl
theorem slabRow4_r2_10 (B : FVec Ideal S2x2x1x128 .f32) : slabRow4 (a := 1) (b := 1) (View.ld (Val := Elt Ideal) (e' := .f32) B r2_10) 0 0 = slabRow4 B 0 0 :=
  slabRow4_ld (a := 2) (b := 2) B _ _ 0 0 rfl rfl rfl rfl
theorem slabRow4_r2_12 (B : FVec Ideal S2x2x1x128 .f32) : slabRow4 (a := 1) (b := 1) (View.ld (Val := Elt Ideal) (e' := .f32) B r2_12) 0 0 = slabRow4 B 0 1 :=
  slabRow4_ld (a := 2) (b := 2) B _ _ 0 1 rfl rfl rfl rfl
theorem slabRow4_r2_14 (B : FVec Ideal S2x2x1x128 .f32) : slabRow4 (a := 1) (b := 1) (View.ld (Val := Elt Ideal) (e' := .f32) B r2_14) 0 0 = slabRow4 B 1 0 :=
  slabRow4_ld (a := 2) (b := 2) B _ _ 1 0 rfl rfl rfl rfl
theorem slabRow4_r2_16 (B : FVec Ideal S2x2x1x128 .f32) : slabRow4 (a := 1) (b := 1) (View.ld (Val := Elt Ideal) (e' := .f32) B r2_16) 0 0 = slabRow4 B 1 1 :=
  slabRow4_ld (a := 2) (b := 2) B _ _ 1 1 rfl rfl rfl rfl

/-- Grid point `t`'s rows. -/
def ρ (t : Fin cfg2.N) : Fin 8192 → Fin 131072 := fun p => ⟨t.val * 8192 + p.val, by
  have ht : t.val < 16 := t.isLt.trans_eq N_2
  have := p.isLt; omega⟩

/-- The printed index maps, decided over the grid: the three row-blocked windows sit at block row `t`, block column 0;
    every other window at the block of all-zero coordinates. -/
theorem idx_facts : ∀ t : Fin cfg2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 4) = 0 ∧ win2_5.index t (1 : Fin 4) = 0 ∧ win2_5.index t (2 : Fin 4) = 0 ∧ win2_5.index t (3 : Fin 4) = 0)
    ∧ (win2_6.index t (0 : Fin 4) = 0 ∧ win2_6.index t (1 : Fin 4) = 0 ∧ win2_6.index t (2 : Fin 4) = 0 ∧ win2_6.index t (3 : Fin 4) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 4) = 0 ∧ win2_9.index t (1 : Fin 4) = 0 ∧ win2_9.index t (2 : Fin 4) = 0 ∧ win2_9.index t (3 : Fin 4) = 0)
    ∧ (win2_10.index t (0 : Fin 4) = 0 ∧ win2_10.index t (1 : Fin 4) = 0 ∧ win2_10.index t (2 : Fin 4) = 0 ∧ win2_10.index t (3 : Fin 4) = 0)
    ∧ (win2_11.index t (0 : Fin 2) = t.val ∧ win2_11.index t (1 : Fin 2) = 0) :=
  (by decide +kernel : ∀ t : Fin grid2.N, _)

/-! ## What each window's block reads of its array -/

theorem read0 (c : Dev nD) (t : Fin cfg2.N) (X : Mat 131072 128) :
    ((cfg2.win 0).blk t).view.read (Elt Ideal) X = rows (ρ t) X := by
  obtain ⟨e, -⟩ := idx_facts t
  obtain ⟨e0, e1⟩ := e
  funext j
  show X (((cfg2.win 0).blk t).view.emb j) = X (ix2 (ρ t (j 0)) (j 1))
  refine congrArg X (funext fun a => Fin.ext ?_)
  match a with
  | ⟨0, _⟩ => show win2_0.index t (0 : Fin 2) * 8192 + 1 * (j 0).val = t.val * 8192 + (j 0).val; omega
  | ⟨1, _⟩ => show win2_0.index t (1 : Fin 2) * 128 + 1 * (j 1).val = (j 1).val; omega

theorem read1 (c : Dev nD) (t : Fin cfg2.N) (W : Mat 128 128) : ((cfg2.win 1).blk t).view.read (Elt Ideal) W = W := by
  obtain ⟨-, e, -⟩ := idx_facts t
  obtain ⟨e0, e1⟩ := e
  funext j
  show W (((cfg2.win 1).blk t).view.emb j) = W j
  refine congrArg W (funext fun a => Fin.ext ?_)
  match a with
  | ⟨0, _⟩ => show win2_1.index t (0 : Fin 2) * 128 + 1 * (j 0).val = (j 0).val; omega
  | ⟨1, _⟩ => show win2_1.index t (1 : Fin 2) * 128 + 1 * (j 1).val = (j 1).val; omega

theorem read2 (c : Dev nD) (t : Fin cfg2.N) (W : Mat 1 128) : ((cfg2.win 2).blk t).view.read (Elt Ideal) W = W := by
  obtain ⟨-, -, e, -⟩ := idx_facts t
  obtain ⟨e0, e1⟩ := e
  funext j
  show W (((cfg2.win 2).blk t).view.emb j) = W j
  refine congrArg W (funext fun a => Fin.ext ?_)
  match a with
  | ⟨0, _⟩ => show win2_2.index t (0 : Fin 2) * 1 + 1 * (j 0).val = (j 0).val; omega
  | ⟨1, _⟩ => show win2_2.index t (1 : Fin 2) * 128 + 1 * (j 1).val = (j 1).val; omega

theorem read3 (c : Dev nD) (t : Fin cfg2.N) (X : Mat 131072 64) :
    ((cfg2.win 3).blk t).view.read (Elt Ideal) X = rows (ρ t) X := by
  obtain ⟨-, -, -, e, -⟩ := idx_facts t
  obtain ⟨e0, e1⟩ := e
  funext j
  show X (((cfg2.win 3).blk t).view.emb j) = X (ix2 (ρ t (j 0)) (j 1))
  refine congrArg X (funext fun a => Fin.ext ?_)
  match a with
  | ⟨0, _⟩ => show win2_3.index t (0 : Fin 2) * 8192 + 1 * (j 0).val = t.val * 8192 + (j 0).val; omega
  | ⟨1, _⟩ => show win2_3.index t (1 : Fin 2) * 64 + 1 * (j 1).val = (j 1).val; omega

theorem read4 (c : Dev nD) (t : Fin cfg2.N) (W : Mat 64 128) : ((cfg2.win 4).blk t).view.read (Elt Ideal) W = W := by
  obtain ⟨-, -, -, -, e, -⟩ := idx_facts t
  obtain ⟨e0, e1⟩ := e
  funext j
  show W (((cfg2.win 4).blk t).view.emb j) = W j
  refine congrArg W (funext fun a => Fin.ext ?_)
  match a with
  | ⟨0, _⟩ => show win2_4.index t (0 : Fin 2) * 64 + 1 * (j 0).val = (j 0).val; omega
  | ⟨1, _⟩ => show win2_4.index t (1 : Fin 2) * 128 + 1 * (j 1).val = (j 1).val; omega

theorem read5 (c : Dev nD) (t : Fin cfg2.N) (W : FVec Ideal S1x2x128x128 .f32) : ((cfg2.win 5).blk t).view.read (Elt Ideal) W = W := by
  obtain ⟨-, -, -, -, -, e, -⟩ := idx_facts t
  obtain ⟨e0, e1, e2, e3⟩ := e
  funext j
  show W (((cfg2.win 5).blk t).view.emb j) = W j
  refine congrArg W (funext fun a => Fin.ext ?_)
  match a with
  | ⟨0, _⟩ => show win2_5.index t (0 : Fin 4) * 1 + 1 * (j 0).val = (j 0).val; omega
  | ⟨1, _⟩ => show win2_5.index t (1 : Fin 4) * 2 + 1 * (j 1).val = (j 1).val; omega
  | ⟨2, _⟩ => show win2_5.index t (2 : Fin 4) * 128 + 1 * (j 2).val = (j 2).val; omega
  | ⟨3, _⟩ => show win2_5.index t (3 : Fin 4) * 128 + 1 * (j 3).val = (j 3).val; omega

theorem read6 (c : Dev nD) (t : Fin cfg2.N) (W : FVec Ideal S1x2x1x128 .f32) : ((cfg2.win 6).blk t).view.read (Elt Ideal) W = W := by
  obtain ⟨-, -, -, -, -, -, e, -⟩ := idx_facts t
  obtain ⟨e0, e1, e2, e3⟩ := e
  funext j
  show W (((cfg2.win 6).blk t).view.emb j) = W j
  refine congrArg W (funext fun a => Fin.ext ?_)
  match a with
  | ⟨0, _⟩ => show win2_6.index t (0 : Fin 4) * 1 + 1 * (j 0).val = (j 0).val; omega
  | ⟨1, _⟩ => show win2_6.index t (1 : Fin 4) * 2 + 1 * (j 1).val = (j 1).val; omega
  | ⟨2, _⟩ => show win2_6.index t (2 : Fin 4) * 1 + 1 * (j 2).val = (j 2).val; omega
  | ⟨3, _⟩ => show win2_6.index t (3 : Fin 4) * 128 + 1 * (j 3).val = (j 3).val; omega

theorem read7 (c : Dev nD) (t : Fin cfg2.N) (W : Mat 128 128) : ((cfg2.win 7).blk t).view.read (Elt Ideal) W = W := by
  obtain ⟨-, -, -, -, -, -, -, e, -⟩ := idx_facts t
  obtain ⟨e0, e1⟩ := e
  funext j
  show W (((cfg2.win 7).blk t).view.emb j) = W j
  refine congrArg W (funext fun a => Fin.ext ?_)
  match a with
  | ⟨0, _⟩ => show win2_7.index t (0 : Fin 2) * 128 + 1 * (j 0).val = (j 0).val; omega
  | ⟨1, _⟩ => show win2_7.index t (1 : Fin 2) * 128 + 1 * (j 1).val = (j 1).val; omega

theorem read8 (c : Dev nD) (t : Fin cfg2.N) (W : Mat 1 128) : ((cfg2.win 8).blk t).view.read (Elt Ideal) W = W := by
  obtain ⟨-, -, -, -, -, -, -, -, e, -⟩ := idx_facts t
  obtain ⟨e0, e1⟩ := e
  funext j
  show W (((cfg2.win 8).blk t).view.emb j) = W j
  refine congrArg W (funext fun a => Fin.ext ?_)
  match a with
  | ⟨0, _⟩ => show win2_8.index t (0 : Fin 2) * 1 + 1 * (j 0).val = (j 0).val; omega
  | ⟨1, _⟩ => show win2_8.index t (1 : Fin 2) * 128 + 1 * (j 1).val = (j 1).val; omega

theorem read9 (c : Dev nD) (t : Fin cfg2.N) (W : FVec Ideal S2x2x128x128 .f32) : ((cfg2.win 9).blk t).view.read (Elt Ideal) W = W := by
  obtain ⟨-, -, -, -, -, -, -, -, -, e, -⟩ := idx_facts t
  obtain ⟨e0, e1, e2, e3⟩ := e
  funext j
  show W (((cfg2.win 9).blk t).view.emb j) = W j
  refine congrArg W (funext fun a => Fin.ext ?_)
  match a with
  | ⟨0, _⟩ => show win2_9.index t (0 : Fin 4) * 2 + 1 * (j 0).val = (j 0).val; omega
  | ⟨1, _⟩ => show win2_9.index t (1 : Fin 4) * 2 + 1 * (j 1).val = (j 1).val; omega
  | ⟨2, _⟩ => show win2_9.index t (2 : Fin 4) * 128 + 1 * (j 2).val = (j 2).val; omega
  | ⟨3, _⟩ => show win2_9.index t (3 : Fin 4) * 128 + 1 * (j 3).val = (j 3).val; omega

theorem read10 (c : Dev nD) (t : Fin cfg2.N) (W : FVec Ideal S2x2x1x128 .f32) : ((cfg2.win 10).blk t).view.read (Elt Ideal) W = W := by
  obtain ⟨-, -, -, -, -, -, -, -, -, -, e, -⟩ := idx_facts t
  obtain ⟨e0, e1, e2, e3⟩ := e
  funext j
  show W (((cfg2.win 10).blk t).view.emb j) = W j
  refine congrArg W (funext fun a => Fin.ext ?_)
  match a with
  | ⟨0, _⟩ => show win2_10.index t (0 : Fin 4) * 2 + 1 * (j 0).val = (j 0).val; omega
  | ⟨1, _⟩ => show win2_10.index t (1 : Fin 4) * 2 + 1 * (j 1).val = (j 1).val; omega
  | ⟨2, _⟩ => show win2_10.index t (2 : Fin 4) * 1 + 1 * (j 2).val = (j 2).val; omega
  | ⟨3, _⟩ => show win2_10.index t (3 : Fin 4) * 128 + 1 * (j 3).val = (j 3).val; omega

theorem read11 (c : Dev nD) (t : Fin cfg2.N) (X : Mat 131072 128) :
    ((cfg2.win 11).blk t).view.read (Elt Ideal) X = rows (ρ t) X := by
  obtain ⟨-, -, -, -, -, -, -, -, -, -, -, e⟩ := idx_facts t
  obtain ⟨e0, e1⟩ := e
  funext j
  show X (((cfg2.win 11).blk t).view.emb j) = X (ix2 (ρ t (j 0)) (j 1))
  refine congrArg X (funext fun a => Fin.ext ?_)
  match a with
  | ⟨0, _⟩ => show win2_11.index t (0 : Fin 2) * 8192 + 1 * (j 0).val = t.val * 8192 + (j 0).val; omega
  | ⟨1, _⟩ => show win2_11.index t (1 : Fin 2) * 128 + 1 * (j 1).val = (j 1).val; omega

/-! ## The blocks the body finds in its windows -/

theorem iblk_0 (c : Dev nD) (t : Fin cfg2.N) : iblk2 V c 0 t = rows (ρ t) (V c main_arg0) := read0 c t (V c main_arg0)
theorem iblk_1 (c : Dev nD) (t : Fin cfg2.N) : iblk2 V c 1 t = V c main_arg8 := read1 c t (V c main_arg8)
theorem iblk_2 (c : Dev nD) (t : Fin cfg2.N) : iblk2 V c 2 t = V c main_v11 := read2 c t (V c main_v11)
theorem iblk_3 (c : Dev nD) (t : Fin cfg2.N) : iblk2 V c 3 t = rows (ρ t) (V c main_v10) := read3 c t (V c main_v10)
theorem iblk_4 (c : Dev nD) (t : Fin cfg2.N) : iblk2 V c 4 t = V c main_arg13 := read4 c t (V c main_arg13)
theorem iblk_5 (c : Dev nD) (t : Fin cfg2.N) : iblk2 V c 5 t = V c main_arg14 := read5 c t (V c main_arg14)
theorem iblk_6 (c : Dev nD) (t : Fin cfg2.N) : iblk2 V c 6 t = V c main_v13 := read6 c t (V c main_v13)
theorem iblk_7 (c : Dev nD) (t : Fin cfg2.N) : iblk2 V c 7 t = V c main_arg16 := read7 c t (V c main_arg16)
theorem iblk_8 (c : Dev nD) (t : Fin cfg2.N) : iblk2 V c 8 t = V c main_v12 := read8 c t (V c main_v12)
theorem iblk_9 (c : Dev nD) (t : Fin cfg2.N) : iblk2 V c 9 t = V c main_arg18 := read9 c t (V c main_arg18)
theorem iblk_10 (c : Dev nD) (t : Fin cfg2.N) : iblk2 V c 10 t = V c main_v14 := read10 c t (V c main_v14)

/-- What the body leaves in the output window's buffer is stage 3 of the blocks it found, the matrices and bias rows
    taken out of their arrays. -/
theorem out_eq (x0 : Vec Ideal S8192x128 .f32) (x1 : Vec Ideal S128x128 .f32) (x2 : Vec Ideal S1x128 .f32) (x3 : Vec Ideal S8192x64 .f32)
    (x4 : Vec Ideal S64x128 .f32) (x5 : Vec Ideal S1x2x128x128 .f32) (x6 : Vec Ideal S1x2x1x128 .f32) (x7 : Vec Ideal S128x128 .f32)
    (x8 : Vec Ideal S1x128 .f32) (x9 : Vec Ideal S2x2x128x128 .f32) (x10 : Vec Ideal S2x2x1x128 .f32) :
    out2_11 x0 x1 x2 x3 x4 x5 x6 x7 x8 x9 x10
      = stage3 (n := 8192) x0 x1 x2 x3 x4 (slab x5 0 0) (slabRow4 x6 0 0) (slab x5 0 1) (slabRow4 x6 0 1) x7 x8
          (slab x9 0 0) (slabRow4 x10 0 0) (slab x9 0 1) (slabRow4 x10 0 1) (slab x9 1 0) (slabRow4 x10 1 0) (slab x9 1 1) (slabRow4 x10 1 1) := by
  unfold out2_11
  rw [View.canon_unit_zero hz]
  simp only [View.ld_unit_zero (S := S8192x128) hz, View.ld_unit_zero (S := S128x128) hz, View.ld_unit_zero (S := S1x128) hz,
    View.ld_unit_zero (S := S8192x64) hz, View.ld_unit_zero (S := S64x128) hz]
  rw [pay_eq, slab_r2_5, slabRow4_r2_6, slab_r2_7, slabRow4_r2_8, slab_r2_9, slabRow4_r2_10, slab_r2_11, slabRow4_r2_12,
    slab_r2_13, slabRow4_r2_14, slab_r2_15, slabRow4_r2_16]

/-- What grid point `t` writes back is its rows of stage 3 of the operand arrays. -/
theorem flushed_eq (c : Dev nD) (t : Fin cfg2.N) :
    (dat2 V c).flushed 11 t = ((cfg2.win 11).blk t).view.read (Elt Ideal)
      (stage3 (n := 131072) (V c main_arg0) (V c main_arg8) (V c main_v11) (V c main_v10) (V c main_arg13)
        (slab (V c main_arg14) 0 0) (slabRow4 (V c main_v13) 0 0) (slab (V c main_arg14) 0 1) (slabRow4 (V c main_v13) 0 1)
        (V c main_arg16) (V c main_v12)
        (slab (V c main_arg18) 0 0) (slabRow4 (V c main_v14) 0 0) (slab (V c main_arg18) 0 1) (slabRow4 (V c main_v14) 0 1)
        (slab (V c main_arg18) 1 0) (slabRow4 (V c main_v14) 1 0) (slab (V c main_arg18) 1 1) (slabRow4 (V c main_v14) 1 1)) := by
  rw [read11 c t, ← stage3_rows]
  show (cfg2.win 11).cut (grid2.coords t) ((dat2 V c).after 11 t) = _
  rw [after2_11, out_eq, iblk_0 V c t, iblk_1 V c t, iblk_2 V c t, iblk_3 V c t, iblk_4 V c t, iblk_5 V c t, iblk_6 V c t,
    iblk_7 V c t, iblk_8 V c t, iblk_9 V c t, iblk_10 V c t]
  rfl

/-- An index of the output array is in grid point `t`'s block iff each coordinate is in the block's range. -/
theorem mem_blk (t : Fin cfg2.N) (i : S131072x128.Idx) :
    i ∈ ((cfg2.win 11).blk t).view.set ↔ ∀ a : Fin 2, win2_11.index t a * S8192x128.size a ≤ (i a).val
      ∧ (i a).val < win2_11.index t a * S8192x128.size a + S8192x128.size a := by
  show i ∈ ((View.whole main_v15).slice (win2_11.rect t)).set ↔ _
  rw [View.set_slice_whole, Rect.mem_set_unit]
  exact Iff.rfl

/-- The row blocks tile the output: row `r` is in block `r / 8192`. -/
theorem cover (i : S131072x128.Idx) : ∃ t : Fin cfg2.N, (cfg2.win 11).flush t = true ∧ i ∈ ((cfg2.win 11).blk t).view.set := by
  have hi0 : (i 0).val < 131072 := (i 0).isLt
  have hi1 : (i 1).val < 128 := (i 1).isLt
  have hN : cfg2.N = 16 := N_2
  obtain ⟨t, ht⟩ : ∃ t : Fin cfg2.N, t.val = (i 0).val / 8192 := ⟨⟨(i 0).val / 8192, by rw [hN]; omega⟩, rfl⟩
  obtain ⟨-, -, -, -, -, -, -, -, -, -, -, e⟩ := idx_facts t
  obtain ⟨e0, e1⟩ := e
  refine ⟨t, flush2_11 t, ?_⟩
  rw [mem_blk]
  intro a
  match a with
  | ⟨0, _⟩ => show win2_11.index t (0 : Fin 2) * 8192 ≤ (i 0).val ∧ (i 0).val < win2_11.index t (0 : Fin 2) * 8192 + 8192; omega
  | ⟨1, _⟩ => show win2_11.index t (1 : Fin 2) * 128 ≤ (i 1).val ∧ (i 1).val < win2_11.index t (1 : Fin 2) * 128 + 128; omega

/-- After the region the output array is stage 3 of the operand arrays as the region found them. -/
theorem value (c : Dev nD) :
    (dat2 V c).arrAt 11 cfg2.N = stage3 (n := 131072) (V c main_arg0) (V c main_arg8) (V c main_v11) (V c main_v10) (V c main_arg13)
      (slab (V c main_arg14) 0 0) (slabRow4 (V c main_v13) 0 0) (slab (V c main_arg14) 0 1) (slabRow4 (V c main_v13) 0 1)
      (V c main_arg16) (V c main_v12)
      (slab (V c main_arg18) 0 0) (slabRow4 (V c main_v14) 0 0) (slab (V c main_arg18) 0 1) (slabRow4 (V c main_v14) 0 1)
      (slab (V c main_arg18) 1 0) (slabRow4 (V c main_v14) 1 0) (slab (V c main_arg18) 1 1) (slabRow4 (V c main_v14) 1 1) :=
  (dat2 V c).arrAt_eq_of_cover 11 _ (fun t _ => flushed_eq V c t) cover

end Cert.KernelIdeal.Region2

end
-- ==== Proof.IndexRange.lean ====
/-
  Two facts about the array of integer pairs whose second column names rows of a table of 131072 rows.

  First: the precondition ends in "every word of that column is at least 0 and below 131072", expressed as a reduction by
  "and" of the pointwise conjunction of two signed comparisons against broadcast constants; read back at a row `p` it says
  `0 ≤ w p < 131072` for the signed value of the word. Second: a take of table rows at such words. The take first adds
  131072 to a negative word (none is negative, so the words are unchanged), then masks the gathered rows by "the word is
  between 0 and 131071" (a reduction by "and" over an axis of extent one), filling with NaN elsewhere; every word being
  in range, the mask is all ones and the masked gather is the gather.
-/
import proofs.«412852_j76192719831249_3_alg».proof.Proof.Gen.Pre_finite_inputs
import proofs.«412852_j76192719831249_3_alg».proof.Proof.Gen.KernelIdeal
import Idealize.ShloMosaic.Lib.ReduceAll
import Idealize.ShloMosaic.Lib.ValueIdx
import Idealize.ShloMosaic.Lib.Pipeline.Value

noncomputable section

/-! ## Reading the operations at an index -/

namespace Idealize.ShloMosaic.IndexWords

open Idealize.ShloMosaic Idealize.ShloMosaic.ValueIdx

instance : Subsingleton (⟨0, ![]⟩ : Shape).Idx := ⟨fun a b => funext fun d => d.elim0⟩

/-- Column 1 of an `n × 2` array, cut out as an `n × 1` block and flattened, read at `p`: entry `(p, 1)`. -/
theorem slice_col1 {α : Type} {n : Nat} (x : (⟨2, ![n, 2]⟩ : Shape).Idx → α)
    (hs : (⟨2, ![n, 2]⟩ : Shape).Slices ![0, 1] ⟨2, ![n, 1]⟩) (hc : (⟨2, ![n, 1]⟩ : Shape).ShapeCasts ⟨1, ![n]⟩) (p : Fin n) :
    shapeCast ⟨1, ![n]⟩ (extractStridedSlice ⟨2, ![n, 1]⟩ ![0, 1] x hs) hc (ix1 p) = x (ix2 p 1) := by
  refine (shapeCast_apply _ hc (ix1 p) (ix2 p 0) ?_).trans ?_
  · rw [Shape.rowMajor_val_one, Shape.rowMajor_val_two]
    show p.val * 1 + 0 = p.val
    omega
  · refine extractStridedSlice_apply ![0, 1] x hs (ix2 p 0) (ix2 p 1) fun a => ?_
    match a with
    | ⟨0, _⟩ => show p.val = 0 + p.val; omega
    | ⟨1, _⟩ => rfl

/-- A vector laid down a one-column matrix, read at row `p`: entry `p`. -/
theorem bcast_col {α : Type} {n : Nat} (h : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h v (ix2 p q) = v (ix1 p) := by
  refine broadcastInDim_apply ![0] h v (ix2 p q) (ix1 p) fun a => ?_
  match a with
  | ⟨0, _⟩ =>
    show p.val = if n = 1 then 0 else p.val
    split_ifs with hn
    · have := p.isLt; omega
    · rfl

/-- A left fold by "and" over one-bit words from 1 that meets only 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_one f l _ ?_ fun n hn => hl n (List.mem_cons_of_mem _ hn)
    exact IntOp.andi_eq_one.2 ⟨h, hl a (List.mem_cons_self ..)⟩

/-- A reduction by "and" of an array of ones, from 1, is 1 at every index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_one x _ _ (hi _) fun n _ => hx n

end Idealize.ShloMosaic.IndexWords

/-! ## The precondition's last conjunct, read back -/

namespace Cert.Proof.IndexRange

open Idealize.ShloMosaic Idealize.ShloMosaic.ValueIdx Idealize.ShloMosaic.IndexWords
open Cert.Pre_finite_inputs Cert.Pre_finite_inputs.Facts

/-- Under the precondition every word of column 1 of the pair array is, read signed, at least 0 and below 131072. -/
theorem of_pre (a0 : FVec Ideal S131072x128 .f32) (a1 : FVec Ideal S131072x6 .f32) (a2 : FVec Ideal S1048576x42 .f32)
    (a3 : IVec S1048576x2 32) (a4 : FVec Ideal S6x8 .f32) (a5 : FVec Ideal S8x128 .f32) (a6 : FVec Ideal S42x8 .f32)
    (a7 : FVec Ideal S8x64 .f32) (a8 : FVec Ideal S128x128 .f32) (a9 : FVec Ideal S128 .f32) (a10 : FVec Ideal S128x128 .f32)
    (a11 : FVec Ideal S128 .f32) (a12 : FVec Ideal S128x64 .f32) (a13 : FVec Ideal S64x128 .f32)
    (a14 : FVec Ideal S1x2x128x128 .f32) (a15 : FVec Ideal S1x2x128 .f32) (a16 : FVec Ideal S128x128 .f32)
    (a17 : FVec Ideal S128 .f32) (a18 : FVec Ideal S2x2x128x128 .f32) (a19 : FVec Ideal S2x2x128 .f32)
    (h : Cert.Pre_finite_inputs.fn (F := Ideal) a0 a1 a2 a3 a4 a5 a6 a7 a8 a9 a10 a11 a12 a13 a14 a15 a16 a17 a18 a19 = fun _ => 1#1) :
    ∀ p : Fin 1048576, (0 : Int) ≤ (a3 (ValueIdx.ix2 p 1)).toInt ∧ (a3 (ValueIdx.ix2 p 1)).toInt < 131072 := by
  intro p
  have h0 := congrFun h ix0
  unfold fn fn_part1 fn_part2 fn_part3 fn_part4 fn_part5 fn_part6 at h0
  dsimp only at h0
  have hall := (IntOp.andi_eq_one.1 h0).2
  have hp := Host.reduce_andi_all _ _ _ _ _ hall (ix1 p)
  obtain ⟨hge, hlt⟩ := IntOp.andi_eq_one.1 hp
  have e : shapeCast S1048576 (extractStridedSlice S1048576x1 ![0, 1] a3 slices_S1048576x2_S1048576x1_0_1)
      shapeCasts_S1048576x1_S1048576 (ix1 p) = a3 (ix2 p 1) := slice_col1 a3 _ _ p
  have hge' : (0#32 : BitVec 32).toInt ≤ (shapeCast S1048576 (extractStridedSlice S1048576x1 ![0, 1] a3 slices_S1048576x2_S1048576x1_0_1)
      shapeCasts_S1048576x1_S1048576 (ix1 p)).toInt := IntOp.cmpi_sge.1 hge
  have hlt' : (shapeCast S1048576 (extractStridedSlice S1048576x1 ![0, 1] a3 slices_S1048576x2_S1048576x1_0_1)
      shapeCasts_S1048576x1_S1048576 (ix1 p)).toInt < (131072#32 : BitVec 32).toInt := IntOp.cmpi_slt.1 hlt
  rw [e] at hge' hlt'
  rw [show (0#32 : BitVec 32).toInt = 0 from by decide] at hge'
  rw [show (131072#32 : BitVec 32).toInt = 131072 from by decide] at hlt'
  exact ⟨hge', hlt'⟩

end Cert.Proof.IndexRange

/-! ## The take at words in range is the gather -/

namespace Cert.KernelIdeal.Take

open Idealize.ShloMosaic Idealize.ShloMosaic.ValueIdx Idealize.ShloMosaic.IndexWords
open Cert.KernelIdeal Cert.KernelIdeal.Facts₀

/-- The words with 131072 added to the negative ones. -/
def wrapped (j : IVec S1048576 32) : IVec S1048576 32 :=
  select (cmpi .slt j (broadcastInDim S1048576 ![] bcast_S_S1048576 (constantI S_ 32 0#32)))
    (addi j (broadcastInDim S1048576 ![] bcast_S_S1048576 (constantI S_ 32 131072#32))) j

/-- … as a column. -/
def col (j : IVec S1048576 32) : IVec S1048576x1 32 :=
  broadcastInDim S1048576x1 ![0] bcast_S1048576_S1048576x1_0 (wrapped j)

/-- The mask "the wrapped word is between 0 and 131071", one bit per word. -/
def inRange (j : IVec S1048576 32) : IVec S1048576 1 :=
  Host.reduce IntOp.andi
    (andi (cmpi .sge (col j) (broadcastInDim S1048576x1 ![] bcast_S_S1048576x1 (constantI S_ 32 0#32)))
      (cmpi .sle (col j) (broadcastInDim S1048576x1 ![0, 1] bcast_S1x1_S1048576x1_0_1
        (broadcastInDim S1x1 ![1] bcast_S1_S1x1_1 (constantI S1 32 131071#32)))))
    (constantI S_ 1 1#1) reducesTo_S1048576x1_S1048576_d1 h_S_

/-- Words that are not negative are left as they are. -/
theorem wrapped_apply (j : IVec S1048576 32) (p : Fin 1048576) (hp : (0 : Int) ≤ (j (ix1 p)).toInt) :
    wrapped j (ix1 p) = j (ix1 p) := by
  show Scalar.select (IntOp.cmpi .slt (j (ix1 p)) 0#32) (IntOp.addi (j (ix1 p)) 131072#32) (j (ix1 p)) = j (ix1 p)
  have hc : IntOp.cmpi .slt (j (ix1 p)) 0#32 = 0#1 := eq_zero_of_ne_one fun hc => by
    have h1 := IntOp.cmpi_slt.1 hc
    rw [show (0#32 : BitVec 32).toInt = 0 from by decide] at h1
    omega
  rw [hc]
  exact select_zero _ _

/-- The column at row `p` holds word `p`. -/
theorem col_apply (j : IVec S1048576 32) (p : Fin 1048576) (q : Fin 1) (hp : (0 : Int) ≤ (j (ix1 p)).toInt) :
    col j (ix2 p q) = j (ix1 p) :=
  (bcast_col bcast_S1048576_S1048576x1_0 (wrapped j) p q).trans (wrapped_apply j p hp)

/-- With every word in range the mask is all ones. -/
theorem inRange_apply (j : IVec S1048576 32)
    (hj : ∀ p : Fin 1048576, (0 : Int) ≤ (j (ValueIdx.ix1 p)).toInt ∧ (j (ValueIdx.ix1 p)).toInt < 131072) (i : S1048576.Idx) :
    inRange j i = 1#1 := by
  refine reduce_andi_of_all _ _ _ _ (fun i => ?_) (fun _ => rfl) i
  obtain ⟨p, q, rfl⟩ : ∃ (p : Fin 1048576) (q : Fin 1), i = ix2 p q := ⟨i 0, i 1, eq_ix2 i⟩
  obtain ⟨h0, h1⟩ := hj p
  show IntOp.andi (IntOp.cmpi .sge (col j (ix2 p q)) 0#32) (IntOp.cmpi .sle (col j (ix2 p q)) 131071#32) = 1#1
  rw [col_apply j p q h0]
  refine IntOp.andi_eq_one.2 ⟨IntOp.cmpi_sge.2 ?_, IntOp.cmpi_sle.2 ?_⟩
  · rw [show (0#32 : BitVec 32).toInt = 0 from by decide]; exact h0
  · rw [show (131071#32 : BitVec 32).toInt = 131071 from by decide]; omega

/-- The masked gather with NaN fill is the gather. -/
theorem take_eq_gather (tbl : FVec Ideal S131072x64 .f32) (j : IVec S1048576 32)
    (hj : ∀ p : Fin 1048576, (0 : Int) ≤ (j (ValueIdx.ix1 p)).toInt ∧ (j (ValueIdx.ix1 p)).toInt < 131072) :
    select (broadcastInDim S1048576x64 ![0] bcast_S1048576_S1048576x64_0 (inRange j))
        (Host.gather gather_S131072x64_S1048576x1_S1048576x64_1_0_n_n_0_1_164 tbl (col j))
        (broadcastInDim S1048576x64 ![] bcast_S_S1048576x64 (constant S_ .f32 0x7FC00000#32))
      = Host.gather gather_S131072x64_S1048576x1_S1048576x64_1_0_n_n_0_1_164 tbl (col j) := by
  funext i
  have hm : broadcastInDim S1048576x64 ![0] bcast_S1048576_S1048576x64_0 (inRange j) i = 1#1 := inRange_apply j hj _
  refine (congrArg (fun c => Scalar.select c
    (Host.gather gather_S131072x64_S1048576x1_S1048576x64_1_0_n_n_0_1_164 tbl (col j) i)
    (broadcastInDim S1048576x64 ![] bcast_S_S1048576x64 (constant S_ .f32 0x7FC00000#32) i)) hm).trans (select_one _ _)

/-- Column 1 of the pair array, cut out and flattened, at `p`. -/
theorem col_of_slice (ids : IVec S1048576x2 32) (p : Fin 1048576) :
    (shapeCast S1048576 (extractStridedSlice S1048576x1 ![0, 1] ids slices_S1048576x2_S1048576x1_0_1) shapeCasts_S1048576x1_S1048576)
      (ValueIdx.ix1 p) = ids (ValueIdx.ix2 p 1) :=
  slice_col1 ids _ _ p

end Cert.KernelIdeal.Take

end
-- ==== Proof.KernelHost.lean ====
/-
  What the host operations between the kernel program's three grid regions leave in the buffers, for any starting
  contents. Each stretch is a straight line of tensor operations, each writing one buffer of its own: a buffer's contents
  afterwards are the composition of the operations on the path to it, read at the starting contents, and a buffer none
  writes keeps what it held. Stretch one splits the edge list into its two index columns; stretch two is the row lookup
  (negative indices wrapped once by the table height, rows gathered, out-of-range rows filled with the quiet NaN);
  stretch three scatter-adds the messages into a zero table by the first index column.
-/
import proofs.«412852_j76192719831249_3_alg».proof.Proof.Gen.KernelIdeal.Frame
import proofs.«412852_j76192719831249_3_alg».proof.Proof.IndexRange
import Idealize.ShloMosaic.Lib.StableHlo.Run

noncomputable section

namespace Cert.KernelIdeal.Host

open Cert.KernelIdeal Cert.KernelIdeal.Gen Idealize.ShloMosaic Idealize.ShloMosaic.TcCoe Idealize.ShloMosaic.StableHlo

variable {F : FTy → Type} [FloatOps F] (U : Valuation τ sig (Elt F))

/-- A single written buffer lies in the set of a list of references that names it. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first stretch: the two index columns and a reshaped bias -/

theorem s0_v1 : after hostOps0 U (Proc.devRef .tc main_v1) = shapeCast S1048576 (extractStridedSlice S1048576x1 ![0, 0] (U (Proc.devRef .tc main_arg3)) slices_S1048576x2_S1048576x1_0_0) shapeCasts_S1048576x1_S1048576 := by
  simp only [hostOps0]; after_results; rfl

theorem s0_v3 : after hostOps0 U (Proc.devRef .tc main_v3) = shapeCast S1048576 (extractStridedSlice S1048576x1 ![0, 1] (U (Proc.devRef .tc main_arg3)) slices_S1048576x2_S1048576x1_0_1) shapeCasts_S1048576x1_S1048576 := by
  simp only [hostOps0]; after_results; rfl

theorem s0_v4 : after hostOps0 U (Proc.devRef .tc main_v4) = shapeCast S1x128 (U (Proc.devRef .tc main_arg11)) shapeCasts_S128_S1x128 := by
  simp only [hostOps0]; after_results; rfl

/-- The first stretch writes five buffers; any other keeps its contents. -/
theorem s0_keep (b : Ref sig .tc) (hb : b ∉ [main_v0, main_v1, main_v2, main_v3, main_v4]) :
    after hostOps0 U (Proc.devRef .tc b) = U (Proc.devRef .tc b) :=
  after_of_writes_sub hostOps0 U
    ⟨single_sub (by decide), single_sub (by decide), single_sub (by decide), single_sub (by decide), single_sub (by decide)⟩ hb

/-! ## The second stretch: the row lookup -/

/-- Contents carried to a typed reference's buffer and back are the contents. -/
theorem ofBuf_toBuf {T : BufTy} (x : TRef sig T) (v : T.Contents (Elt F)) : x.ofBuf (x.toBuf v) = v := by
  obtain ⟨r, rfl, a, b⟩ := x
  rfl

/-- The same at the three literal buffers the lookup meets at its ends — the second index column, the table and the
    result —, whose types are the values' types by computation. -/
theorem ofBuf_v3 (h a b) : (TRef.of main_v3 h a b : TRef sig ⟨S1048576, .i32⟩).ofBuf (U (Proc.devRef .tc main_v3)) = (U (Proc.devRef .tc main_v3) : IVec S1048576 32) := rfl

theorem ofBuf_v5 (h a b) : (TRef.of main_v5 h a b : TRef sig ⟨S131072x64, .f32⟩).ofBuf (U (Proc.devRef .tc main_v5)) = (U (Proc.devRef .tc main_v5) : FVec F S131072x64 .f32) := rfl

theorem toBuf_v6 (h a b) (v : (⟨S1048576x64, .f32⟩ : BufTy).Contents (Elt F)) : (TRef.of main_v6 h a b : TRef sig ⟨S1048576x64, .f32⟩).toBuf v = v := rfl

/-- The looked-up rows: rows of the table gathered at the wrapped indices, a row whose wrapped index is out of range
    replaced by the quiet NaN. -/
theorem s1_v6 : after hostOps1 U (Proc.devRef .tc main_v6)
    = select (broadcastInDim S1048576x64 ![0] bcast_S1048576_S1048576x64_0 (Take.inRange (U (Proc.devRef .tc main_v3))))
        (Host.gather gather_S131072x64_S1048576x1_S1048576x64_1_0_n_n_0_1_164 (U (Proc.devRef .tc main_v5)) (Take.col (U (Proc.devRef .tc main_v3))))
        (broadcastInDim S1048576x64 ![] bcast_S_S1048576x64 (constant S_ .f32 0x7FC00000#32)) := by
  simp only [hostOps1]; after_results_simp
  simp only [ofBuf_toBuf, ofBuf_v3, ofBuf_v5, toBuf_v6]
  rfl

/-- The second stretch writes its 22 intermediate buffers and the looked-up rows; any other buffer keeps its contents. -/
theorem s1_keep (b : Ref sig .tc)
    (hb : b ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v6]) :
    after hostOps1 U (Proc.devRef .tc b) = U (Proc.devRef .tc b) :=
  after_of_writes_sub hostOps1 U
    ⟨single_sub (by decide), single_sub (by decide), single_sub (by decide), single_sub (by decide), single_sub (by decide),
     single_sub (by decide), single_sub (by decide), single_sub (by decide), single_sub (by decide), single_sub (by decide),
     single_sub (by decide), single_sub (by decide), single_sub (by decide), single_sub (by decide), single_sub (by decide),
     single_sub (by decide), single_sub (by decide), single_sub (by decide), single_sub (by decide), single_sub (by decide),
     single_sub (by decide), single_sub (by decide), single_sub (by decide)⟩ hb

/-! ## The third stretch: the scatter-add of the messages and four reshaped parameter arrays -/

theorem s2_v10 : after hostOps2 U (Proc.devRef .tc main_v10)
    = Host.scatterAdd scatter_S131072x64_S1048576x1_S1048576x64_1_0_0_1
        (broadcastInDim S131072x64 ![] bcast_S_S131072x64 (constant S_ .f32 0x00000000#32))
        (broadcastInDim S1048576x1 ![0] bcast_S1048576_S1048576x1_0 (U (Proc.devRef .tc main_v1)))
        (U (Proc.devRef .tc main_v7)) := by
  simp only [hostOps2]; after_results

theorem s2_v11 : after hostOps2 U (Proc.devRef .tc main_v11) = shapeCast S1x128 (U (Proc.devRef .tc main_arg9)) shapeCasts_S128_S1x128 := by
  simp only [hostOps2]; after_results; rfl

theorem s2_v12 : after hostOps2 U (Proc.devRef .tc main_v12) = shapeCast S1x128 (U (Proc.devRef .tc main_arg17)) shapeCasts_S128_S1x128 := by
  simp only [hostOps2]; after_results; rfl

theorem s2_v13 : after hostOps2 U (Proc.devRef .tc main_v13) = shapeCast S1x2x1x128 (U (Proc.devRef .tc main_arg15)) shapeCasts_S1x2x128_S1x2x1x128 := by
  simp only [hostOps2]; after_results; rfl

theorem s2_v14 : after hostOps2 U (Proc.devRef .tc main_v14) = shapeCast S2x2x1x128 (U (Proc.devRef .tc main_arg19)) shapeCasts_S2x2x128_S2x2x1x128 := by
  simp only [hostOps2]; after_results; rfl

/-- The third stretch writes eight buffers; any other keeps its contents. -/
theorem s2_keep (b : Ref sig .tc) (hb : b ∉ [main_cst, main_v8, main_v9, main_v10, main_v11, main_v12, main_v13, main_v14]) :
    after hostOps2 U (Proc.devRef .tc b) = U (Proc.devRef .tc b) :=
  after_of_writes_sub hostOps2 U
    ⟨single_sub (by decide), single_sub (by decide), single_sub (by decide), single_sub (by decide), single_sub (by decide),
     single_sub (by decide), single_sub (by decide), single_sub (by decide)⟩ hb

end Cert.KernelIdeal.Host

end
-- ==== Proof.KernelValue.lean ====
/-
  The kernel program's result as one function of its argument arrays. The program alternates three stretches of host
  tensor operations with three grid regions, and every buffer is written at most once. Walking from the launch: the first
  stretch cuts the two index columns out of the pair array and lays a bias vector as a row; region one leaves stage 1 of
  the edge arrays; the second stretch takes rows of it at the second index column (every index being in range, the masked
  take is the gather); region two leaves stage 2; the third stretch adds its rows up by the first index column and lays
  the remaining biases as rows; region three leaves stage 3. A buffer that a stretch or a region does not write keeps its
  contents, so each argument array is still as launched wherever it is read.
-/
import proofs.«412852_j76192719831249_3_alg».proof.Proof.Gen.KernelIdeal.Frame
import proofs.«412852_j76192719831249_3_alg».proof.Proof.DenseStages
import proofs.«412852_j76192719831249_3_alg».proof.Proof.Region0
import proofs.«412852_j76192719831249_3_alg».proof.Proof.Region1
import proofs.«412852_j76192719831249_3_alg».proof.Proof.Region2
import proofs.«412852_j76192719831249_3_alg».proof.Proof.IndexRange
import proofs.«412852_j76192719831249_3_alg».proof.Proof.KernelHost

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Rowwise Cert.Dense

/-- Column 1 of the pair array: per angle, the edge whose stage-1 row it reads. -/
def idxCol1 (ids : IVec S1048576x2 32) : IVec S1048576 32 := shapeCast S1048576 (extractStridedSlice S1048576x1 ![0, 1] ids slices_S1048576x2_S1048576x1_0_1) shapeCasts_S1048576x1_S1048576
/-- Column 0 of the pair array: per angle, the edge its stage-2 row is added to. -/
def idxCol0 (ids : IVec S1048576x2 32) : IVec S1048576 32 := shapeCast S1048576 (extractStridedSlice S1048576x1 ![0, 0] ids slices_S1048576x2_S1048576x1_0_0) shapeCasts_S1048576x1_S1048576
/-- Per angle, the row of the table at its column-1 index. -/
def gth (ids : IVec S1048576x2 32) (T : Mat 131072 64) : Mat 1048576 64 := Host.gather gather_S131072x64_S1048576x1_S1048576x64_1_0_n_n_0_1_164 T (Take.col (idxCol1 ids))
/-- Per edge, the sum of the angles' rows whose column-0 index is that edge. -/
def agg (ids : IVec S1048576x2 32) (U : Mat 1048576 64) : Mat 131072 64 := Host.scatterAdd scatter_S131072x64_S1048576x1_S1048576x64_1_0_0_1 (broadcastInDim S131072x64 ![] bcast_S_S131072x64 (constant S_ .f32 0x00000000#32)) (broadcastInDim S1048576x1 ![0] bcast_S1048576_S1048576x1_0 (idxCol0 ids)) U

/-! ## Layout: an array of vectors reshaped to an array of one-row matrices -/

/-- Row `(i, j)` of an `a × b` array of vectors, after the array is reshaped to `a × b × 1 × m`. -/
theorem slabRow4_shapeCast {a b m : Nat} (B : FVec Ideal ⟨3, ![a, b, m]⟩ .f32)
    (h : (⟨3, ![a, b, m]⟩ : Shape).ShapeCasts ⟨4, ![a, b, 1, m]⟩) (i : Fin a) (j : Fin b) :
    slabRow4 (shapeCast ⟨4, ![a, b, 1, m]⟩ B h) i j = slabRow B i j := by
  funext y
  refine shapeCast_apply B h (ix4 i j 0 (y 1)) (ix3 i j (y 1)) ?_
  rw [Shape.rowMajor_val_three, Shape.rowMajor_val_four]
  show (i.val * b + j.val) * m + (y 1).val = ((i.val * b + j.val) * 1 + 0) * m + (y 1).val
  rw [Nat.mul_one, Nat.add_zero]

/-! ## Equal operands give equal stages -/

theorem stage1_congr {n : Nat} {X X' : Mat n 128} {R R' : Mat n 6} {Wkj Wkj' : Mat 128 128} {bkj bkj' : Mat 1 128}
    {Wr1 Wr1' : Mat 6 8} {Wr2 Wr2' : Mat 8 128} {Wd Wd' : Mat 128 64}
    (h0 : X = X') (h1 : R = R') (h2 : Wkj = Wkj') (h3 : bkj = bkj') (h4 : Wr1 = Wr1') (h5 : Wr2 = Wr2') (h6 : Wd = Wd') :
    stage1 X R Wkj bkj Wr1 Wr2 Wd = stage1 X' R' Wkj' bkj' Wr1' Wr2' Wd' := by
  subst h0 h1 h2 h3 h4 h5 h6; rfl

theorem stage2_congr {n : Nat} {S S' : Mat n 42} {G G' : Mat n 64} {Ws1 Ws1' : Mat 42 8} {Ws2 Ws2' : Mat 8 64}
    (h0 : S = S') (h1 : G = G') (h2 : Ws1 = Ws1') (h3 : Ws2 = Ws2') : stage2 S G Ws1 Ws2 = stage2 S' G' Ws1' Ws2' := by
  subst h0 h1 h2 h3; rfl

theorem stage3_congr {n : Nat} {X X' : Mat n 128} {Wji Wji' : Mat 128 128} {bji bji' : Mat 1 128} {T T' : Mat n 64} {Wup Wup' : Mat 64 128} {Wb0 Wb0' : Mat 128 128} {bb0 bb0' : Mat 1 128} {Wb1 Wb1' : Mat 128 128} {bb1 bb1' : Mat 1 128} {Wf Wf' : Mat 128 128} {bf bf' : Mat 1 128} {Wa00 Wa00' : Mat 128 128} {ba00 ba00' : Mat 1 128} {Wa01 Wa01' : Mat 128 128} {ba01 ba01' : Mat 1 128} {Wa10 Wa10' : Mat 128 128} {ba10 ba10' : Mat 1 128} {Wa11 Wa11' : Mat 128 128} {ba11 ba11' : Mat 1 128}
    (h0 : X = X') (h1 : Wji = Wji') (h2 : bji = bji') (h3 : T = T') (h4 : Wup = Wup') (h5 : Wb0 = Wb0') (h6 : bb0 = bb0') (h7 : Wb1 = Wb1') (h8 : bb1 = bb1') (h9 : Wf = Wf') (h10 : bf = bf') (h11 : Wa00 = Wa00') (h12 : ba00 = ba00') (h13 : Wa01 = Wa01') (h14 : ba01 = ba01') (h15 : Wa10 = Wa10') (h16 : ba10 = ba10') (h17 : Wa11 = Wa11') (h18 : ba11 = ba11') :
    stage3 X Wji bji T Wup Wb0 bb0 Wb1 bb1 Wf bf Wa00 ba00 Wa01 ba01 Wa10 ba10 Wa11 ba11 = stage3 X' Wji' bji' T' Wup' Wb0' bb0' Wb1' bb1' Wf' bf' Wa00' ba00' Wa01' ba01' Wa10' ba10' Wa11' ba11' := by
  subst h0 h1 h2 h3 h4 h5 h6 h7 h8 h9 h10 h11 h12 h13 h14 h15 h16 h17 h18; rfl

variable (m : (ℓ : Loc nD τ sig) → Buf (Elt Ideal) ℓ) (ρ : Dev nD → PrngReg) (c : Dev nD)

/-! ## After the first host stretch -/

/-- A buffer the first stretch does not write is as launched. -/
theorem w1_keep (b : Ref sig .tc) (hb : b ∉ [main_v0, main_v1, main_v2, main_v3, main_v4]) :
    W1 m ρ c (Proc.devRef .tc b) = m ((c : Thread nD τ).loc b) :=
  Host.s0_keep (W0 m ρ c) b hb

theorem w1_v1 : W1 m ρ c (Proc.devRef .tc main_v1) = idxCol0 (m ((c : Thread nD τ).loc main_arg3)) := Host.s0_v1 (W0 m ρ c)
theorem w1_v3 : W1 m ρ c (Proc.devRef .tc main_v3) = idxCol1 (m ((c : Thread nD τ).loc main_arg3)) := Host.s0_v3 (W0 m ρ c)
theorem w1_v4 : W1 m ρ c (Proc.devRef .tc main_v4) = asRow (m ((c : Thread nD τ).loc main_arg11)) :=
  (Host.s0_v4 (W0 m ρ c)).trans (shapeCast_asRow _ _)

/-! ## After region one -/

/-- A buffer that neither the first stretch nor region one touches is as launched. -/
theorem w2_keep (b : Ref sig .tc) (h0 : b ∉ [main_v0, main_v1, main_v2, main_v3, main_v4]) (hr0 : ∀ w, Pipeline.arrRef spec0 w ≠ b) :
    W2 m ρ c (Proc.devRef .tc b) = m ((c : Thread nD τ).loc b) :=
  (W2_of_ne m ρ c b hr0).trans (w1_keep m ρ c b h0)

/-- Region one reads the edge embedding and leaves it as it was. -/
theorem w2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (w1_keep m ρ c main_arg0 (by decide))

theorem w2_v1 : W2 m ρ c (Proc.devRef .tc main_v1) = idxCol0 (m ((c : Thread nD τ).loc main_arg3)) :=
  (W2_of_ne m ρ c main_v1 (by decide)).trans (w1_v1 m ρ c)
theorem w2_v3 : W2 m ρ c (Proc.devRef .tc main_v3) = idxCol1 (m ((c : Thread nD τ).loc main_arg3)) :=
  (W2_of_ne m ρ c main_v3 (by decide)).trans (w1_v3 m ρ c)

/-- Region one's output: stage 1 of the launched edge arrays. -/
theorem w2_v5 : W2 m ρ c (Proc.devRef .tc main_v5)
    = stage1 (n := 131072) (m ((c : Thread nD τ).loc main_arg0)) (m ((c : Thread nD τ).loc main_arg1)) (m ((c : Thread nD τ).loc main_arg10))
        (asRow (m ((c : Thread nD τ).loc main_arg11))) (m ((c : Thread nD τ).loc main_arg4)) (m ((c : Thread nD τ).loc main_arg5))
        (m ((c : Thread nD τ).loc main_arg12)) :=
  (W2_arr m ρ c 7).trans ((Region0.value (V1 m ρ) c).trans (stage1_congr
    (w1_keep m ρ c main_arg0 (by decide)) (w1_keep m ρ c main_arg1 (by decide)) (w1_keep m ρ c main_arg10 (by decide))
    (w1_v4 m ρ c) (w1_keep m ρ c main_arg4 (by decide)) (w1_keep m ρ c main_arg5 (by decide)) (w1_keep m ρ c main_arg12 (by decide))))

/-! ## After the second host stretch -/

/-- A buffer that nothing up to the second stretch touches is as launched. -/
theorem w3_keep (b : Ref sig .tc) (h0 : b ∉ [main_v0, main_v1, main_v2, main_v3, main_v4]) (hr0 : ∀ w, Pipeline.arrRef spec0 w ≠ b)
    (h1 : b ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v6]) :
    W3 m ρ c (Proc.devRef .tc b) = m ((c : Thread nD τ).loc b) :=
  (Host.s1_keep (W2 m ρ c) b h1).trans (w2_keep m ρ c b h0 hr0)

theorem w3_arg0 : W3 m ρ c (Proc.devRef .tc main_arg0) = m ((c : Thread nD τ).loc main_arg0) :=
  (Host.s1_keep (W2 m ρ c) main_arg0 (by decide)).trans (w2_arg0 m ρ c)

theorem w3_v1 : W3 m ρ c (Proc.devRef .tc main_v1) = idxCol0 (m ((c : Thread nD τ).loc main_arg3)) :=
  (Host.s1_keep (W2 m ρ c) main_v1 (by decide)).trans (w2_v1 m ρ c)

/-- The masked take of rows of a table at a vector of indices, as the second stretch computes it. -/
def take (j : IVec S1048576 32) (tbl : Mat 131072 64) : Mat 1048576 64 :=
  select (broadcastInDim S1048576x64 ![0] bcast_S1048576_S1048576x64_0 (Take.inRange j))
    (Host.gather gather_S131072x64_S1048576x1_S1048576x64_1_0_n_n_0_1_164 tbl (Take.col j))
    (broadcastInDim S1048576x64 ![] bcast_S_S1048576x64 (constant S_ .f32 0x7FC00000#32))

/-- With every column-1 index in range, the take at column 1 is the gather. -/
theorem take_idxCol1 (ids : IVec S1048576x2 32) (tbl : Mat 131072 64)
    (hidx : ∀ p : Fin 1048576, (0 : Int) ≤ (ids (ix2 p 1)).toInt ∧ (ids (ix2 p 1)).toInt < 131072) :
    take (idxCol1 ids) tbl = gth ids tbl :=
  Take.take_eq_gather tbl (idxCol1 ids) fun p => by
    have e : idxCol1 ids (ix1 p) = ids (ix2 p 1) := Take.col_of_slice ids p
    rw [e]
    exact hidx p

/-- The second stretch's output: per angle, the stage-1 row of its column-1 edge. -/
theorem w3_v6 (hidx : ∀ p : Fin 1048576, (0 : Int) ≤ ((m ((c : Thread nD τ).loc main_arg3)) (ix2 p 1)).toInt ∧ ((m ((c : Thread nD τ).loc main_arg3)) (ix2 p 1)).toInt < 131072) :
    W3 m ρ c (Proc.devRef .tc main_v6) = (gth (m ((c : Thread nD τ).loc main_arg3)) (stage1 (n := 131072) (m ((c : Thread nD τ).loc main_arg0)) (m ((c : Thread nD τ).loc main_arg1)) (m ((c : Thread nD τ).loc main_arg10))
        (asRow (m ((c : Thread nD τ).loc main_arg11))) (m ((c : Thread nD τ).loc main_arg4)) (m ((c : Thread nD τ).loc main_arg5)) (m ((c : Thread nD τ).loc main_arg12)))) :=
  (Host.s1_v6 (W2 m ρ c)).trans
    ((congrArg₂ take (w2_v3 m ρ c) (w2_v5 m ρ c)).trans (take_idxCol1 _ _ hidx))

/-! ## After region two -/

/-- A buffer that nothing up to region two touches is as launched. -/
theorem w4_keep (b : Ref sig .tc) (h0 : b ∉ [main_v0, main_v1, main_v2, main_v3, main_v4]) (hr0 : ∀ w, Pipeline.arrRef spec0 w ≠ b)
    (h1 : b ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v6])
    (hr1 : ∀ w, Pipeline.arrRef spec1 w ≠ b) :
    W4 m ρ c (Proc.devRef .tc b) = m ((c : Thread nD τ).loc b) :=
  (W4_of_ne m ρ c b hr1).trans (w3_keep m ρ c b h0 hr0 h1)

theorem w4_arg0 : W4 m ρ c (Proc.devRef .tc main_arg0) = m ((c : Thread nD τ).loc main_arg0) :=
  (W4_of_ne m ρ c main_arg0 (by decide)).trans (w3_arg0 m ρ c)

theorem w4_v1 : W4 m ρ c (Proc.devRef .tc main_v1) = idxCol0 (m ((c : Thread nD τ).loc main_arg3)) :=
  (W4_of_ne m ρ c main_v1 (by decide)).trans (w3_v1 m ρ c)

/-- Region two's output: stage 2 of the launched angle arrays and the gathered stage-1 rows. -/
theorem w4_v7 (hidx : ∀ p : Fin 1048576, (0 : Int) ≤ ((m ((c : Thread nD τ).loc main_arg3)) (ix2 p 1)).toInt ∧ ((m ((c : Thread nD τ).loc main_arg3)) (ix2 p 1)).toInt < 131072) :
    W4 m ρ c (Proc.devRef .tc main_v7) = (stage2 (n := 1048576) (m ((c : Thread nD τ).loc main_arg2)) (gth (m ((c : Thread nD τ).loc main_arg3)) (stage1 (n := 131072) (m ((c : Thread nD τ).loc main_arg0)) (m ((c : Thread nD τ).loc main_arg1)) (m ((c : Thread nD τ).loc main_arg10))
        (asRow (m ((c : Thread nD τ).loc main_arg11))) (m ((c : Thread nD τ).loc main_arg4)) (m ((c : Thread nD τ).loc main_arg5)) (m ((c : Thread nD τ).loc main_arg12)))) (m ((c : Thread nD τ).loc main_arg6)) (m ((c : Thread nD τ).loc main_arg7))) :=
  (W4_arr m ρ c 4).trans ((Region1.value (V3 m ρ) c).trans (stage2_congr
    (w3_keep m ρ c main_arg2 (by decide) (by decide) (by decide)) (w3_v6 m ρ c hidx)
    (w3_keep m ρ c main_arg6 (by decide) (by decide) (by decide)) (w3_keep m ρ c main_arg7 (by decide) (by decide) (by decide))))

/-! ## After the third host stretch -/

/-- A buffer that nothing up to the third stretch touches is as launched. -/
theorem w5_keep (b : Ref sig .tc) (h0 : b ∉ [main_v0, main_v1, main_v2, main_v3, main_v4]) (hr0 : ∀ w, Pipeline.arrRef spec0 w ≠ b)
    (h1 : b ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v6])
    (hr1 : ∀ w, Pipeline.arrRef spec1 w ≠ b) (h2 : b ∉ [main_cst, main_v8, main_v9, main_v10, main_v11, main_v12, main_v13, main_v14]) :
    W5 m ρ c (Proc.devRef .tc b) = m ((c : Thread nD τ).loc b) :=
  (Host.s2_keep (W4 m ρ c) b h2).trans (w4_keep m ρ c b h0 hr0 h1 hr1)

theorem w5_arg0 : W5 m ρ c (Proc.devRef .tc main_arg0) = m ((c : Thread nD τ).loc main_arg0) :=
  (Host.s2_keep (W4 m ρ c) main_arg0 (by decide)).trans (w4_arg0 m ρ c)

/-- Rows added up into a zero table by a vector of row indices, as the third stretch computes it. -/
def addUp (j : IVec S1048576 32) (u : Mat 1048576 64) : Mat 131072 64 :=
  Host.scatterAdd scatter_S131072x64_S1048576x1_S1048576x64_1_0_0_1
    (broadcastInDim S131072x64 ![] bcast_S_S131072x64 (constant S_ .f32 0x00000000#32))
    (broadcastInDim S1048576x1 ![0] bcast_S1048576_S1048576x1_0 j) u

/-- The third stretch's table: per edge, the sum of the stage-2 rows of the angles whose column-0 index it is. -/
theorem w5_v10 (hidx : ∀ p : Fin 1048576, (0 : Int) ≤ ((m ((c : Thread nD τ).loc main_arg3)) (ix2 p 1)).toInt ∧ ((m ((c : Thread nD τ).loc main_arg3)) (ix2 p 1)).toInt < 131072) :
    W5 m ρ c (Proc.devRef .tc main_v10) = (agg (m ((c : Thread nD τ).loc main_arg3)) (stage2 (n := 1048576) (m ((c : Thread nD τ).loc main_arg2)) (gth (m ((c : Thread nD τ).loc main_arg3)) (stage1 (n := 131072) (m ((c : Thread nD τ).loc main_arg0)) (m ((c : Thread nD τ).loc main_arg1)) (m ((c : Thread nD τ).loc main_arg10))
        (asRow (m ((c : Thread nD τ).loc main_arg11))) (m ((c : Thread nD τ).loc main_arg4)) (m ((c : Thread nD τ).loc main_arg5)) (m ((c : Thread nD τ).loc main_arg12)))) (m ((c : Thread nD τ).loc main_arg6)) (m ((c : Thread nD τ).loc main_arg7)))) :=
  (Host.s2_v10 (W4 m ρ c)).trans (congrArg₂ addUp (w4_v1 m ρ c) (w4_v7 m ρ c hidx))

theorem w5_v11 : W5 m ρ c (Proc.devRef .tc main_v11) = asRow (m ((c : Thread nD τ).loc main_arg9)) :=
  (Host.s2_v11 (W4 m ρ c)).trans ((shapeCast_asRow _ _).trans
    (congrArg asRow (w4_keep m ρ c main_arg9 (by decide) (by decide) (by decide) (by decide))))

theorem w5_v12 : W5 m ρ c (Proc.devRef .tc main_v12) = asRow (m ((c : Thread nD τ).loc main_arg17)) :=
  (Host.s2_v12 (W4 m ρ c)).trans ((shapeCast_asRow _ _).trans
    (congrArg asRow (w4_keep m ρ c main_arg17 (by decide) (by decide) (by decide) (by decide))))

theorem w5_v13 : W5 m ρ c (Proc.devRef .tc main_v13)
    = shapeCast S1x2x1x128 (m ((c : Thread nD τ).loc main_arg15)) shapeCasts_S1x2x128_S1x2x1x128 :=
  (Host.s2_v13 (W4 m ρ c)).trans (congrArg (fun B : FVec Ideal S1x2x128 .f32 => shapeCast S1x2x1x128 B shapeCasts_S1x2x128_S1x2x1x128)
    (w4_keep m ρ c main_arg15 (by decide) (by decide) (by decide) (by decide)))

theorem w5_v14 : W5 m ρ c (Proc.devRef .tc main_v14)
    = shapeCast S2x2x1x128 (m ((c : Thread nD τ).loc main_arg19)) shapeCasts_S2x2x128_S2x2x1x128 :=
  (Host.s2_v14 (W4 m ρ c)).trans (congrArg (fun B : FVec Ideal S2x2x128 .f32 => shapeCast S2x2x1x128 B shapeCasts_S2x2x128_S2x2x1x128)
    (w4_keep m ρ c main_arg19 (by decide) (by decide) (by decide) (by decide)))

/-- Row `(i, j)` of the residual blocks' bias arrays as the third stretch lays them out. -/
theorem w5_v13_row (i : Fin 1) (j : Fin 2) : slabRow4 (W5 m ρ c (Proc.devRef .tc main_v13)) i j = slabRow (m ((c : Thread nD τ).loc main_arg15)) i j :=
  (congrArg (fun B => slabRow4 B i j) (w5_v13 m ρ c)).trans (slabRow4_shapeCast _ _ i j)

theorem w5_v14_row (i : Fin 2) (j : Fin 2) : slabRow4 (W5 m ρ c (Proc.devRef .tc main_v14)) i j = slabRow (m ((c : Thread nD τ).loc main_arg19)) i j :=
  (congrArg (fun B => slabRow4 B i j) (w5_v14 m ρ c)).trans (slabRow4_shapeCast _ _ i j)

/-! ## After region three -/

/-- The result buffer: the whole block of the launched argument arrays. -/
theorem value (hidx : ∀ p : Fin 1048576, (0 : Int) ≤ ((m ((c : Thread nD τ).loc main_arg3)) (ValueIdx.ix2 p 1)).toInt ∧ ((m ((c : Thread nD τ).loc main_arg3)) (ValueIdx.ix2 p 1)).toInt < 131072) :
    W6 m ρ c (Proc.devRef .tc main_v15) = Cert.Dense.block (gth (m ((c : Thread nD τ).loc main_arg3))) (agg (m ((c : Thread nD τ).loc main_arg3)))
      (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (W6_arr m ρ c 11).trans ((Region2.value (V5 m ρ) c).trans (stage3_congr
    (w5_arg0 m ρ c) (w5_keep m ρ c main_arg8 (by decide) (by decide) (by decide) (by decide) (by decide)) (w5_v11 m ρ c) (w5_v10 m ρ c hidx) (w5_keep m ρ c main_arg13 (by decide) (by decide) (by decide) (by decide) (by decide))
    (congrArg (fun W => slab W 0 0) (w5_keep m ρ c main_arg14 (by decide) (by decide) (by decide) (by decide) (by decide))) (w5_v13_row m ρ c 0 0)
    (congrArg (fun W => slab W 0 1) (w5_keep m ρ c main_arg14 (by decide) (by decide) (by decide) (by decide) (by decide))) (w5_v13_row m ρ c 0 1)
    (w5_keep m ρ c main_arg16 (by decide) (by decide) (by decide) (by decide) (by decide)) (w5_v12 m ρ c)
    (congrArg (fun W => slab W 0 0) (w5_keep m ρ c main_arg18 (by decide) (by decide) (by decide) (by decide) (by decide))) (w5_v14_row m ρ c 0 0)
    (congrArg (fun W => slab W 0 1) (w5_keep m ρ c main_arg18 (by decide) (by decide) (by decide) (by decide) (by decide))) (w5_v14_row m ρ c 0 1)
    (congrArg (fun W => slab W 1 0) (w5_keep m ρ c main_arg18 (by decide) (by decide) (by decide) (by decide) (by decide))) (w5_v14_row m ρ c 1 0)
    (congrArg (fun W => slab W 1 1) (w5_keep m ρ c main_arg18 (by decide) (by decide) (by decide) (by decide) (by decide))) (w5_v14_row m ρ c 1 1)))

end Cert.KernelIdeal.KValue

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefSsa.lean ====
/- The reference program's 189 host operations in single-assignment form: the buffer each writes (`W`), that each writes
   only that buffer (`hW`), and per operation `e<k>`: the written buffer's final contents are the operation's function of
   its operands' final contents (each buffer is written once, after every read of it). -/
import proofs.«412852_j76192719831249_3_alg».proof.Proof.RefRun
import proofs.«412852_j76192719831249_3_alg».proof.Proof.LibSsa

set_option maxRecDepth 16384

noncomputable section

namespace Cert.ReferenceIdeal.RefSsa

open Cert.ReferenceIdeal Cert.ReferenceIdeal.Gen Cert.ReferenceIdeal.RefRun Idealize.ShloMosaic Idealize.ShloMosaic.TcCoe Idealize.ShloMosaic.StableHlo Idealize.ShloMosaic.StableHlo.Ssa

variable {F : FTy → Type} [FloatOps F]

/-- The buffer each operation writes, in program order. -/
def W : List (Ref sig .tc) :=
  [main_v0, main_v1, main_v2, main_v3, main_call0_v0, main_call0_v1, main_call0_cst, main_call0_v2,
   main_call0_v3, main_call0_cst_0, main_call0_v4, main_call0_v5, main_v4, main_v5, main_v6, main_v7,
   main_v8, main_call1_v0, main_call1_v1, main_call1_cst, main_call1_v2, main_call1_v3, main_call1_cst_0, main_call1_v4,
   main_call1_v5, main_v9, main_v10, main_v11, main_v12, main_v13, main_call2_v0, main_call2_v1,
   main_call2_cst, main_call2_v2, main_call2_v3, main_call2_cst_0, main_call2_v4, main_call2_v5, main_v14, main_v15,
   main_v16, main_c, main_v17, main_v18, main_c_0, main_v19, main_v20, main_v21,
   main_v22, main_v23, main_v24, main_v25, main_v26, main_v27, main_v28, main_cst,
   main_v29, main_v30, main_v31, main_v32, main_call3_v0, main_call3_v1, main_call3_cst, main_call3_v2,
   main_call3_v3, main_call3_cst_0, main_call3_v4, main_call3_v5, main_v33, main_v34, main_v35, main_v36,
   main_v37, main_v38, main_v39, main_v40, main_v41, main_v42, main_call4_v0, main_call4_v1,
   main_call4_cst, main_call4_v2, main_call4_v3, main_call4_cst_0, main_call4_v4, main_call4_v5, main_v43, main_v44,
   main_v45, main_v46, main_v47, main_v48, main_v49, main_v50, main_v51, main_call5_v0,
   main_call5_v1, main_call5_cst, main_call5_v2, main_call5_v3, main_call5_cst_0, main_call5_v4, main_call5_v5, main_v52,
   main_v53, main_v54, main_v55, main_v56, main_v57, main_call6_v0, main_call6_v1, main_call6_cst,
   main_call6_v2, main_call6_v3, main_call6_cst_0, main_call6_v4, main_call6_v5, main_v58, main_v59, main_v60,
   main_v61, main_v62, main_v63, main_v64, main_v65, main_v66, main_v67, main_call7_v0,
   main_call7_v1, main_call7_cst, main_call7_v2, main_call7_v3, main_call7_cst_0, main_call7_v4, main_call7_v5, main_v68,
   main_v69, main_v70, main_v71, main_v72, main_v73, main_v74, main_v75, main_v76,
   main_call8_v0, main_call8_v1, main_call8_cst, main_call8_v2, main_call8_v3, main_call8_cst_0, main_call8_v4, main_call8_v5,
   main_v77, main_v78, main_v79, main_v80, main_v81, main_v82, main_v83, main_v84,
   main_v85, main_v86, main_call9_v0, main_call9_v1, main_call9_cst, main_call9_v2, main_call9_v3, main_call9_cst_0,
   main_call9_v4, main_call9_v5, main_v87, main_v88, main_v89, main_v90, main_v91, main_v92,
   main_v93, main_v94, main_v95, main_call10_v0, main_call10_v1, main_call10_cst, main_call10_v2, main_call10_v3,
   main_call10_cst_0, main_call10_v4, main_call10_v5, main_v96, main_v97]

/-- Each operation writes exactly its buffer. -/
theorem hW : WritesOnly (ops : List (HloOp τ sig (Elt F))) W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (V : Valuation τ sig (Elt F))

/-- Operation 0 writes `main_v0`. -/
theorem e0 : after ops V (Proc.devRef .tc main_v0) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_arg0)) (after ops V (Proc.devRef .tc main_arg8)) :=
  ssa_binary ops W hW V 0 main_arg0 main_arg8 main_v0 _ _ _ _ rfl (by decide +kernel) (by decide +kernel) (by decide +kernel)

/-- Operation 1 writes `main_v1`. -/
theorem e1 : after ops V (Proc.devRef .tc main_v1) = (broadcastInDim S1x128 ![1] bcast_S128_S1x128_1 : (⟨S128, .f32⟩ : BufTy).Contents (Elt F) → (⟨S1x128, .f32⟩ : BufTy).Contents (Elt F)) (after ops V (Proc.devRef .tc main_arg9)) :=
  ssa_unary ops W hW V 1 main_arg9 main_v1 _ _ _ rfl (by decide +kernel) (by decide +kernel)

/-- Operation 2 writes `main_v2`. -/
theorem e2 : after ops V (Proc.devRef .tc main_v2) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v1)) :=
  ssa_unary ops W hW V 2 main_v1 main_v2 _ _ _ rfl (by decide +kernel) (by decide +kernel)

/-- Operation 3 writes `main_v3`. -/
theorem e3 : after ops V (Proc.devRef .tc main_v3) = (addf : (⟨S131072x128, .f32⟩ : BufTy).Contents (Elt F) → (⟨S131072x128, .f32⟩ : BufTy).Contents (Elt F) → (⟨S131072x128, .f32⟩ : BufTy).Contents (Elt F)) (after ops V (Proc.devRef .tc main_v0)) (after ops V (Proc.devRef .tc main_v2)) :=
  ssa_binary ops W hW V 3 main_v0 main_v2 main_v3 _ _ _ _ rfl (by decide +kernel) (by decide +kernel) (by decide +kernel)

/-- Operation 4 writes `main_call0_v0`. -/
theorem e4 : (after ops V (Proc.devRef .tc main_call0_v0) : (⟨S131072x128, .f32⟩ : BufTy).Contents (Elt F)) = (Host.negf) (after ops V (Proc.devRef .tc main_v3) : (⟨S131072x128, .f32⟩ : BufTy).Contents (Elt F)) :=
  ssa_unary ops W hW V 4 main_v3 main_call0_v0 _ _ _ rfl (by decide +kernel) (by decide +kernel)

/-- Operation 5 writes `main_call0_v1`. -/
theorem e5 : (after ops V (Proc.devRef .tc main_call0_v1) : (⟨S131072x128, .f32⟩ : BufTy).Contents (Elt F)) = (Host.exp) (after ops V (Proc.devRef .tc main_call0_v0) : (⟨S131072x128, .f32⟩ : BufTy).Contents (Elt F)) :=
  ssa_unary ops W hW V 5 main_call0_v0 main_call0_v1 _ _ _ rfl (by decide +kernel) (by decide +kernel)

/-- Operation 6 writes `main_call0_cst`. -/
theorem e6 : (after ops V (Proc.devRef .tc main_call0_cst) : (⟨S_, .f32⟩ : BufTy).Contents (Elt F)) = (constant S_ .f32 0x3F800000#32) :=
  ssa_nullary ops W hW V 6 main_call0_cst _ _ rfl (by decide +kernel)

/-- Operation 7 writes `main_call0_v2`. -/
theorem e7 : (after ops V (Proc.devRef .tc main_call0_v2) : (⟨S131072x128, .f32⟩ : BufTy).Contents (Elt F)) = ((broadcastInDim S131072x128 ![] bcast_S_S131072x128)) (after ops V (Proc.devRef .tc main_call0_cst) : (⟨S_, .f32⟩ : BufTy).Contents (Elt F)) :=
  ssa_unary ops W hW V 7 main_call0_cst main_call0_v2 _ _ _ rfl (by decide +kernel) (by decide +kernel)

/-- Operation 8 writes `main_call0_v3`. -/
theorem e8 : (after ops V (Proc.devRef .tc main_call0_v3) : (⟨S131072x128, .f32⟩ : BufTy).Contents (Elt F)) = (addf) (after ops V (Proc.devRef .tc main_call0_v2) : (⟨S131072x128, .f32⟩ : BufTy).Contents (Elt F)) (after ops V (Proc.devRef .tc main_call0_v1) : (⟨S131072x128, .f32⟩ : BufTy).Contents (Elt F)) :=
  ssa_binary ops W hW V 8 main_call0_v2 main_call0_v1 main_call0_v3 _ _ _ _ rfl (by decide +kernel) (by decide +kernel) (by decide +kernel)

/-- Operation 9 writes `main_call0_cst_0`. -/
theorem e9 : (after ops V (Proc.devRef .tc main_call0_cst_0) : (⟨S_, .f32⟩ : BufTy).Contents (Elt F)) = (constant S_ .f32 0x3F800000#32) :=
  ssa_nullary ops W hW V 9 main_call0_cst_0 _ _ rfl (by decide +kernel)

/-- Operation 10 writes `main_call0_v4`. -/
theorem e10 : (after ops V (Proc.devRef .tc main_call0_v4) : (⟨S131072x128, .f32⟩ : BufTy).Contents (Elt F)) = ((broadcastInDim S131072x128 ![] bcast_S_S131072x128)) (after ops V (Proc.devRef .tc main_call0_cst_0) : (⟨S_, .f32⟩ : BufTy).Contents (Elt F)) :=
  ssa_unary ops W hW V 10 main_call0_cst_0 main_call0_v4 _ _ _ rfl (by decide +kernel) (by decide +kernel)

/-- Operation 11 writes `main_call0_v5`. -/
theorem e11 : (after ops V (Proc.devRef .tc main_call0_v5) : (⟨S131072x128, .f32⟩ : BufTy).Contents (Elt F)) = (Host.divf) (after ops V (Proc.devRef .tc main_call0_v4) : (⟨S131072x128, .f32⟩ : BufTy).Contents (Elt F)) (after ops V (Proc.devRef .tc main_call0_v3) : (⟨S131072x128, .f32⟩ : BufTy).Contents (Elt F)) :=
  ssa_binary ops W hW V 11 main_call0_v4 main_call0_v3 main_call0_v5 _ _ _ _ rfl (by decide +kernel) (by decide +kernel) (by decide +kernel)

/-- Operation 12 writes `main_v4`. -/
theorem e12 : (after ops V (Proc.devRef .tc main_v4) : (⟨S131072x128, .f32⟩ : BufTy).Contents (Elt F)) = (mulf) (after ops V (Proc.devRef .tc main_v3) : (⟨S131072x128, .f32⟩ : BufTy).Contents (Elt F)) (after ops V (Proc.devRef .tc main_call0_v5) : (⟨S131072x128, .f32⟩ : BufTy).Contents (Elt F)) :=
  ssa_binary ops W hW V 12 main_v3 main_call0_v5 main_v4 _ _ _ _ rfl (by decide +kernel) (by decide +kernel) (by decide +kernel)

/-- Operation 13 writes `main_v5`. -/
theorem e13 : after ops V (Proc.devRef .tc main_v5) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_arg0)) (after ops V (Proc.devRef .tc main_arg10)) :=
  ssa_binary ops W hW V 13 main_arg0 main_arg10 main_v5 _ _ _ _ rfl (by decide +kernel) (by decide +kernel) (by decide +kernel)

/-- Operation 14 writes `main_v6`. -/
theorem e14 : after ops V (Proc.devRef .tc main_v6) = (broadcastInDim S1x128 ![1] bcast_S128_S1x128_1 : (⟨S128, .f32⟩ : BufTy).Contents (Elt F) → (⟨S1x128, .f32⟩ : BufTy).Contents (Elt F)) (after ops V (Proc.devRef .tc main_arg11)) :=
  ssa_unary ops W hW V 14 main_arg11 main_v6 _ _ _ rfl (by decide +kernel) (by decide +kernel)

/-- Operation 15 writes `main_v7`. -/
theorem e15 : after ops V (Proc.devRef .tc main_v7) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v6)) :=
  ssa_unary ops W hW V 15 main_v6 main_v7 _ _ _ rfl (by decide +kernel) (by decide +kernel)

/-- Operation 16 writes `main_v8`. -/
theorem e16 : after ops V (Proc.devRef .tc main_v8) = (addf : (⟨S131072x128, .f32⟩ : BufTy).Contents (Elt F) → (⟨S131072x128, .f32⟩ : BufTy).Contents (Elt F) → (⟨S131072x128, .f32⟩ : BufTy).Contents (Elt F)) (after ops V (Proc.devRef .tc main_v5)) (after ops V (Proc.devRef .tc main_v7)) :=
  ssa_binary ops W hW V 16 main_v5 main_v7 main_v8 _ _ _ _ rfl (by decide +kernel) (by decide +kernel) (by decide +kernel)

/-- Operation 17 writes `main_call1_v0`. -/
theorem e17 : (after ops V (Proc.devRef .tc main_call1_v0) : (⟨S131072x128, .f32⟩ : BufTy).Contents (Elt F)) = (Host.negf) (after ops V (Proc.devRef .tc main_v8) : (⟨S131072x128, .f32⟩ : BufTy).Contents (Elt F)) :=
  ssa_unary ops W hW V 17 main_v8 main_call1_v0 _ _ _ rfl (by decide +kernel) (by decide +kernel)

/-- Operation 18 writes `main_call1_v1`. -/
theorem e18 : (after ops V (Proc.devRef .tc main_call1_v1) : (⟨S131072x128, .f32⟩ : BufTy).Contents (Elt F)) = (Host.exp) (after ops V (Proc.devRef .tc main_call1_v0) : (⟨S131072x128, .f32⟩ : BufTy).Contents (Elt F)) :=
  ssa_unary ops W hW V 18 main_call1_v0 main_call1_v1 _ _ _ rfl (by decide +kernel) (by decide +kernel)

/-- Operation 19 writes `main_call1_cst`. -/
theorem e19 : (after ops V (Proc.devRef .tc main_call1_cst) : (⟨S_, .f32⟩ : BufTy).Contents (Elt F)) = (constant S_ .f32 0x3F800000#32) :=
  ssa_nullary ops W hW V 19 main_call1_cst _ _ rfl (by decide +kernel)

/-- Operation 20 writes `main_call1_v2`. -/
theorem e20 : (after ops V (Proc.devRef .tc main_call1_v2) : (⟨S131072x128, .f32⟩ : BufTy).Contents (Elt F)) = ((broadcastInDim S131072x128 ![] bcast_S_S131072x128)) (after ops V (Proc.devRef .tc main_call1_cst) : (⟨S_, .f32⟩ : BufTy).Contents (Elt F)) :=
  ssa_unary ops W hW V 20 main_call1_cst main_call1_v2 _ _ _ rfl (by decide +kernel) (by decide +kernel)

/-- Operation 21 writes `main_call1_v3`. -/
theorem e21 : (after ops V (Proc.devRef .tc main_call1_v3) : (⟨S131072x128, .f32⟩ : BufTy).Contents (Elt F)) = (addf) (after ops V (Proc.devRef .tc main_call1_v2) : (⟨S131072x128, .f32⟩ : BufTy).Contents (Elt F)) (after ops V (Proc.devRef .tc main_call1_v1) : (⟨S131072x128, .f32⟩ : BufTy).Contents (Elt F)) :=
  ssa_binary ops W hW V 21 main_call1_v2 main_call1_v1 main_call1_v3 _ _ _ _ rfl (by decide +kernel) (by decide +kernel) (by decide +kernel)

/-- Operation 22 writes `main_call1_cst_0`. -/
theorem e22 : (after ops V (Proc.devRef .tc main_call1_cst_0) : (⟨S_, .f32⟩ : BufTy).Contents (Elt F)) = (constant S_ .f32 0x3F800000#32) :=
  ssa_nullary ops W hW V 22 main_call1_cst_0 _ _ rfl (by decide +kernel)

/-- Operation 23 writes `main_call1_v4`. -/
theorem e23 : (after ops V (Proc.devRef .tc main_call1_v4) : (⟨S131072x128, .f32⟩ : BufTy).Contents (Elt F)) = ((broadcastInDim S131072x128 ![] bcast_S_S131072x128)) (after ops V (Proc.devRef .tc main_call1_cst_0) : (⟨S_, .f32⟩ : BufTy).Contents (Elt F)) :=
  ssa_unary ops W hW V 23 main_call1_cst_0 main_call1_v4 _ _ _ rfl (by decide +kernel) (by decide +kernel)

/-- Operation 24 writes `main_call1_v5`. -/
theorem e24 : (after ops V (Proc.devRef .tc main_call1_v5) : (⟨S131072x128, .f32⟩ : BufTy).Contents (Elt F)) = (Host.divf) (after ops V (Proc.devRef .tc main_call1_v4) : (⟨S131072x128, .f32⟩ : BufTy).Contents (Elt F)) (after ops V (Proc.devRef .tc main_call1_v3) : (⟨S131072x128, .f32⟩ : BufTy).Contents (Elt F)) :=
  ssa_binary ops W hW V 24 main_call1_v4 main_call1_v3 main_call1_v5 _ _ _ _ rfl (by decide +kernel) (by decide +kernel) (by decide +kernel)

/-- Operation 25 writes `main_v9`. -/
theorem e25 : (after ops V (Proc.devRef .tc main_v9) : (⟨S131072x128, .f32⟩ : BufTy).Contents (Elt F)) = (mulf) (after ops V (Proc.devRef .tc main_v8) : (⟨S131072x128, .f32⟩ : BufTy).Contents (Elt F)) (after ops V (Proc.devRef .tc main_call1_v5) : (⟨S131072x128, .f32⟩ : BufTy).Contents (Elt F)) :=
  ssa_binary ops W hW V 25 main_v8 main_call1_v5 main_v9 _ _ _ _ rfl (by decide +kernel) (by decide +kernel) (by decide +kernel)

/-- Operation 26 writes `main_v10`. -/
theorem e26 : after ops V (Proc.devRef .tc main_v10) = ((fun l r => Host.dotGeneral dot_S131072x6_S6x8_S131072x8_1_0_0_1_n_n none l r) : (⟨S131072x6, .f32⟩ : BufTy).Contents (Elt F) → (⟨S6x8, .f32⟩ : BufTy).Contents (Elt F) → (⟨S131072x8, .f32⟩ : BufTy).Contents (Elt F)) (after ops V (Proc.devRef .tc main_arg1)) (after ops V (Proc.devRef .tc main_arg4)) :=
  ssa_binary ops W hW V 26 main_arg1 main_arg4 main_v10 _ _ _ _ rfl (by decide +kernel) (by decide +kernel) (by decide +kernel)

/-- Operation 27 writes `main_v11`. -/
theorem e27 : after ops V (Proc.devRef .tc main_v11) = ((fun l r => Host.dotGeneral dot_S131072x8_S8x128_S131072x128_1_0_0_1_n_n none l r) : (⟨S131072x8, .f32⟩ : BufTy).Contents (Elt F) → (⟨S8x128, .f32⟩ : BufTy).Contents (Elt F) → (⟨S131072x128, .f32⟩ : BufTy).Contents (Elt F)) (after ops V (Proc.devRef .tc main_v10)) (after ops V (Proc.devRef .tc main_arg5)) :=
  ssa_binary ops W hW V 27 main_v10 main_arg5 main_v11 _ _ _ _ rfl (by decide +kernel) (by decide +kernel) (by decide +kernel)

/-- Operation 28 writes `main_v12`. -/
theorem e28 : after ops V (Proc.devRef .tc main_v12) = (mulf : (⟨S131072x128, .f32⟩ : BufTy).Contents (Elt F) → (⟨S131072x128, .f32⟩ : BufTy).Contents (Elt F) → (⟨S131072x128, .f32⟩ : BufTy).Contents (Elt F)) (after ops V (Proc.devRef .tc main_v9)) (after ops V (Proc.devRef .tc main_v11)) :=
  ssa_binary ops W hW V 28 main_v9 main_v11 main_v12 _ _ _ _ rfl (by decide +kernel) (by decide +kernel) (by decide +kernel)

/-- Operation 29 writes `main_v13`. -/
theorem e29 : after ops V (Proc.devRef .tc main_v13) = ((fun l r => Host.dotGeneral dot_S131072x128_S128x64_S131072x64_1_0_0_1_n_n none l r) : (⟨S131072x128, .f32⟩ : BufTy).Contents (Elt F) → (⟨S128x64, .f32⟩ : BufTy).Contents (Elt F) → (⟨S131072x64, .f32⟩ : BufTy).Contents (Elt F)) (after ops V (Proc.devRef .tc main_v12)) (after ops V (Proc.devRef .tc main_arg12)) :=
  ssa_binary ops W hW V 29 main_v12 main_arg12 main_v13 _ _ _ _ rfl (by decide +kernel) (by decide +kernel) (by decide +kernel)

/-- Operation 30 writes `main_call2_v0`. -/
theorem e30 : (after ops V (Proc.devRef .tc main_call2_v0) : (⟨S131072x64, .f32⟩ : BufTy).Contents (Elt F)) = (Host.negf) (after ops V (Proc.devRef .tc main_v13) : (⟨S131072x64, .f32⟩ : BufTy).Contents (Elt F)) :=
  ssa_unary ops W hW V 30 main_v13 main_call2_v0 _ _ _ rfl (by decide +kernel) (by decide +kernel)

/-- Operation 31 writes `main_call2_v1`. -/
theorem e31 : (after ops V (Proc.devRef .tc main_call2_v1) : (⟨S131072x64, .f32⟩ : BufTy).Contents (Elt F)) = (Host.exp) (after ops V (Proc.devRef .tc main_call2_v0) : (⟨S131072x64, .f32⟩ : BufTy).Contents (Elt F)) :=
  ssa_unary ops W hW V 31 main_call2_v0 main_call2_v1 _ _ _ rfl (by decide +kernel) (by decide +kernel)

/-- Operation 32 writes `main_call2_cst`. -/
theorem e32 : (after ops V (Proc.devRef .tc main_call2_cst) : (⟨S_, .f32⟩ : BufTy).Contents (Elt F)) = (constant S_ .f32 0x3F800000#32) :=
  ssa_nullary ops W hW V 32 main_call2_cst _ _ rfl (by decide +kernel)

/-- Operation 33 writes `main_call2_v2`. -/
theorem e33 : (after ops V (Proc.devRef .tc main_call2_v2) : (⟨S131072x64, .f32⟩ : BufTy).Contents (Elt F)) = ((broadcastInDim S131072x64 ![] bcast_S_S131072x64)) (after ops V (Proc.devRef .tc main_call2_cst) : (⟨S_, .f32⟩ : BufTy).Contents (Elt F)) :=
  ssa_unary ops W hW V 33 main_call2_cst main_call2_v2 _ _ _ rfl (by decide +kernel) (by decide +kernel)

/-- Operation 34 writes `main_call2_v3`. -/
theorem e34 : (after ops V (Proc.devRef .tc main_call2_v3) : (⟨S131072x64, .f32⟩ : BufTy).Contents (Elt F)) = (addf) (after ops V (Proc.devRef .tc main_call2_v2) : (⟨S131072x64, .f32⟩ : BufTy).Contents (Elt F)) (after ops V (Proc.devRef .tc main_call2_v1) : (⟨S131072x64, .f32⟩ : BufTy).Contents (Elt F)) :=
  ssa_binary ops W hW V 34 main_call2_v2 main_call2_v1 main_call2_v3 _ _ _ _ rfl (by decide +kernel) (by decide +kernel) (by decide +kernel)

/-- Operation 35 writes `main_call2_cst_0`. -/
theorem e35 : (after ops V (Proc.devRef .tc main_call2_cst_0) : (⟨S_, .f32⟩ : BufTy).Contents (Elt F)) = (constant S_ .f32 0x3F800000#32) :=
  ssa_nullary ops W hW V 35 main_call2_cst_0 _ _ rfl (by decide +kernel)

/-- Operation 36 writes `main_call2_v4`. -/
theorem e36 : (after ops V (Proc.devRef .tc main_call2_v4) : (⟨S131072x64, .f32⟩ : BufTy).Contents (Elt F)) = ((broadcastInDim S131072x64 ![] bcast_S_S131072x64)) (after ops V (Proc.devRef .tc main_call2_cst_0) : (⟨S_, .f32⟩ : BufTy).Contents (Elt F)) :=
  ssa_unary ops W hW V 36 main_call2_cst_0 main_call2_v4 _ _ _ rfl (by decide +kernel) (by decide +kernel)

/-- Operation 37 writes `main_call2_v5`. -/
theorem e37 : (after ops V (Proc.devRef .tc main_call2_v5) : (⟨S131072x64, .f32⟩ : BufTy).Contents (Elt F)) = (Host.divf) (after ops V (Proc.devRef .tc main_call2_v4) : (⟨S131072x64, .f32⟩ : BufTy).Contents (Elt F)) (after ops V (Proc.devRef .tc main_call2_v3) : (⟨S131072x64, .f32⟩ : BufTy).Contents (Elt F)) :=
  ssa_binary ops W hW V 37 main_call2_v4 main_call2_v3 main_call2_v5 _ _ _ _ rfl (by decide +kernel) (by decide +kernel) (by decide +kernel)

/-- Operation 38 writes `main_v14`. -/
theorem e38 : (after ops V (Proc.devRef .tc main_v14) : (⟨S131072x64, .f32⟩ : BufTy).Contents (Elt F)) = (mulf) (after ops V (Proc.devRef .tc main_v13) : (⟨S131072x64, .f32⟩ : BufTy).Contents (Elt F)) (after ops V (Proc.devRef .tc main_call2_v5) : (⟨S131072x64, .f32⟩ : BufTy).Contents (Elt F)) :=
  ssa_binary ops W hW V 38 main_v13 main_call2_v5 main_v14 _ _ _ _ rfl (by decide +kernel) (by decide +kernel) (by decide +kernel)

/-- Operation 39 writes `main_v15`. -/
theorem e39 : after ops V (Proc.devRef .tc main_v15) = ((extractStridedSlice S1048576x1 ![0, 1] · slices_S1048576x2_S1048576x1_0_1) : (⟨S1048576x2, .i32⟩ : BufTy).Contents (Elt F) → (⟨S1048576x1, .i32⟩ : BufTy).Contents (Elt F)) (after ops V (Proc.devRef .tc main_arg3)) :=
  ssa_unary ops W hW V 39 main_arg3 main_v15 _ _ _ rfl (by decide +kernel) (by decide +kernel)

/-- Operation 40 writes `main_v16`. -/
theorem e40 : after ops V (Proc.devRef .tc main_v16) = shapeCast S1048576 (after ops V (Proc.devRef .tc main_v15)) shapeCasts_S1048576x1_S1048576 :=
  ssa_reshape ops W hW V 40 main_v15 main_v16 rfl shapeCasts_S1048576x1_S1048576 _ _ rfl (by decide +kernel) (by decide +kernel)

/-- Operation 41 writes `main_c`. -/
theorem e41 : after ops V (Proc.devRef .tc main_c) = (constantI S_ 32 0#32) :=
  ssa_nullary ops W hW V 41 main_c _ _ rfl (by decide +kernel)

/-- Operation 42 writes `main_v17`. -/
theorem e42 : after ops V (Proc.devRef .tc main_v17) = (broadcastInDim S1048576 ![] bcast_S_S1048576 : (⟨S_, .i32⟩ : BufTy).Contents (Elt F) → (⟨S1048576, .i32⟩ : BufTy).Contents (Elt F)) (after ops V (Proc.devRef .tc main_c)) :=
  ssa_unary ops W hW V 42 main_c main_v17 _ _ _ rfl (by decide +kernel) (by decide +kernel)

/-- Operation 43 writes `main_v18`. -/
theorem e43 : after ops V (Proc.devRef .tc main_v18) = (cmpi .slt : (⟨S1048576, .i32⟩ : BufTy).Contents (Elt F) → (⟨S1048576, .i32⟩ : BufTy).Contents (Elt F) → (⟨S1048576, .i1⟩ : BufTy).Contents (Elt F)) (after ops V (Proc.devRef .tc main_v16)) (after ops V (Proc.devRef .tc main_v17)) :=
  ssa_binary ops W hW V 43 main_v16 main_v17 main_v18 _ _ _ _ rfl (by decide +kernel) (by decide +kernel) (by decide +kernel)

/-- Operation 44 writes `main_c_0`. -/
theorem e44 : after ops V (Proc.devRef .tc main_c_0) = (constantI S_ 32 131072#32) :=
  ssa_nullary ops W hW V 44 main_c_0 _ _ rfl (by decide +kernel)

/-- Operation 45 writes `main_v19`. -/
theorem e45 : after ops V (Proc.devRef .tc main_v19) = (broadcastInDim S1048576 ![] bcast_S_S1048576 : (⟨S_, .i32⟩ : BufTy).Contents (Elt F) → (⟨S1048576, .i32⟩ : BufTy).Contents (Elt F)) (after ops V (Proc.devRef .tc main_c_0)) :=
  ssa_unary ops W hW V 45 main_c_0 main_v19 _ _ _ rfl (by decide +kernel) (by decide +kernel)

/-- Operation 46 writes `main_v20`. -/
theorem e46 : after ops V (Proc.devRef .tc main_v20) = (addi : (⟨S1048576, .i32⟩ : BufTy).Contents (Elt F) → (⟨S1048576, .i32⟩ : BufTy).Contents (Elt F) → (⟨S1048576, .i32⟩ : BufTy).Contents (Elt F)) (after ops V (Proc.devRef .tc main_v16)) (after ops V (Proc.devRef .tc main_v19)) :=
  ssa_binary ops W hW V 46 main_v16 main_v19 main_v20 _ _ _ _ rfl (by decide +kernel) (by decide +kernel) (by decide +kernel)

/-- Operation 47 writes `main_v21`. -/
theorem e47 : after ops V (Proc.devRef .tc main_v21) = (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) (after ops V (Proc.devRef .tc main_v18)) (after ops V (Proc.devRef .tc main_v20)) (after ops V (Proc.devRef .tc main_v16)) :=
  ssa_ternary ops W hW V 47 main_v18 main_v20 main_v16 main_v21 _ _ _ _ _ rfl (by decide +kernel) (by decide +kernel) (by decide +kernel) (by decide +kernel)

/-- Operation 48 writes `main_v22`. -/
theorem e48 : after ops V (Proc.devRef .tc main_v22) = (broadcastInDim S1048576x1 ![0] bcast_S1048576_S1048576x1_0 : (⟨S1048576, .i32⟩ : BufTy).Contents (Elt F) → (⟨S1048576x1, .i32⟩ : BufTy).Contents (Elt F)) (after ops V (Proc.devRef .tc main_v21)) :=
  ssa_unary ops W hW V 48 main_v21 main_v22 _ _ _ rfl (by decide +kernel) (by decide +kernel)

/-- Operation 49 writes `main_v23`. -/
theorem e49 : after ops V (Proc.devRef .tc main_v23) = ((fun x i => Host.gather gather_S131072x64_S1048576x1_S1048576x64_1_0_n_n_0_1_164 x i) : (⟨S131072x64, .f32⟩ : BufTy).Contents (Elt F) → (⟨S1048576x1, .i32⟩ : BufTy).Contents (Elt F) → (⟨S1048576x64, .f32⟩ : BufTy).Contents (Elt F)) (after ops V (Proc.devRef .tc main_v14)) (after ops V (Proc.devRef .tc main_v22)) :=
  ssa_binary ops W hW V 49 main_v14 main_v22 main_v23 _ _ _ _ rfl (by decide +kernel) (by decide +kernel) (by decide +kernel)

/-- Operation 50 writes `main_v24`. -/
theorem e50 : after ops V (Proc.devRef .tc main_v24) = ((fun l r => Host.dotGeneral dot_S1048576x42_S42x8_S1048576x8_1_0_0_1_n_n none l r) : (⟨S1048576x42, .f32⟩ : BufTy).Contents (Elt F) → (⟨S42x8, .f32⟩ : BufTy).Contents (Elt F) → (⟨S1048576x8, .f32⟩ : BufTy).Contents (Elt F)) (after ops V (Proc.devRef .tc main_arg2)) (after ops V (Proc.devRef .tc main_arg6)) :=
  ssa_binary ops W hW V 50 main_arg2 main_arg6 main_v24 _ _ _ _ rfl (by decide +kernel) (by decide +kernel) (by decide +kernel)

/-- Operation 51 writes `main_v25`. -/
theorem e51 : after ops V (Proc.devRef .tc main_v25) = ((fun l r => Host.dotGeneral dot_S1048576x8_S8x64_S1048576x64_1_0_0_1_n_n none l r) : (⟨S1048576x8, .f32⟩ : BufTy).Contents (Elt F) → (⟨S8x64, .f32⟩ : BufTy).Contents (Elt F) → (⟨S1048576x64, .f32⟩ : BufTy).Contents (Elt F)) (after ops V (Proc.devRef .tc main_v24)) (after ops V (Proc.devRef .tc main_arg7)) :=
  ssa_binary ops W hW V 51 main_v24 main_arg7 main_v25 _ _ _ _ rfl (by decide +kernel) (by decide +kernel) (by decide +kernel)

/-- Operation 52 writes `main_v26`. -/
theorem e52 : after ops V (Proc.devRef .tc main_v26) = (mulf : (⟨S1048576x64, .f32⟩ : BufTy).Contents (Elt F) → (⟨S1048576x64, .f32⟩ : BufTy).Contents (Elt F) → (⟨S1048576x64, .f32⟩ : BufTy).Contents (Elt F)) (after ops V (Proc.devRef .tc main_v23)) (after ops V (Proc.devRef .tc main_v25)) :=
  ssa_binary ops W hW V 52 main_v23 main_v25 main_v26 _ _ _ _ rfl (by decide +kernel) (by decide +kernel) (by decide +kernel)

/-- Operation 53 writes `main_v27`. -/
theorem e53 : after ops V (Proc.devRef .tc main_v27) = ((extractStridedSlice S1048576x1 ![0, 0] · slices_S1048576x2_S1048576x1_0_0) : (⟨S1048576x2, .i32⟩ : BufTy).Contents (Elt F) → (⟨S1048576x1, .i32⟩ : BufTy).Contents (Elt F)) (after ops V (Proc.devRef .tc main_arg3)) :=
  ssa_unary ops W hW V 53 main_arg3 main_v27 _ _ _ rfl (by decide +kernel) (by decide +kernel)

/-- Operation 54 writes `main_v28`. -/
theorem e54 : after ops V (Proc.devRef .tc main_v28) = shapeCast S1048576 (after ops V (Proc.devRef .tc main_v27)) shapeCasts_S1048576x1_S1048576 :=
  ssa_reshape ops W hW V 54 main_v27 main_v28 rfl shapeCasts_S1048576x1_S1048576 _ _ rfl (by decide +kernel) (by decide +kernel)

/-- Operation 55 writes `main_cst`. -/
theorem e55 : after ops V (Proc.devRef .tc main_cst) = (constant S_ .f32 0x00000000#32) :=
  ssa_nullary ops W hW V 55 main_cst _ _ rfl (by decide +kernel)

/-- Operation 56 writes `main_v29`. -/
theorem e56 : after ops V (Proc.devRef .tc main_v29) = (broadcastInDim S131072x64 ![] bcast_S_S131072x64 : (⟨S_, .f32⟩ : BufTy).Contents (Elt F) → (⟨S131072x64, .f32⟩ : BufTy).Contents (Elt F)) (after ops V (Proc.devRef .tc main_cst)) :=
  ssa_unary ops W hW V 56 main_cst main_v29 _ _ _ rfl (by decide +kernel) (by decide +kernel)

/-- Operation 57 writes `main_v30`. -/
theorem e57 : after ops V (Proc.devRef .tc main_v30) = (broadcastInDim S1048576x1 ![0] bcast_S1048576_S1048576x1_0 : (⟨S1048576, .i32⟩ : BufTy).Contents (Elt F) → (⟨S1048576x1, .i32⟩ : BufTy).Contents (Elt F)) (after ops V (Proc.devRef .tc main_v28)) :=
  ssa_unary ops W hW V 57 main_v28 main_v30 _ _ _ rfl (by decide +kernel) (by decide +kernel)

/-- Operation 58 writes `main_v31`. -/
theorem e58 : after ops V (Proc.devRef .tc main_v31) = ((fun x i u => Host.scatterAdd scatter_S131072x64_S1048576x1_S1048576x64_1_0_0_1 x i u) : (⟨S131072x64, .f32⟩ : BufTy).Contents (Elt F) → (⟨S1048576x1, .i32⟩ : BufTy).Contents (Elt F) → (⟨S1048576x64, .f32⟩ : BufTy).Contents (Elt F) → (⟨S131072x64, .f32⟩ : BufTy).Contents (Elt F)) (after ops V (Proc.devRef .tc main_v29)) (after ops V (Proc.devRef .tc main_v30)) (after ops V (Proc.devRef .tc main_v26)) :=
  ssa_ternary ops W hW V 58 main_v29 main_v30 main_v26 main_v31 _ _ _ _ _ rfl (by decide +kernel) (by decide +kernel) (by decide +kernel) (by decide +kernel)

/-- Operation 59 writes `main_v32`. -/
theorem e59 : after ops V (Proc.devRef .tc main_v32) = ((fun l r => Host.dotGeneral dot_S131072x64_S64x128_S131072x128_1_0_0_1_n_n none l r) : (⟨S131072x64, .f32⟩ : BufTy).Contents (Elt F) → (⟨S64x128, .f32⟩ : BufTy).Contents (Elt F) → (⟨S131072x128, .f32⟩ : BufTy).Contents (Elt F)) (after ops V (Proc.devRef .tc main_v31)) (after ops V (Proc.devRef .tc main_arg13)) :=
  ssa_binary ops W hW V 59 main_v31 main_arg13 main_v32 _ _ _ _ rfl (by decide +kernel) (by decide +kernel) (by decide +kernel)

/-- Operation 60 writes `main_call3_v0`. -/
theorem e60 : (after ops V (Proc.devRef .tc main_call3_v0) : (⟨S131072x128, .f32⟩ : BufTy).Contents (Elt F)) = (Host.negf) (after ops V (Proc.devRef .tc main_v32) : (⟨S131072x128, .f32⟩ : BufTy).Contents (Elt F)) :=
  ssa_unary ops W hW V 60 main_v32 main_call3_v0 _ _ _ rfl (by decide +kernel) (by decide +kernel)

/-- Operation 61 writes `main_call3_v1`. -/
theorem e61 : (after ops V (Proc.devRef .tc main_call3_v1) : (⟨S131072x128, .f32⟩ : BufTy).Contents (Elt F)) = (Host.exp) (after ops V (Proc.devRef .tc main_call3_v0) : (⟨S131072x128, .f32⟩ : BufTy).Contents (Elt F)) :=
  ssa_unary ops W hW V 61 main_call3_v0 main_call3_v1 _ _ _ rfl (by decide +kernel) (by decide +kernel)

/-- Operation 62 writes `main_call3_cst`. -/
theorem e62 : (after ops V (Proc.devRef .tc main_call3_cst) : (⟨S_, .f32⟩ : BufTy).Contents (Elt F)) = (constant S_ .f32 0x3F800000#32) :=
  ssa_nullary ops W hW V 62 main_call3_cst _ _ rfl (by decide +kernel)

/-- Operation 63 writes `main_call3_v2`. -/
theorem e63 : (after ops V (Proc.devRef .tc main_call3_v2) : (⟨S131072x128, .f32⟩ : BufTy).Contents (Elt F)) = ((broadcastInDim S131072x128 ![] bcast_S_S131072x128)) (after ops V (Proc.devRef .tc main_call3_cst) : (⟨S_, .f32⟩ : BufTy).Contents (Elt F)) :=
  ssa_unary ops W hW V 63 main_call3_cst main_call3_v2 _ _ _ rfl (by decide +kernel) (by decide +kernel)

/-- Operation 64 writes `main_call3_v3`. -/
theorem e64 : (after ops V (Proc.devRef .tc main_call3_v3) : (⟨S131072x128, .f32⟩ : BufTy).Contents (Elt F)) = (addf) (after ops V (Proc.devRef .tc main_call3_v2) : (⟨S131072x128, .f32⟩ : BufTy).Contents (Elt F)) (after ops V (Proc.devRef .tc main_call3_v1) : (⟨S131072x128, .f32⟩ : BufTy).Contents (Elt F)) :=
  ssa_binary ops W hW V 64 main_call3_v2 main_call3_v1 main_call3_v3 _ _ _ _ rfl (by decide +kernel) (by decide +kernel) (by decide +kernel)

/-- Operation 65 writes `main_call3_cst_0`. -/
theorem e65 : (after ops V (Proc.devRef .tc main_call3_cst_0) : (⟨S_, .f32⟩ : BufTy).Contents (Elt F)) = (constant S_ .f32 0x3F800000#32) :=
  ssa_nullary ops W hW V 65 main_call3_cst_0 _ _ rfl (by decide +kernel)

/-- Operation 66 writes `main_call3_v4`. -/
theorem e66 : (after ops V (Proc.devRef .tc main_call3_v4) : (⟨S131072x128, .f32⟩ : BufTy).Contents (Elt F)) = ((broadcastInDim S131072x128 ![] bcast_S_S131072x128)) (after ops V (Proc.devRef .tc main_call3_cst_0) : (⟨S_, .f32⟩ : BufTy).Contents (Elt F)) :=
  ssa_unary ops W hW V 66 main_call3_cst_0 main_call3_v4 _ _ _ rfl (by decide +kernel) (by decide +kernel)

/-- Operation 67 writes `main_call3_v5`. -/
theorem e67 : (after ops V (Proc.devRef .tc main_call3_v5) : (⟨S131072x128, .f32⟩ : BufTy).Contents (Elt F)) = (Host.divf) (after ops V (Proc.devRef .tc main_call3_v4) : (⟨S131072x128, .f32⟩ : BufTy).Contents (Elt F)) (after ops V (Proc.devRef .tc main_call3_v3) : (⟨S131072x128, .f32⟩ : BufTy).Contents (Elt F)) :=
  ssa_binary ops W hW V 67 main_call3_v4 main_call3_v3 main_call3_v5 _ _ _ _ rfl (by decide +kernel) (by decide +kernel) (by decide +kernel)

/-- Operation 68 writes `main_v33`. -/
theorem e68 : (after ops V (Proc.devRef .tc main_v33) : (⟨S131072x128, .f32⟩ : BufTy).Contents (Elt F)) = (mulf) (after ops V (Proc.devRef .tc main_v32) : (⟨S131072x128, .f32⟩ : BufTy).Contents (Elt F)) (after ops V (Proc.devRef .tc main_call3_v5) : (⟨S131072x128, .f32⟩ : BufTy).Contents (Elt F)) :=
  ssa_binary ops W hW V 68 main_v32 main_call3_v5 main_v33 _ _ _ _ rfl (by decide +kernel) (by decide +kernel) (by decide +kernel)

/-- Operation 69 writes `main_v34`. -/
theorem e69 : after ops V (Proc.devRef .tc main_v34) = (addf : (⟨S131072x128, .f32⟩ : BufTy).Contents (Elt F) → (⟨S131072x128, .f32⟩ : BufTy).Contents (Elt F) → (⟨S131072x128, .f32⟩ : BufTy).Contents (Elt F)) (after ops V (Proc.devRef .tc main_v4)) (after ops V (Proc.devRef .tc main_v33)) :=
  ssa_binary ops W hW V 69 main_v4 main_v33 main_v34 _ _ _ _ rfl (by decide +kernel) (by decide +kernel) (by decide +kernel)

/-- Operation 70 writes `main_v35`. -/
theorem e70 : after ops V (Proc.devRef .tc main_v35) = ((extractStridedSlice S1x1x128x128 ![0, 0, 0, 0] · slices_S1x2x128x128_S1x1x128x128_0_0_0_0) : (⟨S1x2x128x128, .f32⟩ : BufTy).Contents (Elt F) → (⟨S1x1x128x128, .f32⟩ : BufTy).Contents (Elt F)) (after ops V (Proc.devRef .tc main_arg14)) :=
  ssa_unary ops W hW V 70 main_arg14 main_v35 _ _ _ rfl (by decide +kernel) (by decide +kernel)

/-- Operation 71 writes `main_v36`. -/
theorem e71 : after ops V (Proc.devRef .tc main_v36) = shapeCast S128x128 (after ops V (Proc.devRef .tc main_v35)) shapeCasts_S1x1x128x128_S128x128 :=
  ssa_reshape ops W hW V 71 main_v35 main_v36 rfl shapeCasts_S1x1x128x128_S128x128 _ _ rfl (by decide +kernel) (by decide +kernel)

/-- Operation 72 writes `main_v37`. -/
theorem e72 : after ops V (Proc.devRef .tc main_v37) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v34)) (after ops V (Proc.devRef .tc main_v36)) :=
  ssa_binary ops W hW V 72 main_v34 main_v36 main_v37 _ _ _ _ rfl (by decide +kernel) (by decide +kernel) (by decide +kernel)

/-- Operation 73 writes `main_v38`. -/
theorem e73 : after ops V (Proc.devRef .tc main_v38) = ((extractStridedSlice S1x1x128 ![0, 0, 0] · slices_S1x2x128_S1x1x128_0_0_0) : (⟨S1x2x128, .f32⟩ : BufTy).Contents (Elt F) → (⟨S1x1x128, .f32⟩ : BufTy).Contents (Elt F)) (after ops V (Proc.devRef .tc main_arg15)) :=
  ssa_unary ops W hW V 73 main_arg15 main_v38 _ _ _ rfl (by decide +kernel) (by decide +kernel)

/-- Operation 74 writes `main_v39`. -/
theorem e74 : after ops V (Proc.devRef .tc main_v39) = shapeCast S128 (after ops V (Proc.devRef .tc main_v38)) shapeCasts_S1x1x128_S128 :=
  ssa_reshape ops W hW V 74 main_v38 main_v39 rfl shapeCasts_S1x1x128_S128 _ _ rfl (by decide +kernel) (by decide +kernel)

/-- Operation 75 writes `main_v40`. -/
theorem e75 : after ops V (Proc.devRef .tc main_v40) = (broadcastInDim S1x128 ![1] bcast_S128_S1x128_1 : (⟨S128, .f32⟩ : BufTy).Contents (Elt F) → (⟨S1x128, .f32⟩ : BufTy).Contents (Elt F)) (after ops V (Proc.devRef .tc main_v39)) :=
  ssa_unary ops W hW V 75 main_v39 main_v40 _ _ _ rfl (by decide +kernel) (by decide +kernel)

/-- Operation 76 writes `main_v41`. -/
theorem e76 : after ops V (Proc.devRef .tc main_v41) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v40)) :=
  ssa_unary ops W hW V 76 main_v40 main_v41 _ _ _ rfl (by decide +kernel) (by decide +kernel)

/-- Operation 77 writes `main_v42`. -/
theorem e77 : after ops V (Proc.devRef .tc main_v42) = (addf : (⟨S131072x128, .f32⟩ : BufTy).Contents (Elt F) → (⟨S131072x128, .f32⟩ : BufTy).Contents (Elt F) → (⟨S131072x128, .f32⟩ : BufTy).Contents (Elt F)) (after ops V (Proc.devRef .tc main_v37)) (after ops V (Proc.devRef .tc main_v41)) :=
  ssa_binary ops W hW V 77 main_v37 main_v41 main_v42 _ _ _ _ rfl (by decide +kernel) (by decide +kernel) (by decide +kernel)

/-- Operation 78 writes `main_call4_v0`. -/
theorem e78 : (after ops V (Proc.devRef .tc main_call4_v0) : (⟨S131072x128, .f32⟩ : BufTy).Contents (Elt F)) = (Host.negf) (after ops V (Proc.devRef .tc main_v42) : (⟨S131072x128, .f32⟩ : BufTy).Contents (Elt F)) :=
  ssa_unary ops W hW V 78 main_v42 main_call4_v0 _ _ _ rfl (by decide +kernel) (by decide +kernel)

/-- Operation 79 writes `main_call4_v1`. -/
theorem e79 : (after ops V (Proc.devRef .tc main_call4_v1) : (⟨S131072x128, .f32⟩ : BufTy).Contents (Elt F)) = (Host.exp) (after ops V (Proc.devRef .tc main_call4_v0) : (⟨S131072x128, .f32⟩ : BufTy).Contents (Elt F)) :=
  ssa_unary ops W hW V 79 main_call4_v0 main_call4_v1 _ _ _ rfl (by decide +kernel) (by decide +kernel)

/-- Operation 80 writes `main_call4_cst`. -/
theorem e80 : (after ops V (Proc.devRef .tc main_call4_cst) : (⟨S_, .f32⟩ : BufTy).Contents (Elt F)) = (constant S_ .f32 0x3F800000#32) :=
  ssa_nullary ops W hW V 80 main_call4_cst _ _ rfl (by decide +kernel)

/-- Operation 81 writes `main_call4_v2`. -/
theorem e81 : (after ops V (Proc.devRef .tc main_call4_v2) : (⟨S131072x128, .f32⟩ : BufTy).Contents (Elt F)) = ((broadcastInDim S131072x128 ![] bcast_S_S131072x128)) (after ops V (Proc.devRef .tc main_call4_cst) : (⟨S_, .f32⟩ : BufTy).Contents (Elt F)) :=
  ssa_unary ops W hW V 81 main_call4_cst main_call4_v2 _ _ _ rfl (by decide +kernel) (by decide +kernel)

/-- Operation 82 writes `main_call4_v3`. -/
theorem e82 : (after ops V (Proc.devRef .tc main_call4_v3) : (⟨S131072x128, .f32⟩ : BufTy).Contents (Elt F)) = (addf) (after ops V (Proc.devRef .tc main_call4_v2) : (⟨S131072x128, .f32⟩ : BufTy).Contents (Elt F)) (after ops V (Proc.devRef .tc main_call4_v1) : (⟨S131072x128, .f32⟩ : BufTy).Contents (Elt F)) :=
  ssa_binary ops W hW V 82 main_call4_v2 main_call4_v1 main_call4_v3 _ _ _ _ rfl (by decide +kernel) (by decide +kernel) (by decide +kernel)

/-- Operation 83 writes `main_call4_cst_0`. -/
theorem e83 : (after ops V (Proc.devRef .tc main_call4_cst_0) : (⟨S_, .f32⟩ : BufTy).Contents (Elt F)) = (constant S_ .f32 0x3F800000#32) :=
  ssa_nullary ops W hW V 83 main_call4_cst_0 _ _ rfl (by decide +kernel)

/-- Operation 84 writes `main_call4_v4`. -/
theorem e84 : (after ops V (Proc.devRef .tc main_call4_v4) : (⟨S131072x128, .f32⟩ : BufTy).Contents (Elt F)) = ((broadcastInDim S131072x128 ![] bcast_S_S131072x128)) (after ops V (Proc.devRef .tc main_call4_cst_0) : (⟨S_, .f32⟩ : BufTy).Contents (Elt F)) :=
  ssa_unary ops W hW V 84 main_call4_cst_0 main_call4_v4 _ _ _ rfl (by decide +kernel) (by decide +kernel)

/-- Operation 85 writes `main_call4_v5`. -/
theorem e85 : (after ops V (Proc.devRef .tc main_call4_v5) : (⟨S131072x128, .f32⟩ : BufTy).Contents (Elt F)) = (Host.divf) (after ops V (Proc.devRef .tc main_call4_v4) : (⟨S131072x128, .f32⟩ : BufTy).Contents (Elt F)) (after ops V (Proc.devRef .tc main_call4_v3) : (⟨S131072x128, .f32⟩ : BufTy).Contents (Elt F)) :=
  ssa_binary ops W hW V 85 main_call4_v4 main_call4_v3 main_call4_v5 _ _ _ _ rfl (by decide +kernel) (by decide +kernel) (by decide +kernel)

/-- Operation 86 writes `main_v43`. -/
theorem e86 : (after ops V (Proc.devRef .tc main_v43) : (⟨S131072x128, .f32⟩ : BufTy).Contents (Elt F)) = (mulf) (after ops V (Proc.devRef .tc main_v42) : (⟨S131072x128, .f32⟩ : BufTy).Contents (Elt F)) (after ops V (Proc.devRef .tc main_call4_v5) : (⟨S131072x128, .f32⟩ : BufTy).Contents (Elt F)) :=
  ssa_binary ops W hW V 86 main_v42 main_call4_v5 main_v43 _ _ _ _ rfl (by decide +kernel) (by decide +kernel) (by decide +kernel)

/-- Operation 87 writes `main_v44`. -/
theorem e87 : after ops V (Proc.devRef .tc main_v44) = ((extractStridedSlice S1x1x128x128 ![0, 1, 0, 0] · slices_S1x2x128x128_S1x1x128x128_0_1_0_0) : (⟨S1x2x128x128, .f32⟩ : BufTy).Contents (Elt F) → (⟨S1x1x128x128, .f32⟩ : BufTy).Contents (Elt F)) (after ops V (Proc.devRef .tc main_arg14)) :=
  ssa_unary ops W hW V 87 main_arg14 main_v44 _ _ _ rfl (by decide +kernel) (by decide +kernel)

/-- Operation 88 writes `main_v45`. -/
theorem e88 : after ops V (Proc.devRef .tc main_v45) = shapeCast S128x128 (after ops V (Proc.devRef .tc main_v44)) shapeCasts_S1x1x128x128_S128x128 :=
  ssa_reshape ops W hW V 88 main_v44 main_v45 rfl shapeCasts_S1x1x128x128_S128x128 _ _ rfl (by decide +kernel) (by decide +kernel)

/-- Operation 89 writes `main_v46`. -/
theorem e89 : after ops V (Proc.devRef .tc main_v46) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v43)) (after ops V (Proc.devRef .tc main_v45)) :=
  ssa_binary ops W hW V 89 main_v43 main_v45 main_v46 _ _ _ _ rfl (by decide +kernel) (by decide +kernel) (by decide +kernel)

/-- Operation 90 writes `main_v47`. -/
theorem e90 : after ops V (Proc.devRef .tc main_v47) = ((extractStridedSlice S1x1x128 ![0, 1, 0] · slices_S1x2x128_S1x1x128_0_1_0) : (⟨S1x2x128, .f32⟩ : BufTy).Contents (Elt F) → (⟨S1x1x128, .f32⟩ : BufTy).Contents (Elt F)) (after ops V (Proc.devRef .tc main_arg15)) :=
  ssa_unary ops W hW V 90 main_arg15 main_v47 _ _ _ rfl (by decide +kernel) (by decide +kernel)

/-- Operation 91 writes `main_v48`. -/
theorem e91 : after ops V (Proc.devRef .tc main_v48) = shapeCast S128 (after ops V (Proc.devRef .tc main_v47)) shapeCasts_S1x1x128_S128 :=
  ssa_reshape ops W hW V 91 main_v47 main_v48 rfl shapeCasts_S1x1x128_S128 _ _ rfl (by decide +kernel) (by decide +kernel)

/-- Operation 92 writes `main_v49`. -/
theorem e92 : after ops V (Proc.devRef .tc main_v49) = (broadcastInDim S1x128 ![1] bcast_S128_S1x128_1 : (⟨S128, .f32⟩ : BufTy).Contents (Elt F) → (⟨S1x128, .f32⟩ : BufTy).Contents (Elt F)) (after ops V (Proc.devRef .tc main_v48)) :=
  ssa_unary ops W hW V 92 main_v48 main_v49 _ _ _ rfl (by decide +kernel) (by decide +kernel)

/-- Operation 93 writes `main_v50`. -/
theorem e93 : after ops V (Proc.devRef .tc main_v50) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v49)) :=
  ssa_unary ops W hW V 93 main_v49 main_v50 _ _ _ rfl (by decide +kernel) (by decide +kernel)

/-- Operation 94 writes `main_v51`. -/
theorem e94 : after ops V (Proc.devRef .tc main_v51) = (addf : (⟨S131072x128, .f32⟩ : BufTy).Contents (Elt F) → (⟨S131072x128, .f32⟩ : BufTy).Contents (Elt F) → (⟨S131072x128, .f32⟩ : BufTy).Contents (Elt F)) (after ops V (Proc.devRef .tc main_v46)) (after ops V (Proc.devRef .tc main_v50)) :=
  ssa_binary ops W hW V 94 main_v46 main_v50 main_v51 _ _ _ _ rfl (by decide +kernel) (by decide +kernel) (by decide +kernel)

/-- Operation 95 writes `main_call5_v0`. -/
theorem e95 : (after ops V (Proc.devRef .tc main_call5_v0) : (⟨S131072x128, .f32⟩ : BufTy).Contents (Elt F)) = (Host.negf) (after ops V (Proc.devRef .tc main_v51) : (⟨S131072x128, .f32⟩ : BufTy).Contents (Elt F)) :=
  ssa_unary ops W hW V 95 main_v51 main_call5_v0 _ _ _ rfl (by decide +kernel) (by decide +kernel)

/-- Operation 96 writes `main_call5_v1`. -/
theorem e96 : (after ops V (Proc.devRef .tc main_call5_v1) : (⟨S131072x128, .f32⟩ : BufTy).Contents (Elt F)) = (Host.exp) (after ops V (Proc.devRef .tc main_call5_v0) : (⟨S131072x128, .f32⟩ : BufTy).Contents (Elt F)) :=
  ssa_unary ops W hW V 96 main_call5_v0 main_call5_v1 _ _ _ rfl (by decide +kernel) (by decide +kernel)

/-- Operation 97 writes `main_call5_cst`. -/
theorem e97 : (after ops V (Proc.devRef .tc main_call5_cst) : (⟨S_, .f32⟩ : BufTy).Contents (Elt F)) = (constant S_ .f32 0x3F800000#32) :=
  ssa_nullary ops W hW V 97 main_call5_cst _ _ rfl (by decide +kernel)

/-- Operation 98 writes `main_call5_v2`. -/
theorem e98 : (after ops V (Proc.devRef .tc main_call5_v2) : (⟨S131072x128, .f32⟩ : BufTy).Contents (Elt F)) = ((broadcastInDim S131072x128 ![] bcast_S_S131072x128)) (after ops V (Proc.devRef .tc main_call5_cst) : (⟨S_, .f32⟩ : BufTy).Contents (Elt F)) :=
  ssa_unary ops W hW V 98 main_call5_cst main_call5_v2 _ _ _ rfl (by decide +kernel) (by decide +kernel)

/-- Operation 99 writes `main_call5_v3`. -/
theorem e99 : (after ops V (Proc.devRef .tc main_call5_v3) : (⟨S131072x128, .f32⟩ : BufTy).Contents (Elt F)) = (addf) (after ops V (Proc.devRef .tc main_call5_v2) : (⟨S131072x128, .f32⟩ : BufTy).Contents (Elt F)) (after ops V (Proc.devRef .tc main_call5_v1) : (⟨S131072x128, .f32⟩ : BufTy).Contents (Elt F)) :=
  ssa_binary ops W hW V 99 main_call5_v2 main_call5_v1 main_call5_v3 _ _ _ _ rfl (by decide +kernel) (by decide +kernel) (by decide +kernel)

/-- Operation 100 writes `main_call5_cst_0`. -/
theorem e100 : (after ops V (Proc.devRef .tc main_call5_cst_0) : (⟨S_, .f32⟩ : BufTy).Contents (Elt F)) = (constant S_ .f32 0x3F800000#32) :=
  ssa_nullary ops W hW V 100 main_call5_cst_0 _ _ rfl (by decide +kernel)

/-- Operation 101 writes `main_call5_v4`. -/
theorem e101 : (after ops V (Proc.devRef .tc main_call5_v4) : (⟨S131072x128, .f32⟩ : BufTy).Contents (Elt F)) = ((broadcastInDim S131072x128 ![] bcast_S_S131072x128)) (after ops V (Proc.devRef .tc main_call5_cst_0) : (⟨S_, .f32⟩ : BufTy).Contents (Elt F)) :=
  ssa_unary ops W hW V 101 main_call5_cst_0 main_call5_v4 _ _ _ rfl (by decide +kernel) (by decide +kernel)

/-- Operation 102 writes `main_call5_v5`. -/
theorem e102 : (after ops V (Proc.devRef .tc main_call5_v5) : (⟨S131072x128, .f32⟩ : BufTy).Contents (Elt F)) = (Host.divf) (after ops V (Proc.devRef .tc main_call5_v4) : (⟨S131072x128, .f32⟩ : BufTy).Contents (Elt F)) (after ops V (Proc.devRef .tc main_call5_v3) : (⟨S131072x128, .f32⟩ : BufTy).Contents (Elt F)) :=
  ssa_binary ops W hW V 102 main_call5_v4 main_call5_v3 main_call5_v5 _ _ _ _ rfl (by decide +kernel) (by decide +kernel) (by decide +kernel)

/-- Operation 103 writes `main_v52`. -/
theorem e103 : (after ops V (Proc.devRef .tc main_v52) : (⟨S131072x128, .f32⟩ : BufTy).Contents (Elt F)) = (mulf) (after ops V (Proc.devRef .tc main_v51) : (⟨S131072x128, .f32⟩ : BufTy).Contents (Elt F)) (after ops V (Proc.devRef .tc main_call5_v5) : (⟨S131072x128, .f32⟩ : BufTy).Contents (Elt F)) :=
  ssa_binary ops W hW V 103 main_v51 main_call5_v5 main_v52 _ _ _ _ rfl (by decide +kernel) (by decide +kernel) (by decide +kernel)

/-- Operation 104 writes `main_v53`. -/
theorem e104 : after ops V (Proc.devRef .tc main_v53) = (addf : (⟨S131072x128, .f32⟩ : BufTy).Contents (Elt F) → (⟨S131072x128, .f32⟩ : BufTy).Contents (Elt F) → (⟨S131072x128, .f32⟩ : BufTy).Contents (Elt F)) (after ops V (Proc.devRef .tc main_v34)) (after ops V (Proc.devRef .tc main_v52)) :=
  ssa_binary ops W hW V 104 main_v34 main_v52 main_v53 _ _ _ _ rfl (by decide +kernel) (by decide +kernel) (by decide +kernel)

/-- Operation 105 writes `main_v54`. -/
theorem e105 : after ops V (Proc.devRef .tc main_v54) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v53)) (after ops V (Proc.devRef .tc main_arg16)) :=
  ssa_binary ops W hW V 105 main_v53 main_arg16 main_v54 _ _ _ _ rfl (by decide +kernel) (by decide +kernel) (by decide +kernel)

/-- Operation 106 writes `main_v55`. -/
theorem e106 : after ops V (Proc.devRef .tc main_v55) = (broadcastInDim S1x128 ![1] bcast_S128_S1x128_1 : (⟨S128, .f32⟩ : BufTy).Contents (Elt F) → (⟨S1x128, .f32⟩ : BufTy).Contents (Elt F)) (after ops V (Proc.devRef .tc main_arg17)) :=
  ssa_unary ops W hW V 106 main_arg17 main_v55 _ _ _ rfl (by decide +kernel) (by decide +kernel)

/-- Operation 107 writes `main_v56`. -/
theorem e107 : after ops V (Proc.devRef .tc main_v56) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v55)) :=
  ssa_unary ops W hW V 107 main_v55 main_v56 _ _ _ rfl (by decide +kernel) (by decide +kernel)

/-- Operation 108 writes `main_v57`. -/
theorem e108 : after ops V (Proc.devRef .tc main_v57) = (addf : (⟨S131072x128, .f32⟩ : BufTy).Contents (Elt F) → (⟨S131072x128, .f32⟩ : BufTy).Contents (Elt F) → (⟨S131072x128, .f32⟩ : BufTy).Contents (Elt F)) (after ops V (Proc.devRef .tc main_v54)) (after ops V (Proc.devRef .tc main_v56)) :=
  ssa_binary ops W hW V 108 main_v54 main_v56 main_v57 _ _ _ _ rfl (by decide +kernel) (by decide +kernel) (by decide +kernel)

/-- Operation 109 writes `main_call6_v0`. -/
theorem e109 : (after ops V (Proc.devRef .tc main_call6_v0) : (⟨S131072x128, .f32⟩ : BufTy).Contents (Elt F)) = (Host.negf) (after ops V (Proc.devRef .tc main_v57) : (⟨S131072x128, .f32⟩ : BufTy).Contents (Elt F)) :=
  ssa_unary ops W hW V 109 main_v57 main_call6_v0 _ _ _ rfl (by decide +kernel) (by decide +kernel)

/-- Operation 110 writes `main_call6_v1`. -/
theorem e110 : (after ops V (Proc.devRef .tc main_call6_v1) : (⟨S131072x128, .f32⟩ : BufTy).Contents (Elt F)) = (Host.exp) (after ops V (Proc.devRef .tc main_call6_v0) : (⟨S131072x128, .f32⟩ : BufTy).Contents (Elt F)) :=
  ssa_unary ops W hW V 110 main_call6_v0 main_call6_v1 _ _ _ rfl (by decide +kernel) (by decide +kernel)

/-- Operation 111 writes `main_call6_cst`. -/
theorem e111 : (after ops V (Proc.devRef .tc main_call6_cst) : (⟨S_, .f32⟩ : BufTy).Contents (Elt F)) = (constant S_ .f32 0x3F800000#32) :=
  ssa_nullary ops W hW V 111 main_call6_cst _ _ rfl (by decide +kernel)

/-- Operation 112 writes `main_call6_v2`. -/
theorem e112 : (after ops V (Proc.devRef .tc main_call6_v2) : (⟨S131072x128, .f32⟩ : BufTy).Contents (Elt F)) = ((broadcastInDim S131072x128 ![] bcast_S_S131072x128)) (after ops V (Proc.devRef .tc main_call6_cst) : (⟨S_, .f32⟩ : BufTy).Contents (Elt F)) :=
  ssa_unary ops W hW V 112 main_call6_cst main_call6_v2 _ _ _ rfl (by decide +kernel) (by decide +kernel)

/-- Operation 113 writes `main_call6_v3`. -/
theorem e113 : (after ops V (Proc.devRef .tc main_call6_v3) : (⟨S131072x128, .f32⟩ : BufTy).Contents (Elt F)) = (addf) (after ops V (Proc.devRef .tc main_call6_v2) : (⟨S131072x128, .f32⟩ : BufTy).Contents (Elt F)) (after ops V (Proc.devRef .tc main_call6_v1) : (⟨S131072x128, .f32⟩ : BufTy).Contents (Elt F)) :=
  ssa_binary ops W hW V 113 main_call6_v2 main_call6_v1 main_call6_v3 _ _ _ _ rfl (by decide +kernel) (by decide +kernel) (by decide +kernel)

/-- Operation 114 writes `main_call6_cst_0`. -/
theorem e114 : (after ops V (Proc.devRef .tc main_call6_cst_0) : (⟨S_, .f32⟩ : BufTy).Contents (Elt F)) = (constant S_ .f32 0x3F800000#32) :=
  ssa_nullary ops W hW V 114 main_call6_cst_0 _ _ rfl (by decide +kernel)

/-- Operation 115 writes `main_call6_v4`. -/
theorem e115 : (after ops V (Proc.devRef .tc main_call6_v4) : (⟨S131072x128, .f32⟩ : BufTy).Contents (Elt F)) = ((broadcastInDim S131072x128 ![] bcast_S_S131072x128)) (after ops V (Proc.devRef .tc main_call6_cst_0) : (⟨S_, .f32⟩ : BufTy).Contents (Elt F)) :=
  ssa_unary ops W hW V 115 main_call6_cst_0 main_call6_v4 _ _ _ rfl (by decide +kernel) (by decide +kernel)

/-- Operation 116 writes `main_call6_v5`. -/
theorem e116 : (after ops V (Proc.devRef .tc main_call6_v5) : (⟨S131072x128, .f32⟩ : BufTy).Contents (Elt F)) = (Host.divf) (after ops V (Proc.devRef .tc main_call6_v4) : (⟨S131072x128, .f32⟩ : BufTy).Contents (Elt F)) (after ops V (Proc.devRef .tc main_call6_v3) : (⟨S131072x128, .f32⟩ : BufTy).Contents (Elt F)) :=
  ssa_binary ops W hW V 116 main_call6_v4 main_call6_v3 main_call6_v5 _ _ _ _ rfl (by decide +kernel) (by decide +kernel) (by decide +kernel)

/-- Operation 117 writes `main_v58`. -/
theorem e117 : (after ops V (Proc.devRef .tc main_v58) : (⟨S131072x128, .f32⟩ : BufTy).Contents (Elt F)) = (mulf) (after ops V (Proc.devRef .tc main_v57) : (⟨S131072x128, .f32⟩ : BufTy).Contents (Elt F)) (after ops V (Proc.devRef .tc main_call6_v5) : (⟨S131072x128, .f32⟩ : BufTy).Contents (Elt F)) :=
  ssa_binary ops W hW V 117 main_v57 main_call6_v5 main_v58 _ _ _ _ rfl (by decide +kernel) (by decide +kernel) (by decide +kernel)

/-- Operation 118 writes `main_v59`. -/
theorem e118 : after ops V (Proc.devRef .tc main_v59) = (addf : (⟨S131072x128, .f32⟩ : BufTy).Contents (Elt F) → (⟨S131072x128, .f32⟩ : BufTy).Contents (Elt F) → (⟨S131072x128, .f32⟩ : BufTy).Contents (Elt F)) (after ops V (Proc.devRef .tc main_arg0)) (after ops V (Proc.devRef .tc main_v58)) :=
  ssa_binary ops W hW V 118 main_arg0 main_v58 main_v59 _ _ _ _ rfl (by decide +kernel) (by decide +kernel) (by decide +kernel)

/-- Operation 119 writes `main_v60`. -/
theorem e119 : after ops V (Proc.devRef .tc main_v60) = ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)) (after ops V (Proc.devRef .tc main_arg18)) :=
  ssa_unary ops W hW V 119 main_arg18 main_v60 _ _ _ rfl (by decide +kernel) (by decide +kernel)

/-- Operation 120 writes `main_v61`. -/
theorem e120 : after ops V (Proc.devRef .tc main_v61) = shapeCast S128x128 (after ops V (Proc.devRef .tc main_v60)) shapeCasts_S1x1x128x128_S128x128 :=
  ssa_reshape ops W hW V 120 main_v60 main_v61 rfl shapeCasts_S1x1x128x128_S128x128 _ _ rfl (by decide +kernel) (by decide +kernel)

/-- Operation 121 writes `main_v62`. -/
theorem e121 : after ops V (Proc.devRef .tc main_v62) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v59)) (after ops V (Proc.devRef .tc main_v61)) :=
  ssa_binary ops W hW V 121 main_v59 main_v61 main_v62 _ _ _ _ rfl (by decide +kernel) (by decide +kernel) (by decide +kernel)

/-- Operation 122 writes `main_v63`. -/
theorem e122 : after ops V (Proc.devRef .tc main_v63) = ((extractStridedSlice S1x1x128 ![0, 0, 0] · slices_S2x2x128_S1x1x128_0_0_0) : (⟨S2x2x128, .f32⟩ : BufTy).Contents (Elt F) → (⟨S1x1x128, .f32⟩ : BufTy).Contents (Elt F)) (after ops V (Proc.devRef .tc main_arg19)) :=
  ssa_unary ops W hW V 122 main_arg19 main_v63 _ _ _ rfl (by decide +kernel) (by decide +kernel)

/-- Operation 123 writes `main_v64`. -/
theorem e123 : after ops V (Proc.devRef .tc main_v64) = shapeCast S128 (after ops V (Proc.devRef .tc main_v63)) shapeCasts_S1x1x128_S128 :=
  ssa_reshape ops W hW V 123 main_v63 main_v64 rfl shapeCasts_S1x1x128_S128 _ _ rfl (by decide +kernel) (by decide +kernel)

/-- Operation 124 writes `main_v65`. -/
theorem e124 : after ops V (Proc.devRef .tc main_v65) = (broadcastInDim S1x128 ![1] bcast_S128_S1x128_1 : (⟨S128, .f32⟩ : BufTy).Contents (Elt F) → (⟨S1x128, .f32⟩ : BufTy).Contents (Elt F)) (after ops V (Proc.devRef .tc main_v64)) :=
  ssa_unary ops W hW V 124 main_v64 main_v65 _ _ _ rfl (by decide +kernel) (by decide +kernel)

/-- Operation 125 writes `main_v66`. -/
theorem e125 : after ops V (Proc.devRef .tc main_v66) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v65)) :=
  ssa_unary ops W hW V 125 main_v65 main_v66 _ _ _ rfl (by decide +kernel) (by decide +kernel)

/-- Operation 126 writes `main_v67`. -/
theorem e126 : after ops V (Proc.devRef .tc main_v67) = (addf : (⟨S131072x128, .f32⟩ : BufTy).Contents (Elt F) → (⟨S131072x128, .f32⟩ : BufTy).Contents (Elt F) → (⟨S131072x128, .f32⟩ : BufTy).Contents (Elt F)) (after ops V (Proc.devRef .tc main_v62)) (after ops V (Proc.devRef .tc main_v66)) :=
  ssa_binary ops W hW V 126 main_v62 main_v66 main_v67 _ _ _ _ rfl (by decide +kernel) (by decide +kernel) (by decide +kernel)

/-- Operation 127 writes `main_call7_v0`. -/
theorem e127 : (after ops V (Proc.devRef .tc main_call7_v0) : (⟨S131072x128, .f32⟩ : BufTy).Contents (Elt F)) = (Host.negf) (after ops V (Proc.devRef .tc main_v67) : (⟨S131072x128, .f32⟩ : BufTy).Contents (Elt F)) :=
  ssa_unary ops W hW V 127 main_v67 main_call7_v0 _ _ _ rfl (by decide +kernel) (by decide +kernel)

/-- Operation 128 writes `main_call7_v1`. -/
theorem e128 : (after ops V (Proc.devRef .tc main_call7_v1) : (⟨S131072x128, .f32⟩ : BufTy).Contents (Elt F)) = (Host.exp) (after ops V (Proc.devRef .tc main_call7_v0) : (⟨S131072x128, .f32⟩ : BufTy).Contents (Elt F)) :=
  ssa_unary ops W hW V 128 main_call7_v0 main_call7_v1 _ _ _ rfl (by decide +kernel) (by decide +kernel)

/-- Operation 129 writes `main_call7_cst`. -/
theorem e129 : (after ops V (Proc.devRef .tc main_call7_cst) : (⟨S_, .f32⟩ : BufTy).Contents (Elt F)) = (constant S_ .f32 0x3F800000#32) :=
  ssa_nullary ops W hW V 129 main_call7_cst _ _ rfl (by decide +kernel)

/-- Operation 130 writes `main_call7_v2`. -/
theorem e130 : (after ops V (Proc.devRef .tc main_call7_v2) : (⟨S131072x128, .f32⟩ : BufTy).Contents (Elt F)) = ((broadcastInDim S131072x128 ![] bcast_S_S131072x128)) (after ops V (Proc.devRef .tc main_call7_cst) : (⟨S_, .f32⟩ : BufTy).Contents (Elt F)) :=
  ssa_unary ops W hW V 130 main_call7_cst main_call7_v2 _ _ _ rfl (by decide +kernel) (by decide +kernel)

/-- Operation 131 writes `main_call7_v3`. -/
theorem e131 : (after ops V (Proc.devRef .tc main_call7_v3) : (⟨S131072x128, .f32⟩ : BufTy).Contents (Elt F)) = (addf) (after ops V (Proc.devRef .tc main_call7_v2) : (⟨S131072x128, .f32⟩ : BufTy).Contents (Elt F)) (after ops V (Proc.devRef .tc main_call7_v1) : (⟨S131072x128, .f32⟩ : BufTy).Contents (Elt F)) :=
  ssa_binary ops W hW V 131 main_call7_v2 main_call7_v1 main_call7_v3 _ _ _ _ rfl (by decide +kernel) (by decide +kernel) (by decide +kernel)

/-- Operation 132 writes `main_call7_cst_0`. -/
theorem e132 : (after ops V (Proc.devRef .tc main_call7_cst_0) : (⟨S_, .f32⟩ : BufTy).Contents (Elt F)) = (constant S_ .f32 0x3F800000#32) :=
  ssa_nullary ops W hW V 132 main_call7_cst_0 _ _ rfl (by decide +kernel)

/-- Operation 133 writes `main_call7_v4`. -/
theorem e133 : (after ops V (Proc.devRef .tc main_call7_v4) : (⟨S131072x128, .f32⟩ : BufTy).Contents (Elt F)) = ((broadcastInDim S131072x128 ![] bcast_S_S131072x128)) (after ops V (Proc.devRef .tc main_call7_cst_0) : (⟨S_, .f32⟩ : BufTy).Contents (Elt F)) :=
  ssa_unary ops W hW V 133 main_call7_cst_0 main_call7_v4 _ _ _ rfl (by decide +kernel) (by decide +kernel)

/-- Operation 134 writes `main_call7_v5`. -/
theorem e134 : (after ops V (Proc.devRef .tc main_call7_v5) : (⟨S131072x128, .f32⟩ : BufTy).Contents (Elt F)) = (Host.divf) (after ops V (Proc.devRef .tc main_call7_v4) : (⟨S131072x128, .f32⟩ : BufTy).Contents (Elt F)) (after ops V (Proc.devRef .tc main_call7_v3) : (⟨S131072x128, .f32⟩ : BufTy).Contents (Elt F)) :=
  ssa_binary ops W hW V 134 main_call7_v4 main_call7_v3 main_call7_v5 _ _ _ _ rfl (by decide +kernel) (by decide +kernel) (by decide +kernel)

/-- Operation 135 writes `main_v68`. -/
theorem e135 : (after ops V (Proc.devRef .tc main_v68) : (⟨S131072x128, .f32⟩ : BufTy).Contents (Elt F)) = (mulf) (after ops V (Proc.devRef .tc main_v67) : (⟨S131072x128, .f32⟩ : BufTy).Contents (Elt F)) (after ops V (Proc.devRef .tc main_call7_v5) : (⟨S131072x128, .f32⟩ : BufTy).Contents (Elt F)) :=
  ssa_binary ops W hW V 135 main_v67 main_call7_v5 main_v68 _ _ _ _ rfl (by decide +kernel) (by decide +kernel) (by decide +kernel)

/-- Operation 136 writes `main_v69`. -/
theorem e136 : after ops V (Proc.devRef .tc main_v69) = ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)) (after ops V (Proc.devRef .tc main_arg18)) :=
  ssa_unary ops W hW V 136 main_arg18 main_v69 _ _ _ rfl (by decide +kernel) (by decide +kernel)

/-- Operation 137 writes `main_v70`. -/
theorem e137 : after ops V (Proc.devRef .tc main_v70) = shapeCast S128x128 (after ops V (Proc.devRef .tc main_v69)) shapeCasts_S1x1x128x128_S128x128 :=
  ssa_reshape ops W hW V 137 main_v69 main_v70 rfl shapeCasts_S1x1x128x128_S128x128 _ _ rfl (by decide +kernel) (by decide +kernel)

/-- Operation 138 writes `main_v71`. -/
theorem e138 : after ops V (Proc.devRef .tc main_v71) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v68)) (after ops V (Proc.devRef .tc main_v70)) :=
  ssa_binary ops W hW V 138 main_v68 main_v70 main_v71 _ _ _ _ rfl (by decide +kernel) (by decide +kernel) (by decide +kernel)

/-- Operation 139 writes `main_v72`. -/
theorem e139 : after ops V (Proc.devRef .tc main_v72) = ((extractStridedSlice S1x1x128 ![0, 1, 0] · slices_S2x2x128_S1x1x128_0_1_0) : (⟨S2x2x128, .f32⟩ : BufTy).Contents (Elt F) → (⟨S1x1x128, .f32⟩ : BufTy).Contents (Elt F)) (after ops V (Proc.devRef .tc main_arg19)) :=
  ssa_unary ops W hW V 139 main_arg19 main_v72 _ _ _ rfl (by decide +kernel) (by decide +kernel)

/-- Operation 140 writes `main_v73`. -/
theorem e140 : after ops V (Proc.devRef .tc main_v73) = shapeCast S128 (after ops V (Proc.devRef .tc main_v72)) shapeCasts_S1x1x128_S128 :=
  ssa_reshape ops W hW V 140 main_v72 main_v73 rfl shapeCasts_S1x1x128_S128 _ _ rfl (by decide +kernel) (by decide +kernel)

/-- Operation 141 writes `main_v74`. -/
theorem e141 : after ops V (Proc.devRef .tc main_v74) = (broadcastInDim S1x128 ![1] bcast_S128_S1x128_1 : (⟨S128, .f32⟩ : BufTy).Contents (Elt F) → (⟨S1x128, .f32⟩ : BufTy).Contents (Elt F)) (after ops V (Proc.devRef .tc main_v73)) :=
  ssa_unary ops W hW V 141 main_v73 main_v74 _ _ _ rfl (by decide +kernel) (by decide +kernel)

/-- Operation 142 writes `main_v75`. -/
theorem e142 : after ops V (Proc.devRef .tc main_v75) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v74)) :=
  ssa_unary ops W hW V 142 main_v74 main_v75 _ _ _ rfl (by decide +kernel) (by decide +kernel)

/-- Operation 143 writes `main_v76`. -/
theorem e143 : after ops V (Proc.devRef .tc main_v76) = (addf : (⟨S131072x128, .f32⟩ : BufTy).Contents (Elt F) → (⟨S131072x128, .f32⟩ : BufTy).Contents (Elt F) → (⟨S131072x128, .f32⟩ : BufTy).Contents (Elt F)) (after ops V (Proc.devRef .tc main_v71)) (after ops V (Proc.devRef .tc main_v75)) :=
  ssa_binary ops W hW V 143 main_v71 main_v75 main_v76 _ _ _ _ rfl (by decide +kernel) (by decide +kernel) (by decide +kernel)

/-- Operation 144 writes `main_call8_v0`. -/
theorem e144 : (after ops V (Proc.devRef .tc main_call8_v0) : (⟨S131072x128, .f32⟩ : BufTy).Contents (Elt F)) = (Host.negf) (after ops V (Proc.devRef .tc main_v76) : (⟨S131072x128, .f32⟩ : BufTy).Contents (Elt F)) :=
  ssa_unary ops W hW V 144 main_v76 main_call8_v0 _ _ _ rfl (by decide +kernel) (by decide +kernel)

/-- Operation 145 writes `main_call8_v1`. -/
theorem e145 : (after ops V (Proc.devRef .tc main_call8_v1) : (⟨S131072x128, .f32⟩ : BufTy).Contents (Elt F)) = (Host.exp) (after ops V (Proc.devRef .tc main_call8_v0) : (⟨S131072x128, .f32⟩ : BufTy).Contents (Elt F)) :=
  ssa_unary ops W hW V 145 main_call8_v0 main_call8_v1 _ _ _ rfl (by decide +kernel) (by decide +kernel)

/-- Operation 146 writes `main_call8_cst`. -/
theorem e146 : (after ops V (Proc.devRef .tc main_call8_cst) : (⟨S_, .f32⟩ : BufTy).Contents (Elt F)) = (constant S_ .f32 0x3F800000#32) :=
  ssa_nullary ops W hW V 146 main_call8_cst _ _ rfl (by decide +kernel)

/-- Operation 147 writes `main_call8_v2`. -/
theorem e147 : (after ops V (Proc.devRef .tc main_call8_v2) : (⟨S131072x128, .f32⟩ : BufTy).Contents (Elt F)) = ((broadcastInDim S131072x128 ![] bcast_S_S131072x128)) (after ops V (Proc.devRef .tc main_call8_cst) : (⟨S_, .f32⟩ : BufTy).Contents (Elt F)) :=
  ssa_unary ops W hW V 147 main_call8_cst main_call8_v2 _ _ _ rfl (by decide +kernel) (by decide +kernel)

/-- Operation 148 writes `main_call8_v3`. -/
theorem e148 : (after ops V (Proc.devRef .tc main_call8_v3) : (⟨S131072x128, .f32⟩ : BufTy).Contents (Elt F)) = (addf) (after ops V (Proc.devRef .tc main_call8_v2) : (⟨S131072x128, .f32⟩ : BufTy).Contents (Elt F)) (after ops V (Proc.devRef .tc main_call8_v1) : (⟨S131072x128, .f32⟩ : BufTy).Contents (Elt F)) :=
  ssa_binary ops W hW V 148 main_call8_v2 main_call8_v1 main_call8_v3 _ _ _ _ rfl (by decide +kernel) (by decide +kernel) (by decide +kernel)

/-- Operation 149 writes `main_call8_cst_0`. -/
theorem e149 : (after ops V (Proc.devRef .tc main_call8_cst_0) : (⟨S_, .f32⟩ : BufTy).Contents (Elt F)) = (constant S_ .f32 0x3F800000#32) :=
  ssa_nullary ops W hW V 149 main_call8_cst_0 _ _ rfl (by decide +kernel)

/-- Operation 150 writes `main_call8_v4`. -/
theorem e150 : (after ops V (Proc.devRef .tc main_call8_v4) : (⟨S131072x128, .f32⟩ : BufTy).Contents (Elt F)) = ((broadcastInDim S131072x128 ![] bcast_S_S131072x128)) (after ops V (Proc.devRef .tc main_call8_cst_0) : (⟨S_, .f32⟩ : BufTy).Contents (Elt F)) :=
  ssa_unary ops W hW V 150 main_call8_cst_0 main_call8_v4 _ _ _ rfl (by decide +kernel) (by decide +kernel)

/-- Operation 151 writes `main_call8_v5`. -/
theorem e151 : (after ops V (Proc.devRef .tc main_call8_v5) : (⟨S131072x128, .f32⟩ : BufTy).Contents (Elt F)) = (Host.divf) (after ops V (Proc.devRef .tc main_call8_v4) : (⟨S131072x128, .f32⟩ : BufTy).Contents (Elt F)) (after ops V (Proc.devRef .tc main_call8_v3) : (⟨S131072x128, .f32⟩ : BufTy).Contents (Elt F)) :=
  ssa_binary ops W hW V 151 main_call8_v4 main_call8_v3 main_call8_v5 _ _ _ _ rfl (by decide +kernel) (by decide +kernel) (by decide +kernel)

/-- Operation 152 writes `main_v77`. -/
theorem e152 : (after ops V (Proc.devRef .tc main_v77) : (⟨S131072x128, .f32⟩ : BufTy).Contents (Elt F)) = (mulf) (after ops V (Proc.devRef .tc main_v76) : (⟨S131072x128, .f32⟩ : BufTy).Contents (Elt F)) (after ops V (Proc.devRef .tc main_call8_v5) : (⟨S131072x128, .f32⟩ : BufTy).Contents (Elt F)) :=
  ssa_binary ops W hW V 152 main_v76 main_call8_v5 main_v77 _ _ _ _ rfl (by decide +kernel) (by decide +kernel) (by decide +kernel)

/-- Operation 153 writes `main_v78`. -/
theorem e153 : after ops V (Proc.devRef .tc main_v78) = (addf : (⟨S131072x128, .f32⟩ : BufTy).Contents (Elt F) → (⟨S131072x128, .f32⟩ : BufTy).Contents (Elt F) → (⟨S131072x128, .f32⟩ : BufTy).Contents (Elt F)) (after ops V (Proc.devRef .tc main_v59)) (after ops V (Proc.devRef .tc main_v77)) :=
  ssa_binary ops W hW V 153 main_v59 main_v77 main_v78 _ _ _ _ rfl (by decide +kernel) (by decide +kernel) (by decide +kernel)

/-- Operation 154 writes `main_v79`. -/
theorem e154 : after ops V (Proc.devRef .tc main_v79) = ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)) (after ops V (Proc.devRef .tc main_arg18)) :=
  ssa_unary ops W hW V 154 main_arg18 main_v79 _ _ _ rfl (by decide +kernel) (by decide +kernel)

/-- Operation 155 writes `main_v80`. -/
theorem e155 : after ops V (Proc.devRef .tc main_v80) = shapeCast S128x128 (after ops V (Proc.devRef .tc main_v79)) shapeCasts_S1x1x128x128_S128x128 :=
  ssa_reshape ops W hW V 155 main_v79 main_v80 rfl shapeCasts_S1x1x128x128_S128x128 _ _ rfl (by decide +kernel) (by decide +kernel)

/-- Operation 156 writes `main_v81`. -/
theorem e156 : after ops V (Proc.devRef .tc main_v81) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v78)) (after ops V (Proc.devRef .tc main_v80)) :=
  ssa_binary ops W hW V 156 main_v78 main_v80 main_v81 _ _ _ _ rfl (by decide +kernel) (by decide +kernel) (by decide +kernel)

/-- Operation 157 writes `main_v82`. -/
theorem e157 : after ops V (Proc.devRef .tc main_v82) = ((extractStridedSlice S1x1x128 ![1, 0, 0] · slices_S2x2x128_S1x1x128_1_0_0) : (⟨S2x2x128, .f32⟩ : BufTy).Contents (Elt F) → (⟨S1x1x128, .f32⟩ : BufTy).Contents (Elt F)) (after ops V (Proc.devRef .tc main_arg19)) :=
  ssa_unary ops W hW V 157 main_arg19 main_v82 _ _ _ rfl (by decide +kernel) (by decide +kernel)

/-- Operation 158 writes `main_v83`. -/
theorem e158 : after ops V (Proc.devRef .tc main_v83) = shapeCast S128 (after ops V (Proc.devRef .tc main_v82)) shapeCasts_S1x1x128_S128 :=
  ssa_reshape ops W hW V 158 main_v82 main_v83 rfl shapeCasts_S1x1x128_S128 _ _ rfl (by decide +kernel) (by decide +kernel)

/-- Operation 159 writes `main_v84`. -/
theorem e159 : after ops V (Proc.devRef .tc main_v84) = (broadcastInDim S1x128 ![1] bcast_S128_S1x128_1 : (⟨S128, .f32⟩ : BufTy).Contents (Elt F) → (⟨S1x128, .f32⟩ : BufTy).Contents (Elt F)) (after ops V (Proc.devRef .tc main_v83)) :=
  ssa_unary ops W hW V 159 main_v83 main_v84 _ _ _ rfl (by decide +kernel) (by decide +kernel)

/-- Operation 160 writes `main_v85`. -/
theorem e160 : after ops V (Proc.devRef .tc main_v85) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v84)) :=
  ssa_unary ops W hW V 160 main_v84 main_v85 _ _ _ rfl (by decide +kernel) (by decide +kernel)

/-- Operation 161 writes `main_v86`. -/
theorem e161 : after ops V (Proc.devRef .tc main_v86) = (addf : (⟨S131072x128, .f32⟩ : BufTy).Contents (Elt F) → (⟨S131072x128, .f32⟩ : BufTy).Contents (Elt F) → (⟨S131072x128, .f32⟩ : BufTy).Contents (Elt F)) (after ops V (Proc.devRef .tc main_v81)) (after ops V (Proc.devRef .tc main_v85)) :=
  ssa_binary ops W hW V 161 main_v81 main_v85 main_v86 _ _ _ _ rfl (by decide +kernel) (by decide +kernel) (by decide +kernel)

/-- Operation 162 writes `main_call9_v0`. -/
theorem e162 : (after ops V (Proc.devRef .tc main_call9_v0) : (⟨S131072x128, .f32⟩ : BufTy).Contents (Elt F)) = (Host.negf) (after ops V (Proc.devRef .tc main_v86) : (⟨S131072x128, .f32⟩ : BufTy).Contents (Elt F)) :=
  ssa_unary ops W hW V 162 main_v86 main_call9_v0 _ _ _ rfl (by decide +kernel) (by decide +kernel)

/-- Operation 163 writes `main_call9_v1`. -/
theorem e163 : (after ops V (Proc.devRef .tc main_call9_v1) : (⟨S131072x128, .f32⟩ : BufTy).Contents (Elt F)) = (Host.exp) (after ops V (Proc.devRef .tc main_call9_v0) : (⟨S131072x128, .f32⟩ : BufTy).Contents (Elt F)) :=
  ssa_unary ops W hW V 163 main_call9_v0 main_call9_v1 _ _ _ rfl (by decide +kernel) (by decide +kernel)

/-- Operation 164 writes `main_call9_cst`. -/
theorem e164 : (after ops V (Proc.devRef .tc main_call9_cst) : (⟨S_, .f32⟩ : BufTy).Contents (Elt F)) = (constant S_ .f32 0x3F800000#32) :=
  ssa_nullary ops W hW V 164 main_call9_cst _ _ rfl (by decide +kernel)

/-- Operation 165 writes `main_call9_v2`. -/
theorem e165 : (after ops V (Proc.devRef .tc main_call9_v2) : (⟨S131072x128, .f32⟩ : BufTy).Contents (Elt F)) = ((broadcastInDim S131072x128 ![] bcast_S_S131072x128)) (after ops V (Proc.devRef .tc main_call9_cst) : (⟨S_, .f32⟩ : BufTy).Contents (Elt F)) :=
  ssa_unary ops W hW V 165 main_call9_cst main_call9_v2 _ _ _ rfl (by decide +kernel) (by decide +kernel)

/-- Operation 166 writes `main_call9_v3`. -/
theorem e166 : (after ops V (Proc.devRef .tc main_call9_v3) : (⟨S131072x128, .f32⟩ : BufTy).Contents (Elt F)) = (addf) (after ops V (Proc.devRef .tc main_call9_v2) : (⟨S131072x128, .f32⟩ : BufTy).Contents (Elt F)) (after ops V (Proc.devRef .tc main_call9_v1) : (⟨S131072x128, .f32⟩ : BufTy).Contents (Elt F)) :=
  ssa_binary ops W hW V 166 main_call9_v2 main_call9_v1 main_call9_v3 _ _ _ _ rfl (by decide +kernel) (by decide +kernel) (by decide +kernel)

/-- Operation 167 writes `main_call9_cst_0`. -/
theorem e167 : (after ops V (Proc.devRef .tc main_call9_cst_0) : (⟨S_, .f32⟩ : BufTy).Contents (Elt F)) = (constant S_ .f32 0x3F800000#32) :=
  ssa_nullary ops W hW V 167 main_call9_cst_0 _ _ rfl (by decide +kernel)

/-- Operation 168 writes `main_call9_v4`. -/
theorem e168 : (after ops V (Proc.devRef .tc main_call9_v4) : (⟨S131072x128, .f32⟩ : BufTy).Contents (Elt F)) = ((broadcastInDim S131072x128 ![] bcast_S_S131072x128)) (after ops V (Proc.devRef .tc main_call9_cst_0) : (⟨S_, .f32⟩ : BufTy).Contents (Elt F)) :=
  ssa_unary ops W hW V 168 main_call9_cst_0 main_call9_v4 _ _ _ rfl (by decide +kernel) (by decide +kernel)

/-- Operation 169 writes `main_call9_v5`. -/
theorem e169 : (after ops V (Proc.devRef .tc main_call9_v5) : (⟨S131072x128, .f32⟩ : BufTy).Contents (Elt F)) = (Host.divf) (after ops V (Proc.devRef .tc main_call9_v4) : (⟨S131072x128, .f32⟩ : BufTy).Contents (Elt F)) (after ops V (Proc.devRef .tc main_call9_v3) : (⟨S131072x128, .f32⟩ : BufTy).Contents (Elt F)) :=
  ssa_binary ops W hW V 169 main_call9_v4 main_call9_v3 main_call9_v5 _ _ _ _ rfl (by decide +kernel) (by decide +kernel) (by decide +kernel)

/-- Operation 170 writes `main_v87`. -/
theorem e170 : (after ops V (Proc.devRef .tc main_v87) : (⟨S131072x128, .f32⟩ : BufTy).Contents (Elt F)) = (mulf) (after ops V (Proc.devRef .tc main_v86) : (⟨S131072x128, .f32⟩ : BufTy).Contents (Elt F)) (after ops V (Proc.devRef .tc main_call9_v5) : (⟨S131072x128, .f32⟩ : BufTy).Contents (Elt F)) :=
  ssa_binary ops W hW V 170 main_v86 main_call9_v5 main_v87 _ _ _ _ rfl (by decide +kernel) (by decide +kernel) (by decide +kernel)

/-- Operation 171 writes `main_v88`. -/
theorem e171 : after ops V (Proc.devRef .tc main_v88) = ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)) (after ops V (Proc.devRef .tc main_arg18)) :=
  ssa_unary ops W hW V 171 main_arg18 main_v88 _ _ _ rfl (by decide +kernel) (by decide +kernel)

/-- Operation 172 writes `main_v89`. -/
theorem e172 : after ops V (Proc.devRef .tc main_v89) = shapeCast S128x128 (after ops V (Proc.devRef .tc main_v88)) shapeCasts_S1x1x128x128_S128x128 :=
  ssa_reshape ops W hW V 172 main_v88 main_v89 rfl shapeCasts_S1x1x128x128_S128x128 _ _ rfl (by decide +kernel) (by decide +kernel)

/-- Operation 173 writes `main_v90`. -/
theorem e173 : after ops V (Proc.devRef .tc main_v90) = ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)) (after ops V (Proc.devRef .tc main_v87)) (after ops V (Proc.devRef .tc main_v89)) :=
  ssa_binary ops W hW V 173 main_v87 main_v89 main_v90 _ _ _ _ rfl (by decide +kernel) (by decide +kernel) (by decide +kernel)

/-- Operation 174 writes `main_v91`. -/
theorem e174 : after ops V (Proc.devRef .tc main_v91) = ((extractStridedSlice S1x1x128 ![1, 1, 0] · slices_S2x2x128_S1x1x128_1_1_0) : (⟨S2x2x128, .f32⟩ : BufTy).Contents (Elt F) → (⟨S1x1x128, .f32⟩ : BufTy).Contents (Elt F)) (after ops V (Proc.devRef .tc main_arg19)) :=
  ssa_unary ops W hW V 174 main_arg19 main_v91 _ _ _ rfl (by decide +kernel) (by decide +kernel)

/-- Operation 175 writes `main_v92`. -/
theorem e175 : after ops V (Proc.devRef .tc main_v92) = shapeCast S128 (after ops V (Proc.devRef .tc main_v91)) shapeCasts_S1x1x128_S128 :=
  ssa_reshape ops W hW V 175 main_v91 main_v92 rfl shapeCasts_S1x1x128_S128 _ _ rfl (by decide +kernel) (by decide +kernel)

/-- Operation 176 writes `main_v93`. -/
theorem e176 : after ops V (Proc.devRef .tc main_v93) = (broadcastInDim S1x128 ![1] bcast_S128_S1x128_1 : (⟨S128, .f32⟩ : BufTy).Contents (Elt F) → (⟨S1x128, .f32⟩ : BufTy).Contents (Elt F)) (after ops V (Proc.devRef .tc main_v92)) :=
  ssa_unary ops W hW V 176 main_v92 main_v93 _ _ _ rfl (by decide +kernel) (by decide +kernel)

/-- Operation 177 writes `main_v94`. -/
theorem e177 : after ops V (Proc.devRef .tc main_v94) = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v93)) :=
  ssa_unary ops W hW V 177 main_v93 main_v94 _ _ _ rfl (by decide +kernel) (by decide +kernel)

/-- Operation 178 writes `main_v95`. -/
theorem e178 : after ops V (Proc.devRef .tc main_v95) = (addf : (⟨S131072x128, .f32⟩ : BufTy).Contents (Elt F) → (⟨S131072x128, .f32⟩ : BufTy).Contents (Elt F) → (⟨S131072x128, .f32⟩ : BufTy).Contents (Elt F)) (after ops V (Proc.devRef .tc main_v90)) (after ops V (Proc.devRef .tc main_v94)) :=
  ssa_binary ops W hW V 178 main_v90 main_v94 main_v95 _ _ _ _ rfl (by decide +kernel) (by decide +kernel) (by decide +kernel)

/-- Operation 179 writes `main_call10_v0`. -/
theorem e179 : (after ops V (Proc.devRef .tc main_call10_v0) : (⟨S131072x128, .f32⟩ : BufTy).Contents (Elt F)) = (Host.negf) (after ops V (Proc.devRef .tc main_v95) : (⟨S131072x128, .f32⟩ : BufTy).Contents (Elt F)) :=
  ssa_unary ops W hW V 179 main_v95 main_call10_v0 _ _ _ rfl (by decide +kernel) (by decide +kernel)

/-- Operation 180 writes `main_call10_v1`. -/
theorem e180 : (after ops V (Proc.devRef .tc main_call10_v1) : (⟨S131072x128, .f32⟩ : BufTy).Contents (Elt F)) = (Host.exp) (after ops V (Proc.devRef .tc main_call10_v0) : (⟨S131072x128, .f32⟩ : BufTy).Contents (Elt F)) :=
  ssa_unary ops W hW V 180 main_call10_v0 main_call10_v1 _ _ _ rfl (by decide +kernel) (by decide +kernel)

/-- Operation 181 writes `main_call10_cst`. -/
theorem e181 : (after ops V (Proc.devRef .tc main_call10_cst) : (⟨S_, .f32⟩ : BufTy).Contents (Elt F)) = (constant S_ .f32 0x3F800000#32) :=
  ssa_nullary ops W hW V 181 main_call10_cst _ _ rfl (by decide +kernel)

/-- Operation 182 writes `main_call10_v2`. -/
theorem e182 : (after ops V (Proc.devRef .tc main_call10_v2) : (⟨S131072x128, .f32⟩ : BufTy).Contents (Elt F)) = ((broadcastInDim S131072x128 ![] bcast_S_S131072x128)) (after ops V (Proc.devRef .tc main_call10_cst) : (⟨S_, .f32⟩ : BufTy).Contents (Elt F)) :=
  ssa_unary ops W hW V 182 main_call10_cst main_call10_v2 _ _ _ rfl (by decide +kernel) (by decide +kernel)

/-- Operation 183 writes `main_call10_v3`. -/
theorem e183 : (after ops V (Proc.devRef .tc main_call10_v3) : (⟨S131072x128, .f32⟩ : BufTy).Contents (Elt F)) = (addf) (after ops V (Proc.devRef .tc main_call10_v2) : (⟨S131072x128, .f32⟩ : BufTy).Contents (Elt F)) (after ops V (Proc.devRef .tc main_call10_v1) : (⟨S131072x128, .f32⟩ : BufTy).Contents (Elt F)) :=
  ssa_binary ops W hW V 183 main_call10_v2 main_call10_v1 main_call10_v3 _ _ _ _ rfl (by decide +kernel) (by decide +kernel) (by decide +kernel)

/-- Operation 184 writes `main_call10_cst_0`. -/
theorem e184 : (after ops V (Proc.devRef .tc main_call10_cst_0) : (⟨S_, .f32⟩ : BufTy).Contents (Elt F)) = (constant S_ .f32 0x3F800000#32) :=
  ssa_nullary ops W hW V 184 main_call10_cst_0 _ _ rfl (by decide +kernel)

/-- Operation 185 writes `main_call10_v4`. -/
theorem e185 : (after ops V (Proc.devRef .tc main_call10_v4) : (⟨S131072x128, .f32⟩ : BufTy).Contents (Elt F)) = ((broadcastInDim S131072x128 ![] bcast_S_S131072x128)) (after ops V (Proc.devRef .tc main_call10_cst_0) : (⟨S_, .f32⟩ : BufTy).Contents (Elt F)) :=
  ssa_unary ops W hW V 185 main_call10_cst_0 main_call10_v4 _ _ _ rfl (by decide +kernel) (by decide +kernel)

/-- Operation 186 writes `main_call10_v5`. -/
theorem e186 : (after ops V (Proc.devRef .tc main_call10_v5) : (⟨S131072x128, .f32⟩ : BufTy).Contents (Elt F)) = (Host.divf) (after ops V (Proc.devRef .tc main_call10_v4) : (⟨S131072x128, .f32⟩ : BufTy).Contents (Elt F)) (after ops V (Proc.devRef .tc main_call10_v3) : (⟨S131072x128, .f32⟩ : BufTy).Contents (Elt F)) :=
  ssa_binary ops W hW V 186 main_call10_v4 main_call10_v3 main_call10_v5 _ _ _ _ rfl (by decide +kernel) (by decide +kernel) (by decide +kernel)

/-- Operation 187 writes `main_v96`. -/
theorem e187 : (after ops V (Proc.devRef .tc main_v96) : (⟨S131072x128, .f32⟩ : BufTy).Contents (Elt F)) = (mulf) (after ops V (Proc.devRef .tc main_v95) : (⟨S131072x128, .f32⟩ : BufTy).Contents (Elt F)) (after ops V (Proc.devRef .tc main_call10_v5) : (⟨S131072x128, .f32⟩ : BufTy).Contents (Elt F)) :=
  ssa_binary ops W hW V 187 main_v95 main_call10_v5 main_v96 _ _ _ _ rfl (by decide +kernel) (by decide +kernel) (by decide +kernel)

/-- Operation 188 writes `main_v97`. -/
theorem e188 : after ops V (Proc.devRef .tc main_v97) = (addf : (⟨S131072x128, .f32⟩ : BufTy).Contents (Elt F) → (⟨S131072x128, .f32⟩ : BufTy).Contents (Elt F) → (⟨S131072x128, .f32⟩ : BufTy).Contents (Elt F)) (after ops V (Proc.devRef .tc main_v78)) (after ops V (Proc.devRef .tc main_v96)) :=
  ssa_binary ops W hW V 188 main_v78 main_v96 main_v97 _ _ _ _ rfl (by decide +kernel) (by decide +kernel) (by decide +kernel)

end Cert.ReferenceIdeal.RefSsa

end
-- ==== Proof.RefFirst.lean ====
/-
  The first 70 operations of the reference, read as a value. Per edge, two biased dense layers with swish of the edge
  embedding (the second is kept for the sum at the end); stage 1 gates the first by the radial basis embedded through two
  products and projects it down with swish. Per angle, the stage-1 row named by column 1 of the index pairs (a negative
  index counted from the end) is gathered and gated by the embedded spherical basis: stage 2. The angles' rows are summed
  into the edge named by column 0 of the index pairs, projected up with swish, and added to the second dense layer.
-/
import proofs.«412852_j76192719831249_3_alg».proof.Proof.RefSsa
import proofs.«412852_j76192719831249_3_alg».proof.Proof.DenseStages

noncomputable section

namespace Cert.ReferenceIdeal.RefValue

open Cert.ReferenceIdeal Cert.ReferenceIdeal.Gen Cert.ReferenceIdeal.RefRun Cert.ReferenceIdeal.RefSsa Idealize.ShloMosaic
open Idealize.ShloMosaic.TcCoe Idealize.ShloMosaic.StableHlo Idealize.ShloMosaic.StableHlo.Ssa Idealize.ShloMosaic.ValueIdx
open Idealize.ShloMosaic.Rowwise Cert.Dense

/-- Column 1 of the index pairs, as a vector: the row each angle gathers. -/
def idxCol1 (ids : IVec S1048576x2 32) : IVec S1048576 32 :=
  shapeCast S1048576 (extractStridedSlice S1048576x1 ![0, 1] ids slices_S1048576x2_S1048576x1_0_1) shapeCasts_S1048576x1_S1048576

/-- Column 0 of the index pairs, as a vector: the edge each angle is summed into. -/
def idxCol0 (ids : IVec S1048576x2 32) : IVec S1048576 32 :=
  shapeCast S1048576 (extractStridedSlice S1048576x1 ![0, 0] ids slices_S1048576x2_S1048576x1_0_0) shapeCasts_S1048576x1_S1048576

/-- The gather: angle `a` takes row `ids (a, 1)` of the table, a negative index wrapped by the table's height. -/
def gth (ids : IVec S1048576x2 32) (T : Mat 131072 64) : Mat 1048576 64 :=
  Host.gather gather_S131072x64_S1048576x1_S1048576x64_1_0_n_n_0_1_164 T (broadcastInDim S1048576x1 ![0] bcast_S1048576_S1048576x1_0
    (select (cmpi .slt (idxCol1 ids) (broadcastInDim S1048576 ![] bcast_S_S1048576 (constantI S_ 32 0#32))) (addi (idxCol1 ids) (broadcastInDim S1048576 ![] bcast_S_S1048576 (constantI S_ 32 131072#32))) (idxCol1 ids)))

/-- The aggregation: the angles' rows summed into a zero table at row `ids (a, 0)`. -/
def agg (ids : IVec S1048576x2 32) (U : Mat 1048576 64) : Mat 131072 64 :=
  Host.scatterAdd scatter_S131072x64_S1048576x1_S1048576x64_1_0_0_1 (broadcastInDim S131072x64 ![] bcast_S_S131072x64 (constant S_ .f32 0x00000000#32)) (broadcastInDim S1048576x1 ![0] bcast_S1048576_S1048576x1_0 (idxCol0 ids)) U

variable (V : Valuation τ sig (Elt Ideal))

local notation "𝔸" b:max => after ops V (Proc.devRef Proc.tc b)

/-! ## The pieces, each over named intermediate values

Each lemma takes the intermediate values of a stretch of operations with one equation per operation, in program order, and
concludes what the last one is. -/

/-- A biased layer before its swish: a product, the bias vector laid as a row, broadcast down the rows, added. -/
theorem affine_chain (X : Mat 131072 128) (W : Mat 128 128) (b : FVec Ideal S128 .f32) (v0 v2 v3 : Mat 131072 128) (v1 : Mat 1 128)
    (h0 : v0 = Host.dotGeneral dot_S131072x128_S128x128_S131072x128_1_0_0_1_n_n none X W)
    (h1 : v1 = broadcastInDim S1x128 ![1] bcast_S128_S1x128_1 b)
    (h2 : v2 = broadcastInDim S131072x128 ![0, 1] bcast_S1x128_S131072x128_0_1 v1)
    (h3 : v3 = addf v0 v2) : v3 = addRow (mm X W) (asRow b) := by
  subst h0 h1 h2 h3
  rw [broadcastInDim_asRow (m := 128) b bcast_S128_S1x128_1]
  refine (addf_broadcastInDim (n := 131072) (m := 128) _ (asRow b) bcast_S1x128_S131072x128_0_1).trans ?_
  exact congrArg (addRow · (asRow b)) (dotGeneral_plain (M := 131072) (K := 128) (N := 128) none X W)

/-- The host's swish, `x · (1 / (1 + exp (−x)))` with both ones broadcast from a scalar constant. -/
theorem silu_chain {n m : Nat} (h : S_.BroadcastsInDim ⟨2, ![n, m]⟩ ![]) (X c0 c1 c2 c3 c4 c5 y : Mat n m) (k k' : FVec Ideal S_ .f32)
    (h0 : c0 = Host.negf X) (h1 : c1 = Host.exp c0) (hk : k = constant S_ .f32 0x3F800000#32)
    (h2 : c2 = broadcastInDim ⟨2, ![n, m]⟩ ![] h k) (h3 : c3 = addf c2 c1) (hk' : k' = constant S_ .f32 0x3F800000#32)
    (h4 : c4 = broadcastInDim ⟨2, ![n, m]⟩ ![] h k') (h5 : c5 = Host.divf c4 c3) (h6 : y = mulf X c5) : y = swish X := by
  subst h0 h1 hk h2 h3 hk' h4 h5 h6
  exact mulf_div_exp X h

/-- The gather index and the gather: column 1 of the index pairs, negatives wrapped, as a column; then the rows it names. -/
theorem gth_chain (ids : IVec S1048576x2 32) (T : Mat 131072 64) (v15 : IVec S1048576x1 32) (v16 : IVec S1048576 32)
    (c : IVec S_ 32) (v17 : IVec S1048576 32) (v18 : IVec S1048576 1) (c' : IVec S_ 32) (v19 v20 v21 : IVec S1048576 32)
    (v22 : IVec S1048576x1 32) (v23 : Mat 1048576 64)
    (h39 : v15 = extractStridedSlice S1048576x1 ![0, 1] ids slices_S1048576x2_S1048576x1_0_1)
    (h40 : v16 = shapeCast S1048576 v15 shapeCasts_S1048576x1_S1048576)
    (h41 : c = constantI S_ 32 0#32) (h42 : v17 = broadcastInDim S1048576 ![] bcast_S_S1048576 c)
    (h43 : v18 = cmpi .slt v16 v17)
    (h44 : c' = constantI S_ 32 131072#32) (h45 : v19 = broadcastInDim S1048576 ![] bcast_S_S1048576 c')
    (h46 : v20 = addi v16 v19) (h47 : v21 = select v18 v20 v16)
    (h48 : v22 = broadcastInDim S1048576x1 ![0] bcast_S1048576_S1048576x1_0 v21)
    (h49 : v23 = Host.gather gather_S131072x64_S1048576x1_S1048576x64_1_0_n_n_0_1_164 T v22) : v23 = gth ids T := by
  subst h39 h40 h41 h42 h43 h44 h45 h46 h47 h48 h49
  rfl

/-- Stage 2 of a gathered table: the spherical basis through its two products, times the table. -/
theorem stage2_chain (S : Mat 1048576 42) (G : Mat 1048576 64) (W1 : Mat 42 8) (W2 : Mat 8 64) (v24 : Mat 1048576 8)
    (v25 v26 : Mat 1048576 64)
    (h50 : v24 = Host.dotGeneral dot_S1048576x42_S42x8_S1048576x8_1_0_0_1_n_n none S W1)
    (h51 : v25 = Host.dotGeneral dot_S1048576x8_S8x64_S1048576x64_1_0_0_1_n_n none v24 W2)
    (h52 : v26 = mulf G v25) : v26 = stage2 S G W1 W2 := by
  subst h50 h51 h52
  refine congrArg (mulf G) ?_
  refine (dotGeneral_plain (M := 1048576) (K := 8) (N := 64) none _ W2).trans ?_
  exact congrArg (mm · W2) (dotGeneral_plain (M := 1048576) (K := 42) (N := 8) none S W1)

/-- The aggregation: column 0 of the index pairs as a column, a zero table, the scatter-add. -/
theorem agg_chain (ids : IVec S1048576x2 32) (U : Mat 1048576 64) (v27 : IVec S1048576x1 32) (v28 : IVec S1048576 32)
    (z : FVec Ideal S_ .f32) (v29 : Mat 131072 64) (v30 : IVec S1048576x1 32) (v31 : Mat 131072 64)
    (h53 : v27 = extractStridedSlice S1048576x1 ![0, 0] ids slices_S1048576x2_S1048576x1_0_0)
    (h54 : v28 = shapeCast S1048576 v27 shapeCasts_S1048576x1_S1048576)
    (h55 : z = constant S_ .f32 0x00000000#32) (h56 : v29 = broadcastInDim S131072x64 ![] bcast_S_S131072x64 z)
    (h57 : v30 = broadcastInDim S1048576x1 ![0] bcast_S1048576_S1048576x1_0 v28)
    (h58 : v31 = Host.scatterAdd scatter_S131072x64_S1048576x1_S1048576x64_1_0_0_1 v29 v30 U) : v31 = agg ids U := by
  subst h53 h54 h55 h56 h57 h58
  rfl

/-! ## The milestones -/

/-- Operations 0 … 12: the dense layer that is kept for the sum at the end. -/
theorem v4_eq : (𝔸 main_v4 : Mat 131072 128) = dense (𝔸 main_arg0) (𝔸 main_arg8) (asRow (𝔸 main_arg9)) :=
  (silu_chain bcast_S_S131072x128 _ _ _ _ _ _ _ _ _ _ (e4 V) (e5 V) (e6 V) (e7 V) (e8 V) (e9 V) (e10 V) (e11 V) (e12 V)).trans
    (congrArg swish (affine_chain _ _ _ _ _ _ _ (e0 V) (e1 V) (e2 V) (e3 V)))

/-- Operations 13 … 25: the dense layer of stage 1. -/
theorem v9_eq : (𝔸 main_v9 : Mat 131072 128) = dense (𝔸 main_arg0) (𝔸 main_arg10) (asRow (𝔸 main_arg11)) :=
  (silu_chain bcast_S_S131072x128 _ _ _ _ _ _ _ _ _ _ (e17 V) (e18 V) (e19 V) (e20 V) (e21 V) (e22 V) (e23 V) (e24 V) (e25 V)).trans
    (congrArg swish (affine_chain _ _ _ _ _ _ _ (e13 V) (e14 V) (e15 V) (e16 V)))

/-- Operations 26 … 27: the radial basis through its two products. -/
theorem v11_eq : (𝔸 main_v11 : Mat 131072 128) = mm (mm (𝔸 main_arg1) (𝔸 main_arg4)) (𝔸 main_arg5) :=
  (e27 V).trans ((dotGeneral_plain (M := 131072) (K := 8) (N := 128) none _ _).trans
    (congrArg (mm · (𝔸 main_arg5)) ((e26 V).trans (dotGeneral_plain (M := 131072) (K := 6) (N := 8) none _ _))))

/-- Operations 28 … 29: the gated layer projected down. -/
theorem v13_eq : (𝔸 main_v13 : Mat 131072 64)
    = mm (mulf (dense (𝔸 main_arg0) (𝔸 main_arg10) (asRow (𝔸 main_arg11))) (mm (mm (𝔸 main_arg1) (𝔸 main_arg4)) (𝔸 main_arg5)))
        (𝔸 main_arg12) :=
  (e29 V).trans ((dotGeneral_plain (M := 131072) (K := 128) (N := 64) none _ _).trans
    (congrArg (mm · (𝔸 main_arg12)) ((e28 V).trans (congrArg₂ mulf (v9_eq V) (v11_eq V)))))

/-- Operations 30 … 38: stage 1. -/
theorem v14_eq : (𝔸 main_v14 : Mat 131072 64)
    = stage1 (𝔸 main_arg0) (𝔸 main_arg1) (𝔸 main_arg10) (asRow (𝔸 main_arg11)) (𝔸 main_arg4) (𝔸 main_arg5) (𝔸 main_arg12) :=
  (silu_chain bcast_S_S131072x64 _ _ _ _ _ _ _ _ _ _ (e30 V) (e31 V) (e32 V) (e33 V) (e34 V) (e35 V) (e36 V) (e37 V) (e38 V)).trans
    (congrArg swish (v13_eq V))

/-- Operations 39 … 49: the gather of stage 1's rows. -/
theorem v23_eq : (𝔸 main_v23 : Mat 1048576 64)
    = gth (𝔸 main_arg3) (stage1 (𝔸 main_arg0) (𝔸 main_arg1) (𝔸 main_arg10) (asRow (𝔸 main_arg11)) (𝔸 main_arg4) (𝔸 main_arg5) (𝔸 main_arg12)) :=
  (gth_chain _ _ _ _ _ _ _ _ _ _ _ _ _ (e39 V) (e40 V) (e41 V) (e42 V) (e43 V) (e44 V) (e45 V) (e46 V) (e47 V) (e48 V) (e49 V)).trans
    (congrArg (gth (𝔸 main_arg3)) (v14_eq V))

/-- Operations 50 … 52: stage 2. -/
theorem v26_eq : (𝔸 main_v26 : Mat 1048576 64)
    = stage2 (𝔸 main_arg2) (gth (𝔸 main_arg3) (stage1 (𝔸 main_arg0) (𝔸 main_arg1) (𝔸 main_arg10) (asRow (𝔸 main_arg11)) (𝔸 main_arg4) (𝔸 main_arg5) (𝔸 main_arg12)))
        (𝔸 main_arg6) (𝔸 main_arg7) :=
  (stage2_chain _ _ _ _ _ _ _ (e50 V) (e51 V) (e52 V)).trans
    (congrArg (fun G => stage2 (𝔸 main_arg2) G (𝔸 main_arg6) (𝔸 main_arg7)) (v23_eq V))

/-- Operations 53 … 58: the angles' rows summed per edge. -/
theorem v31_eq : (𝔸 main_v31 : Mat 131072 64)
    = agg (𝔸 main_arg3) (stage2 (𝔸 main_arg2) (gth (𝔸 main_arg3) (stage1 (𝔸 main_arg0) (𝔸 main_arg1) (𝔸 main_arg10) (asRow (𝔸 main_arg11)) (𝔸 main_arg4) (𝔸 main_arg5) (𝔸 main_arg12)))
        (𝔸 main_arg6) (𝔸 main_arg7)) :=
  (agg_chain _ _ _ _ _ _ _ _ (e53 V) (e54 V) (e55 V) (e56 V) (e57 V) (e58 V)).trans (congrArg (agg (𝔸 main_arg3)) (v26_eq V))

/-- Operations 59 … 68: the aggregate projected up, with swish. -/
theorem v33_eq : (𝔸 main_v33 : Mat 131072 128)
    = swish (mm (agg (𝔸 main_arg3) (stage2 (𝔸 main_arg2) (gth (𝔸 main_arg3) (stage1 (𝔸 main_arg0) (𝔸 main_arg1) (𝔸 main_arg10) (asRow (𝔸 main_arg11)) (𝔸 main_arg4) (𝔸 main_arg5) (𝔸 main_arg12)))
        (𝔸 main_arg6) (𝔸 main_arg7))) (𝔸 main_arg13)) :=
  (silu_chain bcast_S_S131072x128 _ _ _ _ _ _ _ _ _ _ (e60 V) (e61 V) (e62 V) (e63 V) (e64 V) (e65 V) (e66 V) (e67 V) (e68 V)).trans
    (congrArg swish ((e59 V).trans ((dotGeneral_plain (M := 131072) (K := 64) (N := 128) none _ _).trans
      (congrArg (mm · (𝔸 main_arg13)) (v31_eq V)))))

/-- Operations 0 … 69: the second dense layer of the edge embedding plus the up-projected aggregate of stage 2 of the
    gathered stage 1. -/
theorem first_half :
    (𝔸 main_v34 : Mat 131072 128) = addf (dense (𝔸 main_arg0) (𝔸 main_arg8) (asRow (𝔸 main_arg9)))
      (swish (mm (agg (𝔸 main_arg3) (stage2 (𝔸 main_arg2) (gth (𝔸 main_arg3) (stage1 (𝔸 main_arg0) (𝔸 main_arg1) (𝔸 main_arg10) (asRow (𝔸 main_arg11)) (𝔸 main_arg4) (𝔸 main_arg5) (𝔸 main_arg12)))
        (𝔸 main_arg6) (𝔸 main_arg7))) (𝔸 main_arg13))) :=
  (e69 V).trans (congrArg₂ addf (v4_eq V) (v33_eq V))

end Cert.ReferenceIdeal.RefValue

end
-- ==== Proof.RefSecond.lean ====
/-
  The second half of the reference program, read as a value. From the sum `P` of the second edge layer and the
  up-projected aggregate it computes a residual block of two dense layers, a dense layer with a skip connection from the
  edge embedding, and two more residual blocks. A dense layer is a product with a weight matrix, a bias row broadcast down
  the rows and added, and swish spelt `x · (1 / (1 + exp (−x)))`. The residual blocks cut their weight matrices and bias
  rows out of arrays of matrices and of vectors by a unit slice and a reshape: matrix `(i, j)`, row `(i, j)` of the array.
-/
import proofs.«412852_j76192719831249_3_alg».proof.Proof.RefSsa
import proofs.«412852_j76192719831249_3_alg».proof.Proof.DenseStages

noncomputable section

open Cert.ReferenceIdeal Cert.ReferenceIdeal.Gen Cert.ReferenceIdeal.RefRun Cert.ReferenceIdeal.RefSsa Idealize.ShloMosaic
  Idealize.ShloMosaic.TcCoe Idealize.ShloMosaic.StableHlo Idealize.ShloMosaic.StableHlo.Ssa Idealize.ShloMosaic.ValueIdx
  Idealize.ShloMosaic.Rowwise Cert.Dense

namespace Cert.ReferenceIdeal.RefValue.Second

/-! ## Slices of the weight and bias arrays -/

/-- The unit slice at `(i, j, 0, 0)` of an `a × b` array of `128 × 128` matrices, reshaped to a matrix, is matrix
    `(i, j)` of the array: entry `(p, q)` of the reshape sits at row-major position `128 p + q` of the slice, which is
    its entry `(0, 0, p, q)`, the array's entry `(i, j, p, q)`. -/
theorem slab_of_slice {a b : Nat} (W : FVec Ideal ⟨4, ![a, b, 128, 128]⟩ .f32) (i : Fin a) (j : Fin b)
    (h₁ : (⟨4, ![a, b, 128, 128]⟩ : Shape).Slices ![i.val, j.val, 0, 0] ⟨4, ![1, 1, 128, 128]⟩)
    (h₂ : (⟨4, ![1, 1, 128, 128]⟩ : Shape).ShapeCasts ⟨2, ![128, 128]⟩) :
    shapeCast ⟨2, ![128, 128]⟩ (extractStridedSlice ⟨4, ![1, 1, 128, 128]⟩ ![i.val, j.val, 0, 0] W h₁) h₂ = slab W i j := by
  funext y
  obtain ⟨p, q, rfl⟩ : ∃ (p : Fin 128) (q : Fin 128), y = ix2 p q := ⟨y 0, y 1, eq_ix2 y⟩
  refine (shapeCast_apply _ h₂ (ix2 p q) (ix4 (0 : Fin 1) (0 : Fin 1) p q) ?_).trans ?_
  · rw [Shape.rowMajor_val_four, Shape.rowMajor_val_two]
    show ((0 * 1 + 0) * 128 + p.val) * 128 + q.val = p.val * 128 + q.val
    omega
  · refine extractStridedSlice_apply _ W h₁ (ix4 (0 : Fin 1) (0 : Fin 1) p q) (ix4 i j p q) fun ax => ?_
    match ax with
    | ⟨0, _⟩ => show i.val = i.val + 0; rfl
    | ⟨1, _⟩ => show j.val = j.val + 0; rfl
    | ⟨2, _⟩ => show p.val = 0 + p.val; omega
    | ⟨3, _⟩ => show q.val = 0 + q.val; omega

/-- The unit slice at `(i, j, 0)` of an `a × b` array of vectors of 128 entries, reshaped to a vector and laid along
    the columns of a one-row matrix, is row `(i, j)` of the array. -/
theorem slabRow_of_slice {a b : Nat} (B : FVec Ideal ⟨3, ![a, b, 128]⟩ .f32) (i : Fin a) (j : Fin b)
    (h₁ : (⟨3, ![a, b, 128]⟩ : Shape).Slices ![i.val, j.val, 0] ⟨3, ![1, 1, 128]⟩)
    (h₂ : (⟨3, ![1, 1, 128]⟩ : Shape).ShapeCasts ⟨1, ![128]⟩)
    (h₃ : (⟨1, ![128]⟩ : Shape).BroadcastsInDim ⟨2, ![1, 128]⟩ ![1]) :
    broadcastInDim ⟨2, ![1, 128]⟩ ![1] h₃
      (shapeCast ⟨1, ![128]⟩ (extractStridedSlice ⟨3, ![1, 1, 128]⟩ ![i.val, j.val, 0] B h₁) h₂) = slabRow B i j := by
  refine (broadcastInDim_asRow _ h₃).trans ?_
  funext y
  obtain ⟨p, q, rfl⟩ : ∃ (p : Fin 1) (q : Fin 128), y = ix2 p q := ⟨y 0, y 1, eq_ix2 y⟩
  show shapeCast ⟨1, ![128]⟩ (extractStridedSlice ⟨3, ![1, 1, 128]⟩ ![i.val, j.val, 0] B h₁) h₂ (ix1 q) = B (ix3 i j q)
  refine (shapeCast_apply _ h₂ (ix1 q) (ix3 (0 : Fin 1) (0 : Fin 1) q) ?_).trans ?_
  · rw [Shape.rowMajor_val_three, Shape.rowMajor_val_one]
    show (0 * 1 + 0) * 128 + q.val = q.val
    omega
  · refine extractStridedSlice_apply _ B h₁ (ix3 (0 : Fin 1) (0 : Fin 1) q) (ix3 i j q) fun ax => ?_
    match ax with
    | ⟨0, _⟩ => show i.val = i.val + 0; rfl
    | ⟨1, _⟩ => show j.val = j.val + 0; rfl
    | ⟨2, _⟩ => show q.val = 0 + q.val; omega

/-! ## One dense layer, operation by operation -/

/-- The reference's products of a tall matrix with a `128 × 128` weight matrix are matrix products (the dimension
    numbers are the plain ones). -/
theorem dot_128 (a : FVec Ideal S131072x128 .f32) (W : FVec Ideal S128x128 .f32) :
    Host.dotGeneral dot_S131072x128_S128x128_S131072x128_1_0_0_1_n_n none a W = mm (n := 131072) (K := 128) (m := 128) a W :=
  dotGeneral_plain (M := 131072) (K := 128) (N := 128) none a W

/-- Twelve values, each the named operation of earlier ones — the product `d`, the bias row broadcast down the rows `bb`,
    their sum `s`, then `−s`, `exp (−s)`, `1 + exp (−s)`, `1 / (1 + exp (−s))` with each one a broadcast scalar constant,
    and the product with `s` — end at the dense layer of the operand. -/
theorem layer_of {X : Mat 131072 128} {W : Mat 128 128} {b : Mat 1 128}
    {d bb s n e o₁ t o₂ r Y : FVec Ideal S131072x128 .f32} {c₁ c₂ : FVec Ideal S_ .f32}
    (hd : d = Host.dotGeneral dot_S131072x128_S128x128_S131072x128_1_0_0_1_n_n none X W)
    (hbb : bb = broadcastInDim S131072x128 ![0, 1] bcast_S1x128_S131072x128_0_1 b)
    (hs : s = addf d bb) (hn : n = Host.negf s) (he : e = Host.exp n)
    (hc₁ : c₁ = constant S_ .f32 0x3F800000#32) (ho₁ : o₁ = broadcastInDim S131072x128 ![] bcast_S_S131072x128 c₁)
    (ht : t = addf o₁ e)
    (hc₂ : c₂ = constant S_ .f32 0x3F800000#32) (ho₂ : o₂ = broadcastInDim S131072x128 ![] bcast_S_S131072x128 c₂)
    (hr : r = Host.divf o₂ t) (hY : Y = mulf s r) : Y = dense X W b := by
  subst hY hr ho₂ hc₂ ht ho₁ hc₁ he hn hs hbb hd
  refine (mulf_div_exp (n := 131072) (m := 128) _ bcast_S_S131072x128).trans ?_
  unfold dense
  refine congrArg swish ?_
  refine (addf_broadcastInDim (n := 131072) (m := 128) _ b bcast_S1x128_S131072x128_0_1).trans ?_
  exact congrArg (addRow · b) (dot_128 X W)

/-- A dense layer whose weight matrix and bias row are cut out of an array of matrices and an array of vectors. -/
theorem layer_slab {a b : Nat} (Wa : FVec Ideal ⟨4, ![a, b, 128, 128]⟩ .f32) (Ba : FVec Ideal ⟨3, ![a, b, 128]⟩ .f32)
    (i : Fin a) (j : Fin b) (X : Mat 131072 128)
    {h₁ : (⟨4, ![a, b, 128, 128]⟩ : Shape).Slices ![i.val, j.val, 0, 0] S1x1x128x128}
    {h₁' : (⟨3, ![a, b, 128]⟩ : Shape).Slices ![i.val, j.val, 0] S1x1x128}
    {u : FVec Ideal S1x1x128x128 .f32} {w : FVec Ideal S128x128 .f32} {u' : FVec Ideal S1x1x128 .f32} {v : FVec Ideal S128 .f32}
    {b' : FVec Ideal S1x128 .f32} {d bb s n e o₁ t o₂ r Y : FVec Ideal S131072x128 .f32} {c₁ c₂ : FVec Ideal S_ .f32}
    (hu : u = extractStridedSlice S1x1x128x128 ![i.val, j.val, 0, 0] Wa h₁)
    (hw : w = shapeCast S128x128 u shapeCasts_S1x1x128x128_S128x128)
    (hd : d = Host.dotGeneral dot_S131072x128_S128x128_S131072x128_1_0_0_1_n_n none X w)
    (hu' : u' = extractStridedSlice S1x1x128 ![i.val, j.val, 0] Ba h₁')
    (hv : v = shapeCast S128 u' shapeCasts_S1x1x128_S128)
    (hb' : b' = broadcastInDim S1x128 ![1] bcast_S128_S1x128_1 v)
    (hbb : bb = broadcastInDim S131072x128 ![0, 1] bcast_S1x128_S131072x128_0_1 b')
    (hs : s = addf d bb) (hn : n = Host.negf s) (he : e = Host.exp n)
    (hc₁ : c₁ = constant S_ .f32 0x3F800000#32) (ho₁ : o₁ = broadcastInDim S131072x128 ![] bcast_S_S131072x128 c₁)
    (ht : t = addf o₁ e)
    (hc₂ : c₂ = constant S_ .f32 0x3F800000#32) (ho₂ : o₂ = broadcastInDim S131072x128 ![] bcast_S_S131072x128 c₂)
    (hr : r = Host.divf o₂ t) (hY : Y = mulf s r) : Y = dense X (slab Wa i j) (slabRow Ba i j) := by
  have ew : w = slab Wa i j := by
    subst hw hu
    exact slab_of_slice Wa i j h₁ shapeCasts_S1x1x128x128_S128x128
  have eb : b' = slabRow Ba i j := by
    subst hb' hv hu'
    exact slabRow_of_slice Ba i j h₁' shapeCasts_S1x1x128_S128 bcast_S128_S1x128_1
  subst ew eb
  exact layer_of hd hbb hs hn he hc₁ ho₁ ht hc₂ ho₂ hr hY

/-- A dense layer whose weight matrix is an argument and whose bias is a vector argument. -/
theorem layer_plain (X : Mat 131072 128) (W : Mat 128 128) (β : FVec Ideal S128 .f32)
    {b' : FVec Ideal S1x128 .f32} {d bb s n e o₁ t o₂ r Y : FVec Ideal S131072x128 .f32} {c₁ c₂ : FVec Ideal S_ .f32}
    (hd : d = Host.dotGeneral dot_S131072x128_S128x128_S131072x128_1_0_0_1_n_n none X W)
    (hb' : b' = broadcastInDim S1x128 ![1] bcast_S128_S1x128_1 β)
    (hbb : bb = broadcastInDim S131072x128 ![0, 1] bcast_S1x128_S131072x128_0_1 b')
    (hs : s = addf d bb) (hn : n = Host.negf s) (he : e = Host.exp n)
    (hc₁ : c₁ = constant S_ .f32 0x3F800000#32) (ho₁ : o₁ = broadcastInDim S131072x128 ![] bcast_S_S131072x128 c₁)
    (ht : t = addf o₁ e)
    (hc₂ : c₂ = constant S_ .f32 0x3F800000#32) (ho₂ : o₂ = broadcastInDim S131072x128 ![] bcast_S_S131072x128 c₂)
    (hr : r = Host.divf o₂ t) (hY : Y = mulf s r) : Y = dense X W (asRow β) := by
  have eb : b' = asRow β := hb'.trans (broadcastInDim_asRow (m := 128) β bcast_S128_S1x128_1)
  subst eb
  exact layer_of hd hbb hs hn he hc₁ ho₁ ht hc₂ ho₂ hr hY

/-- Two dense layers and the sum with the input are a residual block. -/
theorem residual_of {X Y₁ Y₂ Z : Mat 131072 128} {W₀ W₁ : Mat 128 128} {b₀ b₁ : Mat 1 128}
    (h₁ : Y₁ = dense X W₀ b₀) (h₂ : Y₂ = dense Y₁ W₁ b₁) (h₃ : Z = addf X Y₂) : Z = residual X W₀ b₀ W₁ b₁ := by
  subst h₃ h₂ h₁
  rfl

/-! ## The milestones -/

variable (V : Valuation τ sig (Elt Ideal))

/-- Operations 70–86: the first layer of the first residual block. -/
theorem v43_eq : after ops V (Proc.devRef .tc main_v43) = dense (after ops V (Proc.devRef .tc main_v34)) (slab (after ops V (Proc.devRef .tc main_arg14)) 0 0) (slabRow (after ops V (Proc.devRef .tc main_arg15)) 0 0) :=
  layer_slab (a := 1) (b := 2) (after ops V (Proc.devRef .tc main_arg14)) (after ops V (Proc.devRef .tc main_arg15)) 0 0 (after ops V (Proc.devRef .tc main_v34)) (e70 V) (e71 V) (e72 V) (e73 V) (e74 V) (e75 V) (e76 V) (e77 V) (e78 V) (e79 V) (e80 V) (e81 V) (e82 V) (e83 V) (e84 V) (e85 V) (e86 V)

/-- Operations 87–103: its second layer. -/
theorem v52_eq : after ops V (Proc.devRef .tc main_v52) = dense (after ops V (Proc.devRef .tc main_v43)) (slab (after ops V (Proc.devRef .tc main_arg14)) 0 1) (slabRow (after ops V (Proc.devRef .tc main_arg15)) 0 1) :=
  layer_slab (a := 1) (b := 2) (after ops V (Proc.devRef .tc main_arg14)) (after ops V (Proc.devRef .tc main_arg15)) 0 1 (after ops V (Proc.devRef .tc main_v43)) (e87 V) (e88 V) (e89 V) (e90 V) (e91 V) (e92 V) (e93 V) (e94 V) (e95 V) (e96 V) (e97 V) (e98 V) (e99 V) (e100 V) (e101 V) (e102 V) (e103 V)

/-- Operations 70–104: the first residual block. -/
theorem v53_eq : after ops V (Proc.devRef .tc main_v53) = residual (after ops V (Proc.devRef .tc main_v34)) (slab (after ops V (Proc.devRef .tc main_arg14)) 0 0) (slabRow (after ops V (Proc.devRef .tc main_arg15)) 0 0)
    (slab (after ops V (Proc.devRef .tc main_arg14)) 0 1) (slabRow (after ops V (Proc.devRef .tc main_arg15)) 0 1) :=
  residual_of (v43_eq V) (v52_eq V) (e104 V)

/-- Operations 105–117: the dense layer between the blocks. -/
theorem v58_eq : after ops V (Proc.devRef .tc main_v58) = dense (after ops V (Proc.devRef .tc main_v53)) (after ops V (Proc.devRef .tc main_arg16)) (asRow (after ops V (Proc.devRef .tc main_arg17))) :=
  layer_plain (after ops V (Proc.devRef .tc main_v53)) (after ops V (Proc.devRef .tc main_arg16)) (after ops V (Proc.devRef .tc main_arg17)) (e105 V) (e106 V) (e107 V) (e108 V) (e109 V) (e110 V) (e111 V) (e112 V) (e113 V) (e114 V) (e115 V) (e116 V) (e117 V)

/-- Operations 119–135 and 136–152: the two layers of the second residual block. -/
theorem v68_eq : after ops V (Proc.devRef .tc main_v68) = dense (after ops V (Proc.devRef .tc main_v59)) (slab (after ops V (Proc.devRef .tc main_arg18)) 0 0) (slabRow (after ops V (Proc.devRef .tc main_arg19)) 0 0) :=
  layer_slab (a := 2) (b := 2) (after ops V (Proc.devRef .tc main_arg18)) (after ops V (Proc.devRef .tc main_arg19)) 0 0 (after ops V (Proc.devRef .tc main_v59)) (e119 V) (e120 V) (e121 V) (e122 V) (e123 V) (e124 V) (e125 V) (e126 V) (e127 V) (e128 V) (e129 V) (e130 V) (e131 V) (e132 V) (e133 V) (e134 V) (e135 V)

theorem v77_eq : after ops V (Proc.devRef .tc main_v77) = dense (after ops V (Proc.devRef .tc main_v68)) (slab (after ops V (Proc.devRef .tc main_arg18)) 0 1) (slabRow (after ops V (Proc.devRef .tc main_arg19)) 0 1) :=
  layer_slab (a := 2) (b := 2) (after ops V (Proc.devRef .tc main_arg18)) (after ops V (Proc.devRef .tc main_arg19)) 0 1 (after ops V (Proc.devRef .tc main_v68)) (e136 V) (e137 V) (e138 V) (e139 V) (e140 V) (e141 V) (e142 V) (e143 V) (e144 V) (e145 V) (e146 V) (e147 V) (e148 V) (e149 V) (e150 V) (e151 V) (e152 V)

/-- Operations 119–153: the second residual block. -/
theorem v78_eq : after ops V (Proc.devRef .tc main_v78) = residual (after ops V (Proc.devRef .tc main_v59)) (slab (after ops V (Proc.devRef .tc main_arg18)) 0 0) (slabRow (after ops V (Proc.devRef .tc main_arg19)) 0 0)
    (slab (after ops V (Proc.devRef .tc main_arg18)) 0 1) (slabRow (after ops V (Proc.devRef .tc main_arg19)) 0 1) :=
  residual_of (v68_eq V) (v77_eq V) (e153 V)

/-- Operations 154–170 and 171–187: the two layers of the third residual block. -/
theorem v87_eq : after ops V (Proc.devRef .tc main_v87) = dense (after ops V (Proc.devRef .tc main_v78)) (slab (after ops V (Proc.devRef .tc main_arg18)) 1 0) (slabRow (after ops V (Proc.devRef .tc main_arg19)) 1 0) :=
  layer_slab (a := 2) (b := 2) (after ops V (Proc.devRef .tc main_arg18)) (after ops V (Proc.devRef .tc main_arg19)) 1 0 (after ops V (Proc.devRef .tc main_v78)) (e154 V) (e155 V) (e156 V) (e157 V) (e158 V) (e159 V) (e160 V) (e161 V) (e162 V) (e163 V) (e164 V) (e165 V) (e166 V) (e167 V) (e168 V) (e169 V) (e170 V)

theorem v96_eq : after ops V (Proc.devRef .tc main_v96) = dense (after ops V (Proc.devRef .tc main_v87)) (slab (after ops V (Proc.devRef .tc main_arg18)) 1 1) (slabRow (after ops V (Proc.devRef .tc main_arg19)) 1 1) :=
  layer_slab (a := 2) (b := 2) (after ops V (Proc.devRef .tc main_arg18)) (after ops V (Proc.devRef .tc main_arg19)) 1 1 (after ops V (Proc.devRef .tc main_v87)) (e171 V) (e172 V) (e173 V) (e174 V) (e175 V) (e176 V) (e177 V) (e178 V) (e179 V) (e180 V) (e181 V) (e182 V) (e183 V) (e184 V) (e185 V) (e186 V) (e187 V)

/-- Operations 154–188: the third residual block, the result. -/
theorem v97_eq : after ops V (Proc.devRef .tc main_v97) = residual (after ops V (Proc.devRef .tc main_v78)) (slab (after ops V (Proc.devRef .tc main_arg18)) 1 0) (slabRow (after ops V (Proc.devRef .tc main_arg19)) 1 0)
    (slab (after ops V (Proc.devRef .tc main_arg18)) 1 1) (slabRow (after ops V (Proc.devRef .tc main_arg19)) 1 1) :=
  residual_of (v87_eq V) (v96_eq V) (e188 V)

end Cert.ReferenceIdeal.RefValue.Second

namespace Cert.ReferenceIdeal.RefValue

open Second

variable (V : Valuation τ sig (Elt Ideal))

/-- Operations 70–188: from `P`, the value of the sum at operation 69, the result is a residual block, the dense layer
    with the skip connection from the edge embedding, and two more residual blocks. -/
theorem second_half (P : Mat 131072 128) (h : after ops V (Proc.devRef .tc main_v34) = P) :
    after ops V (Proc.devRef .tc main_v97)
      = residual (residual (addf (after ops V (Proc.devRef .tc main_arg0))
            (dense (residual P (slab (after ops V (Proc.devRef .tc main_arg14)) 0 0) (slabRow (after ops V (Proc.devRef .tc main_arg15)) 0 0)
                (slab (after ops V (Proc.devRef .tc main_arg14)) 0 1) (slabRow (after ops V (Proc.devRef .tc main_arg15)) 0 1))
              (after ops V (Proc.devRef .tc main_arg16)) (asRow (after ops V (Proc.devRef .tc main_arg17)))))
          (slab (after ops V (Proc.devRef .tc main_arg18)) 0 0) (slabRow (after ops V (Proc.devRef .tc main_arg19)) 0 0)
          (slab (after ops V (Proc.devRef .tc main_arg18)) 0 1) (slabRow (after ops V (Proc.devRef .tc main_arg19)) 0 1))
        (slab (after ops V (Proc.devRef .tc main_arg18)) 1 0) (slabRow (after ops V (Proc.devRef .tc main_arg19)) 1 0)
        (slab (after ops V (Proc.devRef .tc main_arg18)) 1 1) (slabRow (after ops V (Proc.devRef .tc main_arg19)) 1 1) := by
  subst h
  refine (v97_eq V).trans ?_
  refine congrArg (residual · _ _ _ _) ?_
  refine (v78_eq V).trans ?_
  refine congrArg (residual · _ _ _ _) ?_
  refine (e118 V).trans ?_
  refine congrArg (addf _) ?_
  refine (v58_eq V).trans ?_
  exact congrArg (dense · _ _) (v53_eq V)

end Cert.ReferenceIdeal.RefValue

end
-- ==== Proof.RefValue.lean ====
/-
  The reference program's result as one function of its argument arrays: the first residual block's input (operations 0–69:
  the two per-edge dense layers, the gather, the per-angle gate, the aggregation and its up-projection) followed by the
  residual blocks, the dense layer and the skip connection (operations 70–188) are the whole block; and an argument array
  is never written, so its final contents are its launch contents.
-/
import proofs.«412852_j76192719831249_3_alg».proof.Proof.RefFirst
import proofs.«412852_j76192719831249_3_alg».proof.Proof.RefSecond

noncomputable section

namespace Cert.ReferenceIdeal.RefValue

open Cert.ReferenceIdeal Cert.ReferenceIdeal.Gen Cert.ReferenceIdeal.RefRun Cert.ReferenceIdeal.RefSsa
open Idealize.ShloMosaic Idealize.ShloMosaic.TcCoe Idealize.ShloMosaic.StableHlo Idealize.ShloMosaic.StableHlo.Ssa
open Idealize.ShloMosaic.Rowwise Cert.Dense

section Args
variable {F : FTy → Type} [FloatOps F] (V : Valuation τ sig (Elt F))

/-- Argument 0 is never written. -/
theorem arg0 : after ops V (Proc.devRef .tc main_arg0) = V (Proc.devRef .tc main_arg0) :=
  after_arg ops W hW V main_arg0 (by decide +kernel)
/-- Argument 1 is never written. -/
theorem arg1 : after ops V (Proc.devRef .tc main_arg1) = V (Proc.devRef .tc main_arg1) :=
  after_arg ops W hW V main_arg1 (by decide +kernel)
/-- Argument 2 is never written. -/
theorem arg2 : after ops V (Proc.devRef .tc main_arg2) = V (Proc.devRef .tc main_arg2) :=
  after_arg ops W hW V main_arg2 (by decide +kernel)
/-- Argument 3 is never written. -/
theorem arg3 : after ops V (Proc.devRef .tc main_arg3) = V (Proc.devRef .tc main_arg3) :=
  after_arg ops W hW V main_arg3 (by decide +kernel)
/-- Argument 4 is never written. -/
theorem arg4 : after ops V (Proc.devRef .tc main_arg4) = V (Proc.devRef .tc main_arg4) :=
  after_arg ops W hW V main_arg4 (by decide +kernel)
/-- Argument 5 is never written. -/
theorem arg5 : after ops V (Proc.devRef .tc main_arg5) = V (Proc.devRef .tc main_arg5) :=
  after_arg ops W hW V main_arg5 (by decide +kernel)
/-- Argument 6 is never written. -/
theorem arg6 : after ops V (Proc.devRef .tc main_arg6) = V (Proc.devRef .tc main_arg6) :=
  after_arg ops W hW V main_arg6 (by decide +kernel)
/-- Argument 7 is never written. -/
theorem arg7 : after ops V (Proc.devRef .tc main_arg7) = V (Proc.devRef .tc main_arg7) :=
  after_arg ops W hW V main_arg7 (by decide +kernel)
/-- Argument 8 is never written. -/
theorem arg8 : after ops V (Proc.devRef .tc main_arg8) = V (Proc.devRef .tc main_arg8) :=
  after_arg ops W hW V main_arg8 (by decide +kernel)
/-- Argument 9 is never written. -/
theorem arg9 : after ops V (Proc.devRef .tc main_arg9) = V (Proc.devRef .tc main_arg9) :=
  after_arg ops W hW V main_arg9 (by decide +kernel)
/-- Argument 10 is never written. -/
theorem arg10 : after ops V (Proc.devRef .tc main_arg10) = V (Proc.devRef .tc main_arg10) :=
  after_arg ops W hW V main_arg10 (by decide +kernel)
/-- Argument 11 is never written. -/
theorem arg11 : after ops V (Proc.devRef .tc main_arg11) = V (Proc.devRef .tc main_arg11) :=
  after_arg ops W hW V main_arg11 (by decide +kernel)
/-- Argument 12 is never written. -/
theorem arg12 : after ops V (Proc.devRef .tc main_arg12) = V (Proc.devRef .tc main_arg12) :=
  after_arg ops W hW V main_arg12 (by decide +kernel)
/-- Argument 13 is never written. -/
theorem arg13 : after ops V (Proc.devRef .tc main_arg13) = V (Proc.devRef .tc main_arg13) :=
  after_arg ops W hW V main_arg13 (by decide +kernel)
/-- Argument 14 is never written. -/
theorem arg14 : after ops V (Proc.devRef .tc main_arg14) = V (Proc.devRef .tc main_arg14) :=
  after_arg ops W hW V main_arg14 (by decide +kernel)
/-- Argument 15 is never written. -/
theorem arg15 : after ops V (Proc.devRef .tc main_arg15) = V (Proc.devRef .tc main_arg15) :=
  after_arg ops W hW V main_arg15 (by decide +kernel)
/-- Argument 16 is never written. -/
theorem arg16 : after ops V (Proc.devRef .tc main_arg16) = V (Proc.devRef .tc main_arg16) :=
  after_arg ops W hW V main_arg16 (by decide +kernel)
/-- Argument 17 is never written. -/
theorem arg17 : after ops V (Proc.devRef .tc main_arg17) = V (Proc.devRef .tc main_arg17) :=
  after_arg ops W hW V main_arg17 (by decide +kernel)
/-- Argument 18 is never written. -/
theorem arg18 : after ops V (Proc.devRef .tc main_arg18) = V (Proc.devRef .tc main_arg18) :=
  after_arg ops W hW V main_arg18 (by decide +kernel)
/-- Argument 19 is never written. -/
theorem arg19 : after ops V (Proc.devRef .tc main_arg19) = V (Proc.devRef .tc main_arg19) :=
  after_arg ops W hW V main_arg19 (by decide +kernel)

end Args

variable (V : Valuation τ sig (Elt Ideal))

/-- The result buffer ends at the whole block of the launch contents of the arguments. -/
theorem value :
    after ops V (Proc.devRef .tc main_v97)
      = block (gth (V (Proc.devRef .tc main_arg3))) (agg (V (Proc.devRef .tc main_arg3)))
          (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [second_half V _ (first_half V)]
  simp only [arg0 V, arg1 V, arg2 V, arg3 V, arg4 V, arg5 V, arg6 V, arg7 V, arg8 V, arg9 V, arg10 V, arg11 V, arg12 V, arg13 V, arg14 V, arg15 V, arg16 V, arg17 V, arg18 V, arg19 V]
  rfl

end Cert.ReferenceIdeal.RefValue

end
-- ==== Proof.lean ====
/-
  The certificate of the interaction block: a three-kernel program (per-edge dense projection; per-angle gate of gathered
  rows; per-edge post-aggregation layers with residual blocks), with a gather and a scatter-add on the host between the
  kernels, against its plain reference, over the extended reals.

  Both programs compute, from the same arguments, the same block (DenseStages.lean): every kernel works on 8192 rows at a
  time and each of its stages computes a row of its result from the same row of its operands, so the row blocks assemble
  to the stage applied to whole arrays (Region0, Region1, Region2); the reference applies the same stages to whole arrays,
  spelling a product as a general dot product and swish as `x · (1 / (1 + e⁻ˣ))`, which are the same functions of extended
  reals. The one difference is the gather: the kernel program masks a gathered row whose index is outside the table
  (filling it with a not-a-number pattern) where the reference reads the clamped row. The precondition puts every gather
  index inside the table (0 ≤ index < 131072), so the mask is everywhere true and the two gathers agree.

  The three frames: the two kernel programs' are the generated frame certificates; the reference is a straight line of
  host operations, which runs to the fold of its operation list and writes no argument.
-/
import proofs.«412852_j76192719831249_3_alg».proof.Defs
import proofs.«412852_j76192719831249_3_alg».proof.Proof.Gen.Kernel
import proofs.«412852_j76192719831249_3_alg».proof.Proof.Gen.Kernel.Frame
import proofs.«412852_j76192719831249_3_alg».proof.Proof.Gen.KernelIdeal
import proofs.«412852_j76192719831249_3_alg».proof.Proof.Gen.KernelIdeal.Frame
import proofs.«412852_j76192719831249_3_alg».proof.Proof.Gen.ReferenceIdeal
import proofs.«412852_j76192719831249_3_alg».proof.Proof.Gen.Pre_finite_inputs
import proofs.«412852_j76192719831249_3_alg».proof.Proof.KernelRun
import proofs.«412852_j76192719831249_3_alg».proof.Proof.KernelValue
import proofs.«412852_j76192719831249_3_alg».proof.Proof.RefValue
import proofs.«412852_j76192719831249_3_alg».proof.Proof.IndexRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs to the fold of its operations, and no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.arg0 _),
     (h c Cert.ReferenceIdeal.main_arg1).trans (Cert.ReferenceIdeal.RefValue.arg1 _),
     (h c Cert.ReferenceIdeal.main_arg2).trans (Cert.ReferenceIdeal.RefValue.arg2 _),
     (h c Cert.ReferenceIdeal.main_arg3).trans (Cert.ReferenceIdeal.RefValue.arg3 _),
     (h c Cert.ReferenceIdeal.main_arg4).trans (Cert.ReferenceIdeal.RefValue.arg4 _),
     (h c Cert.ReferenceIdeal.main_arg5).trans (Cert.ReferenceIdeal.RefValue.arg5 _),
     (h c Cert.ReferenceIdeal.main_arg6).trans (Cert.ReferenceIdeal.RefValue.arg6 _),
     (h c Cert.ReferenceIdeal.main_arg7).trans (Cert.ReferenceIdeal.RefValue.arg7 _),
     (h c Cert.ReferenceIdeal.main_arg8).trans (Cert.ReferenceIdeal.RefValue.arg8 _),
     (h c Cert.ReferenceIdeal.main_arg9).trans (Cert.ReferenceIdeal.RefValue.arg9 _),
     (h c Cert.ReferenceIdeal.main_arg10).trans (Cert.ReferenceIdeal.RefValue.arg10 _),
     (h c Cert.ReferenceIdeal.main_arg11).trans (Cert.ReferenceIdeal.RefValue.arg11 _),
     (h c Cert.ReferenceIdeal.main_arg12).trans (Cert.ReferenceIdeal.RefValue.arg12 _),
     (h c Cert.ReferenceIdeal.main_arg13).trans (Cert.ReferenceIdeal.RefValue.arg13 _),
     (h c Cert.ReferenceIdeal.main_arg14).trans (Cert.ReferenceIdeal.RefValue.arg14 _),
     (h c Cert.ReferenceIdeal.main_arg15).trans (Cert.ReferenceIdeal.RefValue.arg15 _),
     (h c Cert.ReferenceIdeal.main_arg16).trans (Cert.ReferenceIdeal.RefValue.arg16 _),
     (h c Cert.ReferenceIdeal.main_arg17).trans (Cert.ReferenceIdeal.RefValue.arg17 _),
     (h c Cert.ReferenceIdeal.main_arg18).trans (Cert.ReferenceIdeal.RefValue.arg18 _),
     (h c Cert.ReferenceIdeal.main_arg19).trans (Cert.ReferenceIdeal.RefValue.arg19 _)⟩)
    (Cert.ReferenceIdeal.RefRun.run_after (F := Ideal) m ρ)

theorem preserves : Cert.preserves_Kernel_KernelIdeal := trivial

/-- Both programs end with the block of the arguments in their result buffers: the kernel program through its three
    regions (the gather's range mask true everywhere by the precondition), the reference through its operations; the
    arguments agree, and the two programs' gather and scatter-add are the same functions. -/
theorem algebraic : Cert.algebraic_KernelIdeal_ReferenceIdeal := by
  intro m ρ m' ρ' hpre hagree
  have hidx : ∀ c : Dev Cert.KernelIdeal.nD, ∀ p : Fin 1048576,
      (0 : Int) ≤ ((m ((c.tc : Thread Cert.KernelIdeal.nD Cert.KernelIdeal.τ).loc Cert.KernelIdeal.main_arg3)) (ValueIdx.ix2 p 1)).toInt
        ∧ ((m ((c.tc : Thread Cert.KernelIdeal.nD Cert.KernelIdeal.τ).loc Cert.KernelIdeal.main_arg3)) (ValueIdx.ix2 p 1)).toInt < 131072 :=
    fun c => Cert.Proof.IndexRange.of_pre _ _ _ _ _ _ _ _ _ _ _ _ _ _ _ _ _ _ _ _ (hpre c)
  refine ⟨fun c => Cert.Dense.block (Cert.KernelIdeal.KValue.gth (m ((c.tc : Thread Cert.KernelIdeal.nD Cert.KernelIdeal.τ).loc Cert.KernelIdeal.main_arg3))) (Cert.KernelIdeal.KValue.agg (m ((c.tc : Thread Cert.KernelIdeal.nD Cert.KernelIdeal.τ).loc Cert.KernelIdeal.main_arg3)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono (fun _ h c => ⟨(h c).1.trans (Cert.KernelIdeal.KValue.value m ρ c (hidx c)), (h c).2⟩)
      (Cert.KernelIdeal.GenRun.run (F := Ideal) m ρ)
  · refine (θ_run Cert.ReferenceIdeal.defs _ _).mono (fun _ h c =>
      ⟨(h c Cert.ReferenceIdeal.main_v97).trans ((Cert.ReferenceIdeal.RefValue.value _).trans ?_),
       (h c Cert.ReferenceIdeal.main_arg0).trans (Cert.ReferenceIdeal.RefValue.arg0 _),
       (h c Cert.ReferenceIdeal.main_arg1).trans (Cert.ReferenceIdeal.RefValue.arg1 _),
       (h c Cert.ReferenceIdeal.main_arg2).trans (Cert.ReferenceIdeal.RefValue.arg2 _),
       (h c Cert.ReferenceIdeal.main_arg3).trans (Cert.ReferenceIdeal.RefValue.arg3 _),
       (h c Cert.ReferenceIdeal.main_arg4).trans (Cert.ReferenceIdeal.RefValue.arg4 _),
       (h c Cert.ReferenceIdeal.main_arg5).trans (Cert.ReferenceIdeal.RefValue.arg5 _),
       (h c Cert.ReferenceIdeal.main_arg6).trans (Cert.ReferenceIdeal.RefValue.arg6 _),
       (h c Cert.ReferenceIdeal.main_arg7).trans (Cert.ReferenceIdeal.RefValue.arg7 _),
       (h c Cert.ReferenceIdeal.main_arg8).trans (Cert.ReferenceIdeal.RefValue.arg8 _),
       (h c Cert.ReferenceIdeal.main_arg9).trans (Cert.ReferenceIdeal.RefValue.arg9 _),
       (h c Cert.ReferenceIdeal.main_arg10).trans (Cert.ReferenceIdeal.RefValue.arg10 _),
       (h c Cert.ReferenceIdeal.main_arg11).trans (Cert.ReferenceIdeal.RefValue.arg11 _),
       (h c Cert.ReferenceIdeal.main_arg12).trans (Cert.ReferenceIdeal.RefValue.arg12 _),
       (h c Cert.ReferenceIdeal.main_arg13).trans (Cert.ReferenceIdeal.RefValue.arg13 _),
       (h c Cert.ReferenceIdeal.main_arg14).trans (Cert.ReferenceIdeal.RefValue.arg14 _),
       (h c Cert.ReferenceIdeal.main_arg15).trans (Cert.ReferenceIdeal.RefValue.arg15 _),
       (h c Cert.ReferenceIdeal.main_arg16).trans (Cert.ReferenceIdeal.RefValue.arg16 _),
       (h c Cert.ReferenceIdeal.main_arg17).trans (Cert.ReferenceIdeal.RefValue.arg17 _),
       (h c Cert.ReferenceIdeal.main_arg18).trans (Cert.ReferenceIdeal.RefValue.arg18 _),
       (h c Cert.ReferenceIdeal.main_arg19).trans (Cert.ReferenceIdeal.RefValue.arg19 _)⟩)
      (Cert.ReferenceIdeal.RefRun.run_after (F := Ideal) m' ρ')
    obtain ⟨e0, e1, e2, e3, e4, e5, e6, e7, e8, e9, e10, e11, e12, e13, e14, e15, e16, e17, e18, e19⟩ := hagree c
    show Cert.Dense.block (Cert.ReferenceIdeal.RefValue.gth (m' ((c.tc : Thread Cert.ReferenceIdeal.nD Cert.ReferenceIdeal.τ).loc Cert.ReferenceIdeal.main_arg3))) (Cert.ReferenceIdeal.RefValue.agg (m' ((c.tc : Thread Cert.ReferenceIdeal.nD Cert.ReferenceIdeal.τ).loc Cert.ReferenceIdeal.main_arg3)))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19)) = _
    rw [e0, e1, e2, e3, e4, e5, e6, e7, e8, e9, e10, e11, e12, e13, e14, e15, e16, e17, e18, e19]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
